-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x1x16384 : Shape := ⟨4, ![16, 128, 1, 16384]⟩
abbrev S64x128 : Shape := ⟨2, ![64, 128]⟩
abbrev S64 : Shape := ⟨1, ![64]⟩
abbrev S128x128 : Shape := ⟨2, ![128, 128]⟩
abbrev S128 : Shape := ⟨1, ![128]⟩
abbrev S_ : Shape := ⟨0, ![]⟩

class Facts : Prop where
  bcast_S_S16x128x1x16384 : S_.BroadcastsInDim S16x128x1x16384 (![] : Fin 0 → Fin S16x128x1x16384.rank)
  reducesTo_S16x128x1x16384_S_d0_1_2_3 : S16x128x1x16384.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S64 .f32) (main_arg5 : FVec F S128x128 .f32) (main_arg6 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S16x128x1x16384 .f32) (main_arg1 : FVec F S64x128 .f32) (main_arg2 : FVec F S64 .f32) (main_arg3 : FVec F S64 .f32) (main_arg4 : FVec F S64 .f32) (main_arg5 : FVec F S128x128 .f32) (main_arg6 : FVec F S128 .f32) : IVec S_ 1 :=
  let main_v0 : FVec F S16x128x1x16384 .f32 := Host.absf main_arg0
  let main_cst : FVec F S_ .f32 := constant S_ .f32 0x7F800000#32
  let main_v1 : FVec F S16x128x1x16384 .f32 := broadcastInDim S16x128x1x16384 ![] bcast_S_S16x128x1x16384 main_cst
  let main_v2 : IVec S16x128x1x16384 1 := cmpf .olt main_v0 main_v1
  let main_c : IVec S_ 1 := constantI S_ 1 1#1
  let main_v3 : IVec S_ 1 := (fun x v => Host.reduce IntOp.andi x v reducesTo_S16x128x1x16384_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S16x128x1x16384 : Shape := ⟨4, ![16, 128, 1, 16384]⟩
abbrev S64x128 : Shape := ⟨2, ![64, 128]⟩
abbrev S64 : Shape := ⟨1, ![64]⟩
abbrev S128x128 : Shape := ⟨2, ![128, 128]⟩
abbrev S128 : Shape := ⟨1, ![128]⟩
abbrev S64x1 : Shape := ⟨2, ![64, 1]⟩
abbrev S_ : Shape := ⟨0, ![]⟩
abbrev S16x64x128 : Shape := ⟨3, ![16, 64, 128]⟩
abbrev S1x64x1 : Shape := ⟨3, ![1, 64, 1]⟩
abbrev S16x128 : Shape := ⟨2, ![16, 128]⟩
abbrev S1x128 : Shape := ⟨2, ![1, 128]⟩
abbrev S16x128x1 : Shape := ⟨3, ![16, 128, 1]⟩
abbrev S1x128x1x16384 : Shape := ⟨4, ![1, 128, 1, 16384]⟩
abbrev S1x64x128 : Shape := ⟨3, ![1, 64, 128]⟩
abbrev S1x128x1x2048 : Shape := ⟨4, ![1, 128, 1, 2048]⟩
abbrev S128x2048 : Shape := ⟨2, ![128, 2048]⟩
abbrev S2048 : Shape := ⟨1, ![2048]⟩
abbrev S1x2048 : Shape := ⟨2, ![1, 2048]⟩
abbrev S64x2048 : Shape := ⟨2, ![64, 2048]⟩
abbrev S1x128x1 : Shape := ⟨3, ![1, 128, 1]⟩
abbrev S128x16384 : Shape := ⟨2, ![128, 16384]⟩
abbrev S128x1 : Shape := ⟨2, ![128, 1]⟩

abbrev nBuf : Space → Nat
  | .hbm => 86
  | .vmem => 16
  | .smem => 0
  | _ => 0

abbrev bufTy : (tb : Table) → Fin (tcTables nBuf tb) → BufTy
  | .hbm, ⟨0, _⟩ => ⟨S16x128x1x16384, .f32⟩
  | .hbm, ⟨1, _⟩ => ⟨S64x128, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128x128, .f32⟩
  | .hbm, ⟨6, _⟩ => ⟨S128, .f32⟩
  | .hbm, ⟨7, _⟩ => ⟨S64x1, .f32⟩
  | .hbm, ⟨8, _⟩ => ⟨S64x128, .f32⟩
  | .hbm, ⟨9, _⟩ => ⟨S_, .f32⟩
  | .hbm, ⟨10, _⟩ => ⟨S64, .f32⟩
  | .hbm, ⟨11, _⟩ => ⟨S64x1, .f32⟩
  | .hbm, ⟨12, _⟩ => ⟨S_, .f32⟩
  | .hbm, ⟨13, _⟩ => ⟨S64x1, .f32⟩
  | .hbm, ⟨14, _⟩ => ⟨S64x1, .f32⟩
  | .hbm, ⟨15, _⟩ => ⟨S64x128, .f32⟩
  | .hbm, ⟨16, _⟩ => ⟨S64x128, .f32⟩
  | .hbm, ⟨17, _⟩ => ⟨S64x1, .f32⟩
  | .hbm, ⟨18, _⟩ => ⟨S16x64x128, .f32⟩
  | .hbm, ⟨19, _⟩ => ⟨S_, .f32⟩
  | .hbm, ⟨20, _⟩ => ⟨S64, .f32⟩
  | .hbm, ⟨21, _⟩ => ⟨S1x64x1, .f32⟩
  | .hbm, ⟨22, _⟩ => ⟨S_, .f32⟩
  | .hbm, ⟨23, _⟩ => ⟨S1x64x1, .f32⟩
  | .hbm, ⟨24, _⟩ => ⟨S1x64x1, .f32⟩
  | .hbm, ⟨25, _⟩ => ⟨S_, .i32⟩
  | .hbm, ⟨26, _⟩ => ⟨S_, .f32⟩
  | .hbm, ⟨27, _⟩ => ⟨S64, .f32⟩
  | .hbm, ⟨28, _⟩ => ⟨S1x64x1, .f32⟩
  | .hbm, ⟨29, _⟩ => ⟨S_, .f32⟩
  | .hbm, ⟨30, _⟩ => ⟨S1x64x1, .f32⟩
  | .hbm, ⟨31, _⟩ => ⟨S1x64x1, .f32⟩
  | .hbm, ⟨32, _⟩ => ⟨S16x64x128, .f32⟩
  | .hbm, ⟨33, _⟩ => ⟨S16x64x128, .f32⟩
  | .hbm, ⟨34, _⟩ => ⟨S16x64x128, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S64, .f32⟩
  | .hbm, ⟨40, _⟩ => ⟨S1x64x1, .f32⟩
  | .hbm, ⟨41, _⟩ => ⟨S1x64x1, .f32⟩
  | .hbm, ⟨42, _⟩ => ⟨S1x64x1, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S1x64x1, .f32⟩
  | .hbm, ⟨48, _⟩ => ⟨S1x64x1, .f32⟩
  | .hbm, ⟨49, _⟩ => ⟨S16x64x128, .f32⟩
  | .hbm, ⟨50, _⟩ => ⟨S16x64x128, .f32⟩
  | .hbm, ⟨51, _⟩ => ⟨S_, .f32⟩
  | .hbm, ⟨52, _⟩ => ⟨S1x64x1, .f32⟩
  | .hbm, ⟨53, _⟩ => ⟨S1x64x1, .f32⟩
  | .hbm, ⟨54, _⟩ => ⟨S1x64x1, .f32⟩
  | .hbm, ⟨55, _⟩ => ⟨S16x64x128, .f32⟩
  | .hbm, ⟨56, _⟩ => ⟨S16x64x128, .f32⟩
  | .hbm, ⟨57, _⟩ => ⟨S1x64x1, .f32⟩
  | .hbm, ⟨58, _⟩ => ⟨S16x64x128, .f32⟩
  | .hbm, ⟨59, _⟩ => ⟨S16x64x128, .f32⟩
  | .hbm, ⟨60, _⟩ => ⟨S1x64x1, .f32⟩
  | .hbm, ⟨61, _⟩ => ⟨S16x64x128, .f32⟩
  | .hbm, ⟨62, _⟩ => ⟨S16x64x128, .f32⟩
  | .hbm, ⟨63, _⟩ => ⟨S_, .f32⟩
  | .hbm, ⟨64, _⟩ => ⟨S16x64x128, .f32⟩
  | .hbm, ⟨65, _⟩ => ⟨S16x64x128, .f32⟩
  | .hbm, ⟨66, _⟩ => ⟨S_, .f32⟩
  | .hbm, ⟨67, _⟩ => ⟨S16x128, .f32⟩
  | .hbm, ⟨68, _⟩ => ⟨S_, .f32⟩
  | .hbm, ⟨69, _⟩ => ⟨S16x128, .f32⟩
  | .hbm, ⟨70, _⟩ => ⟨S16x128, .f32⟩
  | .hbm, ⟨71, _⟩ => ⟨S128x128, .f32⟩
  | .hbm, ⟨72, _⟩ => ⟨S16x128, .f32⟩
  | .hbm, ⟨73, _⟩ => ⟨S1x128, .f32⟩
  | .hbm, ⟨74, _⟩ => ⟨S16x128, .f32⟩
  | .hbm, ⟨75, _⟩ => ⟨S16x128, .f32⟩
  | .hbm, ⟨76, _⟩ => ⟨S16x128, .f32⟩
  | .hbm, ⟨77, _⟩ => ⟨S16x128, .f32⟩
  | .hbm, ⟨78, _⟩ => ⟨S_, .f32⟩
  | .hbm, ⟨79, _⟩ => ⟨S16x128, .f32⟩
  | .hbm, ⟨80, _⟩ => ⟨S16x128, .f32⟩
  | .hbm, ⟨81, _⟩ => ⟨S_, .f32⟩
  | .hbm, ⟨82, _⟩ => ⟨S16x128, .f32⟩
  | .hbm, ⟨83, _⟩ => ⟨S16x128, .f32⟩
  | .hbm, ⟨84, _⟩ => ⟨S16x128x1, .f32⟩
  | .hbm, ⟨85, _⟩ => ⟨S16x128x1x16384, .f32⟩
  | .local _ .vmem, ⟨0, _⟩ => ⟨S1x128x1x16384, .f32⟩
  | .local _ .vmem, ⟨1, _⟩ => ⟨S1x128x1x16384, .f32⟩
  | .local _ .vmem, ⟨2, _⟩ => ⟨S64x128, .f32⟩
  | .local _ .vmem, ⟨3, _⟩ => ⟨S64x128, .f32⟩
  | .local _ .vmem, ⟨4, _⟩ => ⟨S64x1, .f32⟩
  | .local _ .vmem, ⟨5, _⟩ => ⟨S64x1, .f32⟩
  | .local _ .vmem, ⟨6, _⟩ => ⟨S1x64x128, .f32⟩
  | .local _ .vmem, ⟨7, _⟩ => ⟨S1x64x128, .f32⟩
  | .local _ .vmem, ⟨8, _⟩ => ⟨S64x1, .f32⟩
  | .local _ .vmem, ⟨9, _⟩ => ⟨S64x128, .f32⟩
  | .local _ .vmem, ⟨10, _⟩ => ⟨S1x128x1x16384, .f32⟩
  | .local _ .vmem, ⟨11, _⟩ => ⟨S1x128x1x16384, .f32⟩
  | .local _ .vmem, ⟨12, _⟩ => ⟨S1x128x1, .f32⟩
  | .local _ .vmem, ⟨13, _⟩ => ⟨S1x128x1, .f32⟩
  | .local _ .vmem, ⟨14, _⟩ => ⟨S1x128x1x16384, .f32⟩
  | .local _ .vmem, ⟨15, _⟩ => ⟨S1x128x1x16384, .f32⟩
  | _, _ => ⟨S16x128x1x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_cst_1 : Ref sig .tc := ⟨.hbm, 19, rfl⟩
abbrev main_call0_v10 : Ref sig .tc := ⟨.hbm, 20, rfl⟩
abbrev main_call0_v11 : Ref sig .tc := ⟨.hbm, 21, rfl⟩
abbrev main_call0_cst_2 : Ref sig .tc := ⟨.hbm, 22, rfl⟩
abbrev main_call0_v12 : Ref sig .tc := ⟨.hbm, 23, rfl⟩
abbrev main_call0_v13 : Ref sig .tc := ⟨.hbm, 24, rfl⟩
abbrev main_call0_c : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_cst_0 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_cst_1 : Ref sig .tc := ⟨.hbm, 36, rfl⟩
abbrev main_call0_call0_v8 : Ref sig .tc := ⟨.hbm, 37, rfl⟩
abbrev main_call0_call0_cst_2 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_call0_v12 : Ref sig .tc := ⟨.hbm, 42, rfl⟩
abbrev main_call0_call0_cst_3 : Ref sig .tc := ⟨.hbm, 43, rfl⟩
abbrev main_call0_call0_v13 : Ref sig .tc := ⟨.hbm, 44, rfl⟩
abbrev main_call0_call0_cst_4 : Ref sig .tc := ⟨.hbm, 45, rfl⟩
abbrev main_call0_call0_call0_v0 : Ref sig .tc := ⟨.hbm, 46, rfl⟩
abbrev main_call0_call0_call0_v1 : Ref sig .tc := ⟨.hbm, 47, rfl⟩
abbrev main_call0_v14 : Ref sig .tc := ⟨.hbm, 48, rfl⟩
abbrev main_call0_v15 : Ref sig .tc := ⟨.hbm, 49, rfl⟩
abbrev main_call0_v16 : Ref sig .tc := ⟨.hbm, 50, rfl⟩
abbrev main_call0_cst_3 : Ref sig .tc := ⟨.hbm, 51, rfl⟩
abbrev main_call0_v17 : Ref sig .tc := ⟨.hbm, 52, rfl⟩
abbrev main_call0_v18 : Ref sig .tc := ⟨.hbm, 53, rfl⟩
abbrev main_call0_v19 : Ref sig .tc := ⟨.hbm, 54, rfl⟩
abbrev main_call0_v20 : Ref sig .tc := ⟨.hbm, 55, rfl⟩
abbrev main_call0_v21 : Ref sig .tc := ⟨.hbm, 56, rfl⟩
abbrev main_call0_v22 : Ref sig .tc := ⟨.hbm, 57, rfl⟩
abbrev main_call0_v23 : Ref sig .tc := ⟨.hbm, 58, rfl⟩
abbrev main_call0_v24 : Ref sig .tc := ⟨.hbm, 59, rfl⟩
abbrev main_call0_v25 : Ref sig .tc := ⟨.hbm, 60, rfl⟩
abbrev main_call0_v26 : Ref sig .tc := ⟨.hbm, 61, rfl⟩
abbrev main_call0_v27 : Ref sig .tc := ⟨.hbm, 62, rfl⟩
abbrev main_call0_call1_cst : Ref sig .tc := ⟨.hbm, 63, rfl⟩
abbrev main_call0_call1_v0 : Ref sig .tc := ⟨.hbm, 64, rfl⟩
abbrev main_call0_v28 : Ref sig .tc := ⟨.hbm, 65, rfl⟩
abbrev main_call0_cst_4 : Ref sig .tc := ⟨.hbm, 66, rfl⟩
abbrev main_call0_v29 : Ref sig .tc := ⟨.hbm, 67, rfl⟩
abbrev main_call0_cst_5 : Ref sig .tc := ⟨.hbm, 68, rfl⟩
abbrev main_call0_v30 : Ref sig .tc := ⟨.hbm, 69, rfl⟩
abbrev main_call0_v31 : Ref sig .tc := ⟨.hbm, 70, rfl⟩
abbrev main_call0_v32 : Ref sig .tc := ⟨.hbm, 71, rfl⟩
abbrev main_call0_v33 : Ref sig .tc := ⟨.hbm, 72, rfl⟩
abbrev main_call0_v34 : Ref sig .tc := ⟨.hbm, 73, rfl⟩
abbrev main_call0_v35 : Ref sig .tc := ⟨.hbm, 74, rfl⟩
abbrev main_call0_v36 : Ref sig .tc := ⟨.hbm, 75, rfl⟩
abbrev main_call0_v37 : Ref sig .tc := ⟨.hbm, 76, rfl⟩
abbrev main_call0_v38 : Ref sig .tc := ⟨.hbm, 77, rfl⟩
abbrev main_call0_cst_6 : Ref sig .tc := ⟨.hbm, 78, rfl⟩
abbrev main_call0_v39 : Ref sig .tc := ⟨.hbm, 79, rfl⟩
abbrev main_call0_v40 : Ref sig .tc := ⟨.hbm, 80, rfl⟩
abbrev main_call0_cst_7 : Ref sig .tc := ⟨.hbm, 81, rfl⟩
abbrev main_call0_v41 : Ref sig .tc := ⟨.hbm, 82, rfl⟩
abbrev main_call0_v42 : Ref sig .tc := ⟨.hbm, 83, rfl⟩
abbrev main_call0_v43 : Ref sig .tc := ⟨.hbm, 84, rfl⟩
abbrev main_v0 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v15 : BitVec 32 := Scalar.addi c0_i32 c8_i32
  let c1_i32 : BitVec 32 := 1#32
  ⟨c0_i32, v15, c1_i32⟩
def k0_mult1 (k0_t1 : Fin k0_t1_loop.trips) : BitVec 32 :=
  let c0_i32_21 : BitVec 32 := 0#32
  let c0_i32 : BitVec 32 := 0#32
  let c1_i32 : BitVec 32 := 1#32
  let arg9 : BitVec 32 := Scf.iv c0_i32 c1_i32 k0_t1
  let c1_i32_20 : BitVec 32 := 1#32
  let v25 : BitVec 32 := Scalar.muli arg9 c1_i32_20
  let v26 : BitVec 32 := Scalar.addi c0_i32_21 v25
  let c2048_i32 : BitVec 32 := 2048#32
  let v27 : BitVec 32 := Scalar.muli v26 c2048_i32
  v27
def k0_off1 (k0_t1 : Fin k0_t1_loop.trips) : Fin 4 → Nat :=
  let c0_22 : Index := 0#32
  let c0_23 : Index := 0#32
  let c0_24 : Index := 0#32
  let c0_i32_21 : BitVec 32 := 0#32
  let c0_i32 : BitVec 32 := 0#32
  let c1_i32 : BitVec 32 := 1#32
  let arg9 : BitVec 32 := Scf.iv c0_i32 c1_i32 k0_t1
  let c1_i32_20 : BitVec 32 := 1#32
  let v25 : BitVec 32 := Scalar.muli arg9 c1_i32_20
  let v26 : BitVec 32 := Scalar.addi c0_i32_21 v25
  let c2048_i32 : BitVec 32 := 2048#32
  let v27 : BitVec 32 := Scalar.muli v26 c2048_i32
  let v28 : BitVec 32 := v27
  let v29 : Index := Scalar.indexCast v28
  ![0, 0, 0, v29.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![16, 1], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage1_0 : Fin 2 → Memref sig .tc .vmem S1x128x1x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x128x1x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S64_S64x1 : S64.ShapeCasts S64x1
  reducesTo_S64x128_S64_d1 : S64x128.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  reducesTo_S16x64x128_S64_d0_2 : S16x64x128.ReducesTo [0, 2] S64
  bcast_S64_S1x64x1_1 : S64.BroadcastsInDim S1x64x1 (![1] : Fin 1 → Fin S1x64x1.rank)
  bcast_S_S1x64x1 : S_.BroadcastsInDim S1x64x1 (![] : Fin 0 → Fin S1x64x1.rank)
  bcast_S1x64x1_S16x64x128_0_1_2 : S1x64x1.BroadcastsInDim S16x64x128 (![0, 1, 2] : Fin 3 → Fin S16x64x128.rank)
  bcast_S_S16x64x128 : S_.BroadcastsInDim S16x64x128 (![] : Fin 0 → Fin S16x64x128.rank)
  reducesTo_S16x64x128_S16x128_d1 : S16x64x128.ReducesTo [1] S16x128
  bcast_S_S16x128 : S_.BroadcastsInDim S16x128 (![] : Fin 0 → Fin S16x128.rank)
  transposes_S128x128_S128x128_1_0 : S128x128.Transposes [1, 0] S128x128
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  bcast_S16x128_S16x128x1_0_1 : S16x128.BroadcastsInDim S16x128x1 (![0, 1] : Fin 2 → Fin S16x128x1.rank)
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  bitsLt_bf16_f32 : FTy.bits .bf16 < FTy.bits .f32
  h_S1x128x1x2048 : 0 < S1x128x1x2048.numel
  shapeCasts_S1x128x1x2048_S128x2048 : S1x128x1x2048.ShapeCasts S128x2048
  reduces_S128x2048_S2048 : S128x2048.Reduces [0] S2048
  shapeCasts_S2048_S1x2048 : S2048.ShapeCasts S1x2048
  broadcasts_S64x1_S64x2048 : S64x1.Broadcasts S64x2048
  broadcasts_S1x2048_S64x2048 : S1x2048.Broadcasts S64x2048
  reduces_S64x2048_S2048 : S64x2048.Reduces [0] S2048
  reduces_S64x2048_S64 : S64x2048.Reduces [1] S64
  broadcasts_S64x1_S64x128 : S64x1.Broadcasts S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  inb_S1x128x1x16384_S1x128x1x16384_0_0_0_0 : ∀ a, (![0, 0, 0, 0] : Fin 4 → Nat) a + S1x128x1x16384.size a ≤ S1x128x1x16384.size a
  h_S1x128x1x16384 : 0 < S1x128x1x16384.numel
  shapeCasts_S1x128x1x16384_S128x16384 : S1x128x1x16384.ShapeCasts S128x16384
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  broadcasts_S128x1_S128x16384 : S128x1.Broadcasts S128x16384
  shapeCasts_S128x16384_S1x128x1x16384 : S128x16384.ShapeCasts S1x128x1x16384
  dot_S16x128_S128x128_S16x128_1_0_0_1_n_n_wf : DotDims.WF S16x128 S128x128 S16x128 [1] [0] [0] [1] [] []
  dot_S64x128_S128x2048_S64x2048_1_0_0_1_n_n_wf : DotDims.WF S64x128 S128x2048 S64x2048 [1] [0] [0] [1] [] []
  dot_S64x2048_S128x2048_S64x128_1_1_0_0_n_n_wf : DotDims.WF S64x2048 S128x2048 S64x128 [1] [1] [0] [0] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S1x128x1x2048.size a ≤ S1x128x1x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1x16384.size a ≤ S16x128x1x16384.size a
  hwx0_0 : ∀ i : grid0.Coords, EltTy.bits .f32 = 32 ∨ (Rect.block (s := S16x128x1x16384) S1x128x1x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x128.size a ≤ S16x64x128.size a
  hwx0_5 : ∀ i : grid0.Coords, EltTy.bits .f32 = 32 ∨ (Rect.block (s := S16x64x128) S1x64x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x1x16384.size a ≤ S16x128x1x16384.size a
  hwx1_0 : ∀ i : grid1.Coords, EltTy.bits .f32 = 32 ∨ (Rect.block (s := S16x128x1x16384) S1x128x1x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x1.size a ≤ S16x128x1.size a
  hwx1_1 : ∀ i : grid1.Coords, EltTy.bits .f32 = 32 ∨ (Rect.block (s := S16x128x1) S1x128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x1x16384.size a ≤ S16x128x1x16384.size a
  hwx1_2 : ∀ i : grid1.Coords, EltTy.bits .f32 = 32 ∨ (Rect.block (s := S16x128x1x16384) S1x128x1x16384.size (cc1_transform_2 i) (hinb1_2 i)).WholeWords (EltTy.packing .f32)

variable [Facts₀]

def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S64x128_S128x2048_S64x2048_1_0_0_1_n_n : DotDims S64x128 S128x2048 S64x2048 where
  lhsContracting := [1]
  rhsContracting := [0]
  lhsNonContracting := [0]
  rhsNonContracting := [1]
  lhsBatch := []
  rhsBatch := []
  wf := dot_S64x128_S128x2048_S64x2048_1_0_0_1_n_n_wf
def dot_S64x2048_S128x2048_S64x128_1_1_0_0_n_n : DotDims S64x2048 S128x2048 S64x128 where
  lhsContracting := [1]
  rhsContracting := [1]
  lhsNonContracting := [0]
  rhsNonContracting := [0]
  lhsBatch := []
  rhsBatch := []
  wf := dot_S64x2048_S128x2048_S64x128_1_1_0_0_n_n_wf

abbrev win0_0 : Pipeline.Window sig grid0 :=
  Pipeline.Window.ofSpec (Memref.whole main_arg0) S1x128x1x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v9) S1x64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x128x1x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v43) S1x128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x128x1x16384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where
  halias1_2 : Pipeline.Aliased win1 0 2

variable [Facts]
-- ==== ReferenceIdeal.lean ====
abbrev S16x128x1x16384 : Shape := ⟨4, ![16, 128, 1, 16384]⟩
abbrev S64x128 : Shape := ⟨2, ![64, 128]⟩
abbrev S64 : Shape := ⟨1, ![64]⟩
abbrev S128x128 : Shape := ⟨2, ![128, 128]⟩
abbrev S128 : Shape := ⟨1, ![128]⟩
abbrev S16x128x16384 : Shape := ⟨3, ![16, 128, 16384]⟩
abbrev S16x16384x128 : Shape := ⟨3, ![16, 16384, 128]⟩
abbrev S_ : Shape := ⟨0, ![]⟩
abbrev S16x16384 : Shape := ⟨2, ![16, 16384]⟩
abbrev S16x16384x64 : Shape := ⟨3, ![16, 16384, 64]⟩
abbrev S16x16384x1 : Shape := ⟨3, ![16, 16384, 1]⟩
abbrev S1x1x64 : Shape := ⟨3, ![1, 1, 64]⟩
abbrev S16x64x128 : Shape := ⟨3, ![16, 64, 128]⟩
abbrev S16x64 : Shape := ⟨2, ![16, 64]⟩
abbrev S16x64x1 : Shape := ⟨3, ![16, 64, 1]⟩
abbrev S1x64x128 : Shape := ⟨3, ![1, 64, 128]⟩
abbrev S1x64x1 : Shape := ⟨3, ![1, 64, 1]⟩
abbrev S16x128 : Shape := ⟨2, ![16, 128]⟩
abbrev S1x128 : Shape := ⟨2, ![1, 128]⟩
abbrev S16x128x1x1 : Shape := ⟨4, ![16, 128, 1, 1]⟩

abbrev nBuf : Space → Nat
  | .hbm => 119
  | .vmem => 0
  | .smem => 0
  | _ => 0

abbrev bufTy : (tb : Table) → Fin (tcTables nBuf tb) → BufTy
  | .hbm, ⟨0, _⟩ => ⟨S16x128x1x16384, .f32⟩
  | .hbm, ⟨1, _⟩ => ⟨S64x128, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128x128, .f32⟩
  | .hbm, ⟨6, _⟩ => ⟨S128, .f32⟩
  | .hbm, ⟨7, _⟩ => ⟨S16x128x16384, .f32⟩
  | .hbm, ⟨8, _⟩ => ⟨S16x16384x128, .f32⟩
  | .hbm, ⟨9, _⟩ => ⟨S16x16384x128, .f32⟩
  | .hbm, ⟨10, _⟩ => ⟨S_, .f32⟩
  | .hbm, ⟨11, _⟩ => ⟨S16x16384, .f32⟩
  | .hbm, ⟨12, _⟩ => ⟨S64x128, .f32⟩
  | .hbm, ⟨13, _⟩ => ⟨S_, .f32⟩
  | .hbm, ⟨14, _⟩ => ⟨S64, .f32⟩
  | .hbm, ⟨15, _⟩ => ⟨S16x16384x64, .f32⟩
  | .hbm, ⟨16, _⟩ => ⟨S16x16384x1, .f32⟩
  | .hbm, ⟨17, _⟩ => ⟨S_, .f32⟩
  | .hbm, ⟨18, _⟩ => ⟨S16x16384x64, .f32⟩
  | .hbm, ⟨19, _⟩ => ⟨S16x16384x64, .f32⟩
  | .hbm, ⟨20, _⟩ => ⟨S16x16384x64, .f32⟩
  | .hbm, ⟨21, _⟩ => ⟨S16x16384x64, .f32⟩
  | .hbm, ⟨22, _⟩ => ⟨S1x1x64, .f32⟩
  | .hbm, ⟨23, _⟩ => ⟨S16x16384x64, .f32⟩
  | .hbm, ⟨24, _⟩ => ⟨S16x16384x64, .f32⟩
  | .hbm, ⟨25, _⟩ => ⟨S1x1x64, .f32⟩
  | .hbm, ⟨26, _⟩ => ⟨S16x16384x64, .f32⟩
  | .hbm, ⟨27, _⟩ => ⟨S16x16384x64, .f32⟩
  | .hbm, ⟨28, _⟩ => ⟨S_, .f32⟩
  | .hbm, ⟨29, _⟩ => ⟨S16x16384, .f32⟩
  | .hbm, ⟨30, _⟩ => ⟨S_, .f32⟩
  | .hbm, ⟨31, _⟩ => ⟨S16x16384, .f32⟩
  | .hbm, ⟨32, _⟩ => ⟨S16x16384, .f32⟩
  | .hbm, ⟨33, _⟩ => ⟨S16x16384x1, .f32⟩
  | .hbm, ⟨34, _⟩ => ⟨S16x16384x64, .f32⟩
  | .hbm, ⟨35, _⟩ => ⟨S16x16384x64, .f32⟩
  | .hbm, ⟨36, _⟩ => ⟨S16x16384x64, .f32⟩
  | .hbm, ⟨37, _⟩ => ⟨S_, .f32⟩
  | .hbm, ⟨38, _⟩ => ⟨S16x16384, .f32⟩
  | .hbm, ⟨39, _⟩ => ⟨S16x16384x1, .f32⟩
  | .hbm, ⟨40, _⟩ => ⟨S16x16384x64, .f32⟩
  | .hbm, ⟨41, _⟩ => ⟨S16x16384x64, .f32⟩
  | .hbm, ⟨42, _⟩ => ⟨S16x64x128, .f32⟩
  | .hbm, ⟨43, _⟩ => ⟨S_, .f32⟩
  | .hbm, ⟨44, _⟩ => ⟨S16x64, .f32⟩
  | .hbm, ⟨45, _⟩ => ⟨S16x64x1, .f32⟩
  | .hbm, ⟨46, _⟩ => ⟨S1x64x128, .f32⟩
  | .hbm, ⟨47, _⟩ => ⟨S16x64x128, .f32⟩
  | .hbm, ⟨48, _⟩ => ⟨S16x64x128, .f32⟩
  | .hbm, ⟨49, _⟩ => ⟨S16x64x128, .f32⟩
  | .hbm, ⟨50, _⟩ => ⟨S16x64x128, .f32⟩
  | .hbm, ⟨51, _⟩ => ⟨S_, .f32⟩
  | .hbm, ⟨52, _⟩ => ⟨S64, .f32⟩
  | .hbm, ⟨53, _⟩ => ⟨S1x64x1, .f32⟩
  | .hbm, ⟨54, _⟩ => ⟨S_, .f32⟩
  | .hbm, ⟨55, _⟩ => ⟨S1x64x1, .f32⟩
  | .hbm, ⟨56, _⟩ => ⟨S1x64x1, .f32⟩
  | .hbm, ⟨57, _⟩ => ⟨S_, .i32⟩
  | .hbm, ⟨58, _⟩ => ⟨S_, .f32⟩
  | .hbm, ⟨59, _⟩ => ⟨S64, .f32⟩
  | .hbm, ⟨60, _⟩ => ⟨S1x64x1, .f32⟩
  | .hbm, ⟨61, _⟩ => ⟨S_, .f32⟩
  | .hbm, ⟨62, _⟩ => ⟨S1x64x1, .f32⟩
  | .hbm, ⟨63, _⟩ => ⟨S1x64x1, .f32⟩
  | .hbm, ⟨64, _⟩ => ⟨S16x64x128, .f32⟩
  | .hbm, ⟨65, _⟩ => ⟨S16x64x128, .f32⟩
  | .hbm, ⟨66, _⟩ => ⟨S16x64x128, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S64, .f32⟩
  | .hbm, ⟨72, _⟩ => ⟨S1x64x1, .f32⟩
  | .hbm, ⟨73, _⟩ => ⟨S1x64x1, .f32⟩
  | .hbm, ⟨74, _⟩ => ⟨S1x64x1, .f32⟩
  | .hbm, ⟨75, _⟩ => ⟨S_, .f32⟩
  | .hbm, ⟨76, _⟩ => ⟨S_, .i1⟩
  | .hbm, ⟨77, _⟩ => ⟨S_, .f32⟩
  | .hbm, ⟨78, _⟩ => ⟨S_, .f32⟩
  | .hbm, ⟨79, _⟩ => ⟨S1x64x1, .f32⟩
  | .hbm, ⟨80, _⟩ => ⟨S1x64x1, .f32⟩
  | .hbm, ⟨81, _⟩ => ⟨S16x64x128, .f32⟩
  | .hbm, ⟨82, _⟩ => ⟨S16x64x128, .f32⟩
  | .hbm, ⟨83, _⟩ => ⟨S_, .f32⟩
  | .hbm, ⟨84, _⟩ => ⟨S1x64x1, .f32⟩
  | .hbm, ⟨85, _⟩ => ⟨S1x64x1, .f32⟩
  | .hbm, ⟨86, _⟩ => ⟨S1x64x1, .f32⟩
  | .hbm, ⟨87, _⟩ => ⟨S16x64x128, .f32⟩
  | .hbm, ⟨88, _⟩ => ⟨S16x64x128, .f32⟩
  | .hbm, ⟨89, _⟩ => ⟨S1x64x1, .f32⟩
  | .hbm, ⟨90, _⟩ => ⟨S16x64x128, .f32⟩
  | .hbm, ⟨91, _⟩ => ⟨S16x64x128, .f32⟩
  | .hbm, ⟨92, _⟩ => ⟨S1x64x1, .f32⟩
  | .hbm, ⟨93, _⟩ => ⟨S16x64x128, .f32⟩
  | .hbm, ⟨94, _⟩ => ⟨S16x64x128, .f32⟩
  | .hbm, ⟨95, _⟩ => ⟨S_, .f32⟩
  | .hbm, ⟨96, _⟩ => ⟨S16x64x128, .f32⟩
  | .hbm, ⟨97, _⟩ => ⟨S16x64x128, .f32⟩
  | .hbm, ⟨98, _⟩ => ⟨S_, .f32⟩
  | .hbm, ⟨99, _⟩ => ⟨S16x128, .f32⟩
  | .hbm, ⟨100, _⟩ => ⟨S_, .f32⟩
  | .hbm, ⟨101, _⟩ => ⟨S16x128, .f32⟩
  | .hbm, ⟨102, _⟩ => ⟨S16x128, .f32⟩
  | .hbm, ⟨103, _⟩ => ⟨S128x128, .f32⟩
  | .hbm, ⟨104, _⟩ => ⟨S16x128, .f32⟩
  | .hbm, ⟨105, _⟩ => ⟨S1x128, .f32⟩
  | .hbm, ⟨106, _⟩ => ⟨S16x128, .f32⟩
  | .hbm, ⟨107, _⟩ => ⟨S16x128, .f32⟩
  | .hbm, ⟨108, _⟩ => ⟨S16x128, .f32⟩
  | .hbm, ⟨109, _⟩ => ⟨S16x128, .f32⟩
  | .hbm, ⟨110, _⟩ => ⟨S_, .f32⟩
  | .hbm, ⟨111, _⟩ => ⟨S16x128, .f32⟩
  | .hbm, ⟨112, _⟩ => ⟨S16x128, .f32⟩
  | .hbm, ⟨113, _⟩ => ⟨S_, .f32⟩
  | .hbm, ⟨114, _⟩ => ⟨S16x128, .f32⟩
  | .hbm, ⟨115, _⟩ => ⟨S16x128, .f32⟩
  | .hbm, ⟨116, _⟩ => ⟨S16x128x1x1, .f32⟩
  | .hbm, ⟨117, _⟩ => ⟨S16x128x1x16384, .f32⟩
  | .hbm, ⟨118, _⟩ => ⟨S16x128x1x16384, .f32⟩
  | _, _ => ⟨S16x128x1x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_c : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_v12 : Ref sig .tc := ⟨.hbm, 74, rfl⟩
abbrev main_call0_cst_3 : Ref sig .tc := ⟨.hbm, 75, rfl⟩
abbrev main_call0_v13 : Ref sig .tc := ⟨.hbm, 76, rfl⟩
abbrev main_call0_cst_4 : Ref sig .tc := ⟨.hbm, 77, rfl⟩
abbrev main_call0_call0_v0 : Ref sig .tc := ⟨.hbm, 78, rfl⟩
abbrev main_call0_call0_v1 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_8 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_call1_cst : Ref sig .tc := ⟨.hbm, 95, rfl⟩
abbrev main_call1_v0 : Ref sig .tc := ⟨.hbm, 96, rfl⟩
abbrev main_v55 : Ref sig .tc := ⟨.hbm, 97, rfl⟩
abbrev main_cst_9 : Ref sig .tc := ⟨.hbm, 98, rfl⟩
abbrev main_v56 : Ref sig .tc := ⟨.hbm, 99, rfl⟩
abbrev main_cst_10 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_11 : Ref sig .tc := ⟨.hbm, 110, rfl⟩
abbrev main_v66 : Ref sig .tc := ⟨.hbm, 111, rfl⟩
abbrev main_v67 : Ref sig .tc := ⟨.hbm, 112, rfl⟩
abbrev main_cst_12 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩

abbrev nD : Nat := 1
abbrev τ : Topo := Topo.v7x

variable {F : FTy → Type} [FloatOps F]

class Facts₀ : Prop where
  shapeCasts_S16x128x1x16384_S16x128x16384 : S16x128x1x16384.ShapeCasts S16x128x16384
  transposes_S16x128x16384_S16x16384x128_0_2_1 : S16x128x16384.Transposes [0, 2, 1] S16x16384x128
  reducesTo_S16x16384x128_S16x16384_d2 : S16x16384x128.ReducesTo [2] S16x16384
  h_S_ : 0 < S_.numel
  reducesTo_S64x128_S64_d1 : S64x128.ReducesTo [1] S64
  bcast_S16x16384_S16x16384x1_0_1 : S16x16384.BroadcastsInDim S16x16384x1 (![0, 1] : Fin 2 → Fin S16x16384x1.rank)
  bcast_S_S16x16384x64 : S_.BroadcastsInDim S16x16384x64 (![] : Fin 0 → Fin S16x16384x64.rank)
  bcast_S16x16384x1_S16x16384x64_0_1_2 : S16x16384x1.BroadcastsInDim S16x16384x64 (![0, 1, 2] : Fin 3 → Fin S16x16384x64.rank)
  bcast_S64_S1x1x64_2 : S64.BroadcastsInDim S1x1x64 (![2] : Fin 1 → Fin S1x1x64.rank)
  bcast_S1x1x64_S16x16384x64_0_1_2 : S1x1x64.BroadcastsInDim S16x16384x64 (![0, 1, 2] : Fin 3 → Fin S16x16384x64.rank)
  reducesTo_S16x16384x64_S16x16384_d2 : S16x16384x64.ReducesTo [2] S16x16384
  bcast_S_S16x16384 : S_.BroadcastsInDim S16x16384 (![] : Fin 0 → Fin S16x16384.rank)
  reducesTo_S16x16384x64_S16x64_d1 : S16x16384x64.ReducesTo [1] S16x64
  bcast_S16x64_S16x64x1_0_1 : S16x64.BroadcastsInDim S16x64x1 (![0, 1] : Fin 2 → Fin S16x64x1.rank)
  bcast_S64x128_S1x64x128_1_2 : S64x128.BroadcastsInDim S1x64x128 (![1, 2] : Fin 2 → Fin S1x64x128.rank)
  bcast_S16x64x1_S16x64x128_0_1_2 : S16x64x1.BroadcastsInDim S16x64x128 (![0, 1, 2] : Fin 3 → Fin S16x64x128.rank)
  bcast_S1x64x128_S16x64x128_0_1_2 : S1x64x128.BroadcastsInDim S16x64x128 (![0, 1, 2] : Fin 3 → Fin S16x64x128.rank)
  reducesTo_S16x64x128_S64_d0_2 : S16x64x128.ReducesTo [0, 2] S64
  bcast_S64_S1x64x1_1 : S64.BroadcastsInDim S1x64x1 (![1] : Fin 1 → Fin S1x64x1.rank)
  bcast_S_S1x64x1 : S_.BroadcastsInDim S1x64x1 (![] : Fin 0 → Fin S1x64x1.rank)
  bcast_S1x64x1_S16x64x128_0_1_2 : S1x64x1.BroadcastsInDim S16x64x128 (![0, 1, 2] : Fin 3 → Fin S16x64x128.rank)
  bcast_S_S16x64x128 : S_.BroadcastsInDim S16x64x128 (![] : Fin 0 → Fin S16x64x128.rank)
  reducesTo_S16x64x128_S16x128_d1 : S16x64x128.ReducesTo [1] S16x128
  bcast_S_S16x128 : S_.BroadcastsInDim S16x128 (![] : Fin 0 → Fin S16x128.rank)
  transposes_S128x128_S128x128_1_0 : S128x128.Transposes [1, 0] S128x128
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  bcast_S16x128_S16x128x1x1_0_1 : S16x128.BroadcastsInDim S16x128x1x1 (![0, 1] : Fin 2 → Fin S16x128x1x1.rank)
  bcast_S16x128x1x1_S16x128x1x16384_0_1_2_3 : S16x128x1x1.BroadcastsInDim S16x128x1x16384 (![0, 1, 2, 3] : Fin 4 → Fin S16x128x1x16384.rank)
  dot_S16x16384x128_S64x128_S16x16384x64_2_1_01_0_n_n_wf : DotDims.WF S16x16384x128 S64x128 S16x16384x64 [2] [1] [0, 1] [0] [] []
  dot_S16x16384x64_S16x16384x128_S16x64x128_1_1_2_2_0_0_wf : DotDims.WF S16x16384x64 S16x16384x128 S16x64x128 [1] [1] [2] [2] [0] [0]
  dot_S16x128_S128x128_S16x128_1_0_0_1_n_n_wf : DotDims.WF S16x128 S128x128 S16x128 [1] [0] [0] [1] [] []

variable [Facts₀]

def dot_S16x16384x128_S64x128_S16x16384x64_2_1_01_0_n_n : DotDims S16x16384x128 S64x128 S16x16384x64 where
  lhsContracting := [2]
  rhsContracting := [1]
  lhsNonContracting := [0, 1]
  rhsNonContracting := [0]
  lhsBatch := []
  rhsBatch := []
  wf := dot_S16x16384x128_S64x128_S16x16384x64_2_1_01_0_n_n_wf
def dot_S16x16384x64_S16x16384x128_S16x64x128_1_1_2_2_0_0 : DotDims S16x16384x64 S16x16384x128 S16x64x128 where
  lhsContracting := [1]
  rhsContracting := [1]
  lhsNonContracting := [2]
  rhsNonContracting := [2]
  lhsBatch := [0]
  rhsBatch := [0]
  wf := dot_S16x16384x64_S16x16384x128_S16x64x128_1_1_2_2_0_0_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf

class Facts : Prop extends Facts₀ where

variable [Facts]
-- ==== Proof.KerTerms.lean ====
/-
  The kernel program's host operations cut into the functions the proof speaks of: the three small arrays the host
  prepares for the first kernel (the smoothing column, the scaled codewords, the smoothed codeword norms), and, from the
  first kernel's result `e`, the batch-normalised tensor's two ingredients, the chain to the per-(batch, channel) gate,
  and the gate as the column array the second kernel reads. Each is the program's own operations, in order.
-/
import proofs.«404385_j35433480192595_3_alg».proof.Proof.Gen.KernelIdeal

noncomputable section

namespace Cert.KernelIdeal.Terms

open Cert.KernelIdeal Cert.KernelIdeal.Gen Idealize.ShloMosaic

variable {F : FTy → Type} [FloatOps F]

/-- The smoothing factors as a column. -/
noncomputable def smCol (sm : (⟨S64, .f32⟩ : BufTy).Contents (Elt F)) : (⟨S64x1, .f32⟩ : BufTy).Contents (Elt F) :=
  have call0_v0 : (⟨S64x1, .f32⟩ : BufTy).Contents (Elt F) := shapeCast S64x1 sm shapeCasts_S64_S64x1
  call0_v0

/-- `(−2 · sm k) · cw k c`. -/
noncomputable def cwScaled (cw : (⟨S64x128, .f32⟩ : BufTy).Contents (Elt F)) (sm : (⟨S64, .f32⟩ : BufTy).Contents (Elt F)) : (⟨S64x128, .f32⟩ : BufTy).Contents (Elt F) :=
  have call0_v0 : (⟨S64x1, .f32⟩ : BufTy).Contents (Elt F) := shapeCast S64x1 sm shapeCasts_S64_S64x1
  have call0_cst_0 : (⟨S_, .f32⟩ : BufTy).Contents (Elt F) := constant S_ .f32 0xC0000000#32
  have call0_v4 : (⟨S64x1, .f32⟩ : BufTy).Contents (Elt F) := (broadcastInDim S64x1 ![] bcast_S_S64x1) call0_cst_0
  have call0_v5 : (⟨S64x1, .f32⟩ : BufTy).Contents (Elt F) := mulf call0_v4 call0_v0
  have call0_v6 : (⟨S64x128, .f32⟩ : BufTy).Contents (Elt F) := (broadcastInDim S64x128 ![0, 1] bcast_S64x1_S64x128_0_1) call0_v5
  have call0_v7 : (⟨S64x128, .f32⟩ : BufTy).Contents (Elt F) := mulf call0_v6 cw
  call0_v7

/-- `sm k · ‖cw(k,·)‖²` as a column. -/
noncomputable def smCwNorm (cw : (⟨S64x128, .f32⟩ : BufTy).Contents (Elt F)) (sm : (⟨S64, .f32⟩ : BufTy).Contents (Elt F)) : (⟨S64x1, .f32⟩ : BufTy).Contents (Elt F) :=
  have call0_v0 : (⟨S64x1, .f32⟩ : BufTy).Contents (Elt F) := shapeCast S64x1 sm shapeCasts_S64_S64x1
  have call0_v1 : (⟨S64x128, .f32⟩ : BufTy).Contents (Elt F) := mulf cw cw
  have call0_cst : (⟨S_, .f32⟩ : BufTy).Contents (Elt F) := constant S_ .f32 0x00000000#32
  have call0_v2 : (⟨S64, .f32⟩ : BufTy).Contents (Elt F) := (fun x v => Host.reduceAdd x v reducesTo_S64x128_S64_d1 h_S_) call0_v1 call0_cst
  have call0_v3 : (⟨S64x1, .f32⟩ : BufTy).Contents (Elt F) := (broadcastInDim S64x1 ![0] bcast_S64_S64x1_0) call0_v2
  have call0_v8 : (⟨S64x1, .f32⟩ : BufTy).Contents (Elt F) := mulf call0_v0 call0_v3
  call0_v8

/-- `e` minus its per-codeword mean over batch and channel. -/
noncomputable def centered (e : (⟨S16x64x128, .f32⟩ : BufTy).Contents (Elt F)) : (⟨S16x64x128, .f32⟩ : BufTy).Contents (Elt F) :=
  have call0_cst_1 : (⟨S_, .f32⟩ : BufTy).Contents (Elt F) := constant S_ .f32 0x00000000#32
  have call0_v10 : (⟨S64, .f32⟩ : BufTy).Contents (Elt F) := (fun x v => Host.reduceAdd x v reducesTo_S16x64x128_S64_d0_2 h_S_) e call0_cst_1
  have call0_v11 : (⟨S1x64x1, .f32⟩ : BufTy).Contents (Elt F) := (broadcastInDim S1x64x1 ![1] bcast_S64_S1x64x1_1) call0_v10
  have call0_cst_2 : (⟨S_, .f32⟩ : BufTy).Contents (Elt F) := constant S_ .f32 0x45000000#32
  have call0_v12 : (⟨S1x64x1, .f32⟩ : BufTy).Contents (Elt F) := (broadcastInDim S1x64x1 ![] bcast_S_S1x64x1) call0_cst_2
  have call0_v13 : (⟨S1x64x1, .f32⟩ : BufTy).Contents (Elt F) := Host.divf call0_v11 call0_v12
  have call0_v15 : (⟨S16x64x128, .f32⟩ : BufTy).Contents (Elt F) := (broadcastInDim S16x64x128 ![0, 1, 2] bcast_S1x64x1_S16x64x128_0_1_2) call0_v13
  have call0_v16 : (⟨S16x64x128, .f32⟩ : BufTy).Contents (Elt F) := subf e call0_v15
  call0_v16

/-- The per-codeword variance of `e` over batch and channel, plus the epsilon literal. -/
noncomputable def varEps (e : (⟨S16x64x128, .f32⟩ : BufTy).Contents (Elt F)) : (⟨S1x64x1, .f32⟩ : BufTy).Contents (Elt F) :=
  have call0_c : (⟨S_, .i32⟩ : BufTy).Contents (Elt F) := constantI S_ 32 0#32
  have call0_call0_cst : (⟨S_, .f32⟩ : BufTy).Contents (Elt F) := constant S_ .f32 0x00000000#32
  have call0_call0_v0 : (⟨S64, .f32⟩ : BufTy).Contents (Elt F) := (fun x v => Host.reduceAdd x v reducesTo_S16x64x128_S64_d0_2 h_S_) e call0_call0_cst
  have call0_call0_v1 : (⟨S1x64x1, .f32⟩ : BufTy).Contents (Elt F) := (broadcastInDim S1x64x1 ![1] bcast_S64_S1x64x1_1) call0_call0_v0
  have call0_call0_cst_0 : (⟨S_, .f32⟩ : BufTy).Contents (Elt F) := constant S_ .f32 0x45000000#32
  have call0_call0_v2 : (⟨S1x64x1, .f32⟩ : BufTy).Contents (Elt F) := (broadcastInDim S1x64x1 ![] bcast_S_S1x64x1) call0_call0_cst_0
  have call0_call0_v3 : (⟨S1x64x1, .f32⟩ : BufTy).Contents (Elt F) := Host.divf call0_call0_v1 call0_call0_v2
  have call0_call0_v4 : (⟨S16x64x128, .f32⟩ : BufTy).Contents (Elt F) := (broadcastInDim S16x64x128 ![0, 1, 2] bcast_S1x64x1_S16x64x128_0_1_2) call0_call0_v3
  have call0_call0_v5 : (⟨S16x64x128, .f32⟩ : BufTy).Contents (Elt F) := subf e call0_call0_v4
  have call0_call0_v6 : (⟨S16x64x128, .f32⟩ : BufTy).Contents (Elt F) := mulf call0_call0_v5 call0_call0_v5
  have call0_call0_v7 : (⟨S_, .f32⟩ : BufTy).Contents (Elt F) := (sitofp .f32) call0_c
  have call0_call0_cst_1 : (⟨S_, .f32⟩ : BufTy).Contents (Elt F) := constant S_ .f32 0x45000000#32
  have call0_call0_v8 : (⟨S_, .f32⟩ : BufTy).Contents (Elt F) := subf call0_call0_cst_1 call0_call0_v7
  have call0_call0_cst_2 : (⟨S_, .f32⟩ : BufTy).Contents (Elt F) := constant S_ .f32 0x00000000#32
  have call0_call0_v9 : (⟨S64, .f32⟩ : BufTy).Contents (Elt F) := (fun x v => Host.reduceAdd x v reducesTo_S16x64x128_S64_d0_2 h_S_) call0_call0_v6 call0_call0_cst_2
  have call0_call0_v10 : (⟨S1x64x1, .f32⟩ : BufTy).Contents (Elt F) := (broadcastInDim S1x64x1 ![1] bcast_S64_S1x64x1_1) call0_call0_v9
  have call0_call0_v11 : (⟨S1x64x1, .f32⟩ : BufTy).Contents (Elt F) := (broadcastInDim S1x64x1 ![] bcast_S_S1x64x1) call0_call0_v8
  have call0_call0_v12 : (⟨S1x64x1, .f32⟩ : BufTy).Contents (Elt F) := Host.divf call0_call0_v10 call0_call0_v11
  have call0_call0_cst_3 : (⟨S_, .f32⟩ : BufTy).Contents (Elt F) := constant S_ .f32 0x00000000#32
  have call0_call0_v13 : (⟨S_, .i1⟩ : BufTy).Contents (Elt F) := (cmpf .ogt) call0_call0_v8 call0_call0_cst_3
  have call0_call0_cst_4 : (⟨S_, .f32⟩ : BufTy).Contents (Elt F) := constant S_ .f32 0x7FC00000#32
  have call0_call0_call0_v0 : (⟨S_, .f32⟩ : BufTy).Contents (Elt F) := id call0_call0_cst_4
  have call0_call0_call0_v1 : (⟨S1x64x1, .f32⟩ : BufTy).Contents (Elt F) := (broadcastInDim S1x64x1 ![] bcast_S_S1x64x1) call0_call0_call0_v0
  have call0_v14 : (⟨S1x64x1, .f32⟩ : BufTy).Contents (Elt F) := (fun p a b => select (broadcastInDim S1x64x1 ![] bcast_S_S1x64x1 p) a b) call0_call0_v13 call0_call0_v12 call0_call0_call0_v1
  have call0_cst_3 : (⟨S_, .f32⟩ : BufTy).Contents (Elt F) := constant S_ .f32 0x3727C5AC#32
  have call0_v17 : (⟨S1x64x1, .f32⟩ : BufTy).Contents (Elt F) := (broadcastInDim S1x64x1 ![] bcast_S_S1x64x1) call0_cst_3
  have call0_v18 : (⟨S1x64x1, .f32⟩ : BufTy).Contents (Elt F) := addf call0_v14 call0_v17
  call0_v18

/-- The centred tensor times the reciprocal square root of the variance plus epsilon. -/
noncomputable def normalized (cen : (⟨S16x64x128, .f32⟩ : BufTy).Contents (Elt F)) (ve : (⟨S1x64x1, .f32⟩ : BufTy).Contents (Elt F)) : (⟨S16x64x128, .f32⟩ : BufTy).Contents (Elt F) :=
  have call0_v19 : (⟨S1x64x1, .f32⟩ : BufTy).Contents (Elt F) := Host.rsqrt ve
  have call0_v20 : (⟨S16x64x128, .f32⟩ : BufTy).Contents (Elt F) := (broadcastInDim S16x64x128 ![0, 1, 2] bcast_S1x64x1_S16x64x128_0_1_2) call0_v19
  have call0_v21 : (⟨S16x64x128, .f32⟩ : BufTy).Contents (Elt F) := mulf cen call0_v20
  call0_v21

/-- From the normalised tensor `y`: the affine map, the rectifier, the mean over codewords, the linear layer and the logistic gate. -/
noncomputable def gate (y : (⟨S16x64x128, .f32⟩ : BufTy).Contents (Elt F)) (bnw : (⟨S64, .f32⟩ : BufTy).Contents (Elt F)) (bnb : (⟨S64, .f32⟩ : BufTy).Contents (Elt F)) (fcw : (⟨S128x128, .f32⟩ : BufTy).Contents (Elt F)) (fcb : (⟨S128, .f32⟩ : BufTy).Contents (Elt F)) : (⟨S16x128, .f32⟩ : BufTy).Contents (Elt F) :=
  have call0_v22 : (⟨S1x64x1, .f32⟩ : BufTy).Contents (Elt F) := (broadcastInDim S1x64x1 ![1] bcast_S64_S1x64x1_1) bnw
  have call0_v23 : (⟨S16x64x128, .f32⟩ : BufTy).Contents (Elt F) := (broadcastInDim S16x64x128 ![0, 1, 2] bcast_S1x64x1_S16x64x128_0_1_2) call0_v22
  have call0_v24 : (⟨S16x64x128, .f32⟩ : BufTy).Contents (Elt F) := mulf y call0_v23
  have call0_v25 : (⟨S1x64x1, .f32⟩ : BufTy).Contents (Elt F) := (broadcastInDim S1x64x1 ![1] bcast_S64_S1x64x1_1) bnb
  have call0_v26 : (⟨S16x64x128, .f32⟩ : BufTy).Contents (Elt F) := (broadcastInDim S16x64x128 ![0, 1, 2] bcast_S1x64x1_S16x64x128_0_1_2) call0_v25
  have call0_v27 : (⟨S16x64x128, .f32⟩ : BufTy).Contents (Elt F) := addf call0_v24 call0_v26
  have call0_call1_cst : (⟨S_, .f32⟩ : BufTy).Contents (Elt F) := constant S_ .f32 0x00000000#32
  have call0_call1_v0 : (⟨S16x64x128, .f32⟩ : BufTy).Contents (Elt F) := (broadcastInDim S16x64x128 ![] bcast_S_S16x64x128) call0_call1_cst
  have call0_v28 : (⟨S16x64x128, .f32⟩ : BufTy).Contents (Elt F) := maximumf call0_v27 call0_call1_v0
  have call0_cst_4 : (⟨S_, .f32⟩ : BufTy).Contents (Elt F) := constant S_ .f32 0x00000000#32
  have call0_v29 : (⟨S16x128, .f32⟩ : BufTy).Contents (Elt F) := (fun x v => Host.reduceAdd x v reducesTo_S16x64x128_S16x128_d1 h_S_) call0_v28 call0_cst_4
  have call0_cst_5 : (⟨S_, .f32⟩ : BufTy).Contents (Elt F) := constant S_ .f32 0x42800000#32
  have call0_v30 : (⟨S16x128, .f32⟩ : BufTy).Contents (Elt F) := (broadcastInDim S16x128 ![] bcast_S_S16x128) call0_cst_5
  have call0_v31 : (⟨S16x128, .f32⟩ : BufTy).Contents (Elt F) := Host.divf call0_v29 call0_v30
  have call0_v32 : (⟨S128x128, .f32⟩ : BufTy).Contents (Elt F) := (transpose S128x128 [1, 0] · transposes_S128x128_S128x128_1_0) fcw
  have call0_v33 : (⟨S16x128, .f32⟩ : BufTy).Contents (Elt F) := (fun l r => Host.dotGeneral dot_S16x128_S128x128_S16x128_1_0_0_1_n_n none l r) call0_v31 call0_v32
  have call0_v34 : (⟨S1x128, .f32⟩ : BufTy).Contents (Elt F) := (broadcastInDim S1x128 ![1] bcast_S128_S1x128_1) fcb
  have call0_v35 : (⟨S16x128, .f32⟩ : BufTy).Contents (Elt F) := (broadcastInDim S16x128 ![0, 1] bcast_S1x128_S16x128_0_1) call0_v34
  have call0_v36 : (⟨S16x128, .f32⟩ : BufTy).Contents (Elt F) := addf call0_v33 call0_v35
  have call0_v37 : (⟨S16x128, .f32⟩ : BufTy).Contents (Elt F) := Host.negf call0_v36
  have call0_v38 : (⟨S16x128, .f32⟩ : BufTy).Contents (Elt F) := Host.exp call0_v37
  have call0_cst_6 : (⟨S_, .f32⟩ : BufTy).Contents (Elt F) := constant S_ .f32 0x3F800000#32
  have call0_v39 : (⟨S16x128, .f32⟩ : BufTy).Contents (Elt F) := (broadcastInDim S16x128 ![] bcast_S_S16x128) call0_cst_6
  have call0_v40 : (⟨S16x128, .f32⟩ : BufTy).Contents (Elt F) := addf call0_v39 call0_v38
  have call0_cst_7 : (⟨S_, .f32⟩ : BufTy).Contents (Elt F) := constant S_ .f32 0x3F800000#32
  have call0_v41 : (⟨S16x128, .f32⟩ : BufTy).Contents (Elt F) := (broadcastInDim S16x128 ![] bcast_S_S16x128) call0_cst_7
  have call0_v42 : (⟨S16x128, .f32⟩ : BufTy).Contents (Elt F) := Host.divf call0_v41 call0_v40
  call0_v42

/-- The gate with a trailing unit axis. -/
noncomputable def gateCol (g : (⟨S16x128, .f32⟩ : BufTy).Contents (Elt F)) : (⟨S16x128x1, .f32⟩ : BufTy).Contents (Elt F) :=
  have call0_v43 : (⟨S16x128x1, .f32⟩ : BufTy).Contents (Elt F) := (broadcastInDim S16x128x1 ![0, 1] bcast_S16x128_S16x128x1_0_1) g
  call0_v43

/-- The gate column from the first kernel's result and the remaining inputs. -/
noncomputable def scaleCol (e : (⟨S16x64x128, .f32⟩ : BufTy).Contents (Elt F)) (bnw bnb : (⟨S64, .f32⟩ : BufTy).Contents (Elt F)) (fcw : (⟨S128x128, .f32⟩ : BufTy).Contents (Elt F)) (fcb : (⟨S128, .f32⟩ : BufTy).Contents (Elt F)) : (⟨S16x128x1, .f32⟩ : BufTy).Contents (Elt F) :=
  gateCol (gate (normalized (centered e) (varEps e)) bnw bnb fcw fcb)

end Cert.KernelIdeal.Terms

end
-- ==== Proof.HostValue.lean ====
/-
  The kernel program's host stretches, read as values: what the first kernel finds in the three arrays the host prepares
  for it, what the second kernel finds in its gate column, and the argument arrays carried through unchanged.
-/
import proofs.«404385_j35433480192595_3_alg».proof.Proof.Gen.KernelIdeal.Frame
import proofs.«404385_j35433480192595_3_alg».proof.Proof.KerTerms
import Idealize.ShloMosaic.Lib.StableHlo.Run

set_option maxRecDepth 16384

noncomputable section

namespace Cert.KernelIdeal.HostValue

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-! ## Before the first kernel -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
/-- The scaled codewords. -/
theorem V1_cwScaled (c : Dev nD) :
    V1 m ρ c main_call0_v7 = Terms.cwScaled (m ((c : Thread nD τ).loc main_arg1)) (m ((c : Thread nD τ).loc main_arg2)) := by
  show StableHlo.after hostOps0 (W0 m ρ c) (Proc.devRef .tc main_call0_v7) = _
  after_results; rfl
/-- The smoothed codeword norms. -/
theorem V1_smCwNorm (c : Dev nD) :
    V1 m ρ c main_call0_v8 = Terms.smCwNorm (m ((c : Thread nD τ).loc main_arg1)) (m ((c : Thread nD τ).loc main_arg2)) := by
  show StableHlo.after hostOps0 (W0 m ρ c) (Proc.devRef .tc main_call0_v8) = _
  after_results; rfl
/-- The smoothing column. -/
theorem V1_smCol (c : Dev nD) : V1 m ρ c main_call0_v0 = Terms.smCol (m ((c : Thread nD τ).loc main_arg2)) := by
  show StableHlo.after hostOps0 (W0 m ρ c) (Proc.devRef .tc main_call0_v0) = _
  after_results; rfl

/-! ## Between the kernels -/

/-- An argument the first kernel does not take is, after it, what the launch memory held. -/
theorem W2_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results
theorem W2_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results
theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results
theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results
/-- The first kernel reads `x` through an input window: its array is left as it was. -/
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (V1_arg0 m ρ c)

/-- The second kernel's gate column: the host chain from the first kernel's result array and the remaining inputs. -/
theorem V3_gate (c : Dev nD) :
    V3 m ρ c main_call0_v43
      = Terms.scaleCol (W2 m ρ c (Proc.devRef .tc main_call0_v9)) (W2 m ρ c (Proc.devRef .tc main_arg3)) (W2 m ρ c (Proc.devRef .tc main_arg4))
          (W2 m ρ c (Proc.devRef .tc main_arg5)) (W2 m ρ c (Proc.devRef .tc main_arg6)) := by
  show StableHlo.after hostOps1 (W2 m ρ c) (Proc.devRef .tc main_call0_v43) = _
  after_results_simp
  rfl
/-- The second kernel's `x`. -/
theorem V3_arg0 (c : Dev nD) : V3 m ρ c main_arg0 = m ((c : Thread nD τ).loc main_arg0) := by
  show StableHlo.after hostOps1 (W2 m ρ c) (Proc.devRef .tc main_arg0) = _
  after_results_simp
  exact W2_arg0 m ρ c

end Cert.KernelIdeal.HostValue

end
-- ==== Proof.ScaleValue.lean ====
import proofs.«404385_j35433480192595_3_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.ScaleValue

open Idealize.ShloMosaic Idealize.ShloMosaic.TcCoe Idealize.SL.Sem Cert.KernelIdeal Cert.KernelIdeal.Gen
open Idealize.ShloMosaic.Pipeline (Dat)
open Idealize.ShloMosaic.ValueIdx

theorem zero4 : (![0, 0, 0, 0] : Fin 4 → Nat) = fun _ => 0 := funext fun a => by fin_cases a <;> rfl

theorem zero3 : (![0, 0, 0] : Fin 3 → Nat) = fun _ => 0 := funext fun a => by fin_cases a <;> rfl

/-- The body's arithmetic at an index: the block of `x` times the block of the scale at the same channel. -/
theorem pay_apply (v0 : Vec Ideal S1x128x1x16384 .f32) (v2 : Vec Ideal S1x128x1 .f32)
    (u : Fin 1) (p : Fin 128) (w : Fin 1) (q : Fin 16384) :
    k1_pay1 v0 v2 (ix4 u p w q) = v0 (ix4 u p w q) * v2 (ix3 u p w) := by
  have hu : u.val = 0 := by omega
  have hw : w.val = 0 := by omega
  unfold k1_pay1
  rw [shapeCast_apply _ _ (ix4 u p w q) (ix2 p q) (by
    rw [Shape.rowMajor_val_four, Shape.rowMajor_val_two]
    show p.val * 16384 + q.val = ((u.val * 128 + p.val) * 1 + w.val) * 16384 + q.val
    rw [hu, hw]; omega)]
  rw [mulf_apply]
  rw [shapeCast_apply v0 _ (ix2 p q) (ix4 u p w q) (by
    rw [Shape.rowMajor_val_four, Shape.rowMajor_val_two]
    show ((u.val * 128 + p.val) * 1 + w.val) * 16384 + q.val = p.val * 16384 + q.val
    rw [hu, hw]; omega)]
  rw [broadcastTo_apply _ _ (ix2 p q) (ix2 p (0 : Fin 1)) (fun a => by
    match a with
    | ⟨0, _⟩ => rfl
    | ⟨1, _⟩ => rfl)]
  rw [shapeCast_apply v2 _ (ix2 p (0 : Fin 1)) (ix3 u p w) (by
    rw [Shape.rowMajor_val_three, Shape.rowMajor_val_two]
    show (u.val * 128 + p.val) * 1 + w.val = p.val * 1 + 0
    rw [hu, hw]; omega)]

/-- What the body leaves in the output window's buffer, at an index. -/
theorem out_apply (x0 : Vec Ideal S1x128x1x16384 .f32) (x1 : Vec Ideal S1x128x1 .f32)
    (u : Fin 1) (p : Fin 128) (w : Fin 1) (q : Fin 16384) :
    out1_2 x0 x1 (ix4 u p w q) = x0 (ix4 u p w q) * x1 (ix3 u p w) := by
  unfold out1_2
  rw [View.canon_unit_zero zero4]
  simp only [View.ld_unit_zero (S := S1x128x1x16384) zero4, View.ld_unit_zero (S := S1x128x1) zero3]
  exact pay_apply x0 x1 u p w q

/-- The same at any index of the block. -/
theorem out_at (x0 : Vec Ideal S1x128x1x16384 .f32) (x1 : Vec Ideal S1x128x1 .f32) (y : S1x128x1x16384.Idx) :
    out1_2 x0 x1 y = x0 y * x1 (ix3 (y 0) (y 1) (y 2)) := by
  obtain ⟨u, p, w, q, rfl⟩ : ∃ (u : Fin 1) (p : Fin 128) (w : Fin 1) (q : Fin 16384), y = ix4 u p w q :=
    ⟨y 0, y 1, y 2, y 3, eq_ix4 y⟩
  exact out_apply x0 x1 u p w q

/-- The whole output array: `x` scaled per batch and channel. -/
abbrev scaled (a0 : Vec Ideal S16x128x1x16384 .f32) (a1 : Vec Ideal S16x128x1 .f32) : Vec Ideal S16x128x1x16384 .f32 :=
  fun j => a0 j * a1 (ix3 (j 0) (j 1) 0)

/-- The scaled array at an index. -/
theorem scaled_apply (a0 : Vec Ideal S16x128x1x16384 .f32) (a1 : Vec Ideal S16x128x1 .f32) (j : S16x128x1x16384.Idx) :
    scaled a0 a1 j = a0 j * a1 (ix3 (j 0) (j 1) 0) := rfl

/-- The index maps over the grid: each window's block index is the point's number on the batch axis and zero
    on every other axis. -/
theorem index_facts : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 3) = t.val ∧ win1_1.index t (1 : Fin 3) = 0 ∧ win1_1.index t (2 : Fin 3) = 0
    ∧ win1_2.index t (0 : Fin 4) = t.val ∧ win1_2.index t (1 : Fin 4) = 0 ∧ win1_2.index t (2 : Fin 4) = 0 ∧ win1_2.index t (3 : Fin 4) = 0 :=
  (by decide +kernel : ∀ t : Fin grid1.N, _)

section
variable (V : (c : Dev nD) → (b : Ref sig .tc) → Buf (Elt Ideal) ((c : Thread nD τ).loc b))

/-- The block of `x` at point `t` is batch `t` of `x`. -/
theorem xblk_apply (c : Dev nD) (t : Fin cfg1.N) (y : S1x128x1x16384.Idx) (k : S16x128x1x16384.Idx)
    (hk0 : (k 0).val = t.val) (hk1 : (k 1).val = (y 1).val) (hk2 : (k 2).val = (y 2).val) (hk3 : (k 3).val = (y 3).val) :
    (iblk1 V c 0 t : Vec Ideal S1x128x1x16384 .f32) y = (V c main_arg0 : Vec Ideal S16x128x1x16384 .f32) k := by
  obtain ⟨a0, a1, a2, a3, -⟩ := index_facts t
  unfold iblk1
  rw [View.read_apply]
  show V c main_arg0 _ = V c main_arg0 _
  congr 1
  funext a
  apply Fin.ext
  match a with
  | ⟨0, _⟩ => show win1_0.index t (0 : Fin 4) * 1 + 1 * (y 0).val = (k 0).val; have hy : (y 0).val < 1 := (y 0).isLt; omega
  | ⟨1, _⟩ => show win1_0.index t (1 : Fin 4) * 128 + 1 * (y 1).val = (k 1).val; omega
  | ⟨2, _⟩ => show win1_0.index t (2 : Fin 4) * 1 + 1 * (y 2).val = (k 2).val; omega
  | ⟨3, _⟩ => show win1_0.index t (3 : Fin 4) * 16384 + 1 * (y 3).val = (k 3).val; omega

/-- The block of the scale at point `t` is batch `t` of the scale. -/
theorem sblk_apply (c : Dev nD) (t : Fin cfg1.N) (z : S1x128x1.Idx) (k : S16x128x1.Idx)
    (hk0 : (k 0).val = t.val) (hk1 : (k 1).val = (z 1).val) (hk2 : (k 2).val = 0) :
    (iblk1 V c 1 t : Vec Ideal S1x128x1 .f32) z = (V c main_call0_v43 : Vec Ideal S16x128x1 .f32) k := by
  obtain ⟨-, -, -, -, b0, b1, b2, -⟩ := index_facts t
  unfold iblk1
  rw [View.read_apply]
  show V c main_call0_v43 _ = V c main_call0_v43 _
  congr 1
  funext a
  apply Fin.ext
  match a with
  | ⟨0, _⟩ => show win1_1.index t (0 : Fin 3) * 1 + 1 * (z 0).val = (k 0).val; have hz : (z 0).val < 1 := (z 0).isLt; omega
  | ⟨1, _⟩ => show win1_1.index t (1 : Fin 3) * 128 + 1 * (z 1).val = (k 1).val; omega
  | ⟨2, _⟩ => show win1_1.index t (2 : Fin 3) * 1 + 1 * (z 2).val = (k 2).val; have hz : (z 2).val < 1 := (z 2).isLt; omega

/-- What point `t` writes back is block `t` of the scaled array. -/
theorem flushed_eq (c : Dev nD) (t : Fin cfg1.N) :
    (dat1 (F := Ideal) V c).flushed 2 t
      = ((cfg1.win 2).blk t).view.read (Elt Ideal) (scaled (V c main_arg0) (V c main_call0_v43)) := by
  show (cfg1.win 2).cut (grid1.coords t) ((dat1 V c).after 2 t) = _
  rw [after1_2]
  obtain ⟨-, -, -, -, -, -, -, d0, d1, d2, d3⟩ := index_facts t
  funext y
  refine (out_at (iblk1 V c 0 t) (iblk1 V c 1 t) y).trans ?_
  show _ = scaled (V c main_arg0) (V c main_call0_v43) (((cfg1.win 2).blk t).view.emb y)
  have hy0 : (y 0).val < 1 := (y 0).isLt
  have hy2 : (y 2).val < 1 := (y 2).isLt
  have e0 : ((((cfg1.win 2).blk t).view.emb y) 0).val = t.val := by
    show win1_2.index t (0 : Fin 4) * 1 + 1 * (y 0).val = t.val; omega
  have e1 : ((((cfg1.win 2).blk t).view.emb y) 1).val = (y 1).val := by
    show win1_2.index t (1 : Fin 4) * 128 + 1 * (y 1).val = (y 1).val; omega
  have e2 : ((((cfg1.win 2).blk t).view.emb y) 2).val = (y 2).val := by
    show win1_2.index t (2 : Fin 4) * 1 + 1 * (y 2).val = (y 2).val; omega
  have e3 : ((((cfg1.win 2).blk t).view.emb y) 3).val = (y 3).val := by
    show win1_2.index t (3 : Fin 4) * 16384 + 1 * (y 3).val = (y 3).val; omega
  exact congrArg₂ (· * ·) (xblk_apply V c t y _ e0 e1 e2 e3) (sblk_apply V c t _ _ e0 e1 rfl)

/-- An index of the array is in point `t`'s block iff each coordinate is in the block's range on its axis. -/
theorem mem_blk (t : Fin cfg1.N) (i : S16x128x1x16384.Idx) :
    i ∈ ((cfg1.win 2).blk t).view.set ↔ ∀ a : Fin 4, win1_2.index t a * S1x128x1x16384.size a ≤ (i a).val
      ∧ (i a).val < win1_2.index t a * S1x128x1x16384.size a + S1x128x1x16384.size a := by
  show i ∈ ((View.whole main_v0).slice (win1_2.rect t)).set ↔ _
  rw [View.set_slice_whole, Rect.mem_set_unit]
  exact Iff.rfl

/-- Every index lies in the block of the point numbered by its batch. -/
theorem cover (i : S16x128x1x16384.Idx) :
    ∃ t : Fin cfg1.N, (cfg1.win 2).flush t = true ∧ i ∈ ((cfg1.win 2).blk t).view.set := by
  have hN : grid1.N = 16 := N_1
  have hi0 : (i 0).val < 16 := (i 0).isLt
  have hi1 : (i 1).val < 128 := (i 1).isLt
  have hi2 : (i 2).val < 1 := (i 2).isLt
  have hi3 : (i 3).val < 16384 := (i 3).isLt
  obtain ⟨t, ht⟩ : ∃ t : Fin cfg1.N, t.val = (i 0).val := ⟨⟨(i 0).val, by show (i 0).val < grid1.N; omega⟩, rfl⟩
  obtain ⟨-, -, -, -, -, -, -, d0, d1, d2, d3⟩ := index_facts t
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 128 ≤ (i 1).val ∧ (i 1).val < win1_2.index t (1 : Fin 4) * 128 + 128; omega
  | ⟨2, _⟩ => show win1_2.index t (2 : Fin 4) * 1 ≤ (i 2).val ∧ (i 2).val < win1_2.index t (2 : Fin 4) * 1 + 1; omega
  | ⟨3, _⟩ => show win1_2.index t (3 : Fin 4) * 16384 ≤ (i 3).val ∧ (i 3).val < win1_2.index t (3 : Fin 4) * 16384 + 16384; omega

/-- The output array after the region: `x` times the scale of its batch and channel, at every index. -/
theorem out_value (c : Dev nD) :
    (dat1 (F := Ideal) V c).arrAt 2 cfg1.N = scaled (V c main_arg0) (V c main_call0_v43) :=
  (dat1 V c).arrAt_eq_of_cover 2 (scaled (V c main_arg0) (V c main_call0_v43)) (fun t _ => flushed_eq V c t) cover

end

end Cert.KernelIdeal.ScaleValue

end
-- ==== Proof.EncBlock.lean ====
/-
  What the first kernel's body leaves in its output block, as ONE function of the five input blocks.

  The body zeroes two accumulators (assignment mass, a [64,1] column; weighted sums, [64,128]), walks the block's
  16384 positions in 8 chunks of 2048 lanes, adds each chunk's partial sums to the accumulators, and stores
  `weighted sums − mass · codewords`.
-/
import proofs.«404385_j35433480192595_3_alg».proof.Proof.Gen.KernelIdeal.Skeleton
import Idealize.ShloMosaic.Lib.Pipeline.FrameBody

noncomputable section

namespace Cert.KernelIdeal.EncValue

open Idealize.ShloMosaic Idealize.SL.Sem Cert.KernelIdeal Cert.KernelIdeal.Gen

variable {F : FTy → Type} [FloatOps F]

/-- The loop makes eight trips. -/
theorem trips_eq : k0_t1_loop.trips = 8 := by decide

/-- Chunk `k` of the block of `x`: positions `2048·k … 2048·k + 2047`, every channel. -/
def chunk (x0 : Vec F S1x128x1x16384 .f32) (k : Fin k0_t1_loop.trips) : Vec F S1x128x1x2048 .f32 :=
  View.ld x0 (Rect.unit (s := S1x128x1x16384) (k0_off1 k) S1x128x1x2048.size (k0_off1_inb k))

/-- The two accumulators after the first `n` chunks: from the zero stores, each trip adding its chunk's partial sums
    (`x2` the scaled codewords, `x3` the smoothed codeword norms, `x4` the smoothing column). -/
def accs (x0 : Vec F S1x128x1x16384 .f32) (x2 : Vec F S64x128 .f32) (x3 x4 : Vec F S64x1 .f32) :
    ℕ → Vec F S64x1 .f32 × Vec F S64x128 .f32
  | 0 => (k0_pay1, k0_pay2)
  | n + 1 =>
    if h : n < k0_t1_loop.trips then
      (k0_pay11 (k0_pay3 x2) (k0_pay4 x3) (k0_pay5 x4) (chunk x0 ⟨n, h⟩) (accs x0 x2 x3 x4 n).1,
       k0_pay6 (k0_pay12 (k0_pay3 x2) (k0_pay4 x3) (k0_pay5 x4) (chunk x0 ⟨n, h⟩) (accs x0 x2 x3 x4 n).2))
    else accs x0 x2 x3 x4 n

/-- The output block: the weighted sums minus the mass times the codewords `x1`. -/
def encBlock (x0 : Vec F S1x128x1x16384 .f32) (x1 x2 : Vec F S64x128 .f32) (x3 x4 : Vec F S64x1 .f32) : Vec F S1x64x128 .f32 :=
  k0_pay7 (accs x0 x2 x3 x4 k0_t1_loop.trips).2 (accs x0 x2 x3 x4 k0_t1_loop.trips).1 x1

end Cert.KernelIdeal.EncValue

end
-- ==== Proof.EncPieces.lean ====
/-
  The first kernel's body, read as a value: what its stores leave in the output's staging buffer is the function
  `encBlock` of the five input blocks.

  The body's last store writes `weighted sums − mass · codewords` of what it loads from the two accumulators after the
  loop. Each trip of the loop overwrites both accumulators whole, with its chunk's partial sums added to what it loads
  from them; so after `n` trips each accumulator reads as the `n`-fold recursion from the zero stores, by induction on `n`.
-/
import proofs.«404385_j35433480192595_3_alg».proof.Proof.Gen.KernelIdeal.Frame
import proofs.«404385_j35433480192595_3_alg».proof.Proof.EncBlock
import Idealize.ShloMosaic.Lib.Pipeline.Value
import Idealize.ShloMosaic.Lib.Tactic

set_option maxRecDepth 16384

noncomputable section

namespace Cert.KernelIdeal.EncValue

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole buffer whose last store was whole reads that store's payload, whatever came before. -/
theorem readAt_whole_cons {S : Shape} {e : EltTy} (m : Memref sig .tc .vmem S e) {off : Fin S.rank → Nat} (hz : off = fun _ => 0)
    (inb : ∀ a, off a + S.size a ≤ S.size a) (w : S.Idx → Elt F e) (L : List (View.Piece (Elt F) S e)) :
    View.readAt (Elt F) m.view (Rect.unit off S.size inb).toLoadRect
      (m.view.writes (Elt F) m.view.junk ((⟨Rect.unit off S.size inb, w⟩ : View.Piece (Elt F) S e) :: L)) = w := by
  rw [View.readAt_eq_ld, View.ld_unit_zero hz,
    View.read_writes_eq_canon _ _ _ (fun y => ⟨_, List.mem_cons_self .., View.mem_set_unit_zero hz inb y⟩),
    View.canon_cons_unit_zero hz]

/-- A load of a whole buffer at known contents reads them. -/
theorem readAt_whole_unread {S : Shape} {e : EltTy} (m : Memref sig .tc .vmem S e) (hm : m.IsWhole) {off : Fin S.rank → Nat}
    (hz : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero hz]

/-- ONE TRIP's stores: both accumulators overwritten whole — the mass with `acc + (the chunk's row sums of the assignment)`,
    the weighted sums with `acc + (assignment × chunkᵀ)` —, each a function of what the trip loads from them. -/
theorem trip_pieces (𝒱 : Variants) (c : Dev nD) (bd : Option 𝒱.V) (i : grid0.Coords) (arg1 : Memref sig .tc .vmem S1x128x1x16384 .f32) (harg1 : arg1.IsWhole) (arg2 : Memref sig .tc .vmem S64x128 .f32) (harg2 : arg2.IsWhole) (arg3 : Memref sig .tc .vmem S64x128 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x128 .f32) (harg6 : arg6.IsWhole) (arg7 : Memref sig .tc .vmem S64x1 .f32) (harg7 : arg7.IsWhole) (arg8 : Memref sig .tc .vmem S64x128 .f32) (harg8 : arg8.IsWhole)
    (v8 : Vec F S64x128 .f32) (v11 : Vec F S64x1 .f32) (v13 : Vec F S64x1 .f32) (X : BufTy.Contents (Elt F) arg1.view.ty) (k : Fin k0_t1_loop.trips)
    (f7 : BufTy.Contents (Elt F) arg7.view.ty) (f8 : BufTy.Contents (Elt F) arg8.view.ty) :
    tripL_k0_t1 (F := F) 𝒱 c bd i arg1 harg1 arg2 harg2 arg3 harg3 arg4 harg4 arg5 harg5 arg6 harg6 arg7 harg7 arg8 harg8 v8 v11 v13 X k f7 f8
      = ([(⟨Rect.unit ![0, 0] S64x1.size inb_S64x1_S64x1_0_0,
            k0_pay11 (k0_pay3 v8) (k0_pay4 v11) (k0_pay5 v13)
              (View.readAt (Elt F) arg1.view (Rect.unit (s := S1x128x1x16384) (k0_off1 k) S1x128x1x2048.size (k0_off1_inb k)).toLoadRect X)
              (View.readAt (Elt F) arg7.view (Rect.unit ![0, 0] S64x1.size inb_S64x1_S64x1_0_0).toLoadRect f7)⟩ : View.Piece (Elt F) S64x1 .f32)],
         [(⟨Rect.unit ![0, 0] S64x128.size inb_S64x128_S64x128_0_0,
            k0_pay6 (k0_pay12 (k0_pay3 v8) (k0_pay4 v11) (k0_pay5 v13)
              (View.readAt (Elt F) arg1.view (Rect.unit (s := S1x128x1x16384) (k0_off1 k) S1x128x1x2048.size (k0_off1_inb k)).toLoadRect X)
              (View.readAt (Elt F) arg8.view (Rect.unit ![0, 0] S64x128.size inb_S64x128_S64x128_0_0).toLoadRect f8))⟩ : View.Piece (Elt F) S64x128 .f32)]) := by
  unfold tripL_k0_t1 trip_k0_t1
  dsimp only
  sl_unfold_words
  rfl

/-- The zero stores before the loop, as pieces. -/
abbrev p7 : View.Piece (Elt F) S64x1 .f32 := ⟨Rect.unit ![0, 0] S64x1.size inb_S64x1_S64x1_0_0, k0_pay1⟩
abbrev p8 : View.Piece (Elt F) S64x128 .f32 := ⟨Rect.unit ![0, 0] S64x128.size inb_S64x128_S64x128_0_0, k0_pay2⟩

/-- After `n` trips each accumulator, loaded whole, reads as the recursion `accs` from the zero stores. -/
theorem accs_inv (𝒱 : Variants) (c : Dev nD) (bd : Option 𝒱.V) (i : grid0.Coords) (arg1 : Memref sig .tc .vmem S1x128x1x16384 .f32) (harg1 : arg1.IsWhole) (arg2 : Memref sig .tc .vmem S64x128 .f32) (harg2 : arg2.IsWhole) (arg3 : Memref sig .tc .vmem S64x128 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x128 .f32) (harg6 : arg6.IsWhole) (arg7 : Memref sig .tc .vmem S64x1 .f32) (harg7 : arg7.IsWhole) (arg8 : Memref sig .tc .vmem S64x128 .f32) (harg8 : arg8.IsWhole)
    (x0 : Vec F S1x128x1x16384 .f32) (x2 : Vec F S64x128 .f32) (x3 x4 : Vec F S64x1 .f32) :
    ∀ n : ℕ, n ≤ k0_t1_loop.trips →
      View.readAt (Elt F) arg7.view (Rect.unit ![0, 0] S64x1.size inb_S64x1_S64x1_0_0).toLoadRect
          (arg7.view.writes (Elt F) arg7.view.junk
            ((pb_k0_t1 (F := F) 𝒱 c bd i arg1 harg1 arg2 harg2 arg3 harg3 arg4 harg4 arg5 harg5 arg6 harg6 arg7 harg7 arg8 harg8 x2 x3 x4 (harg1.unread x0)
                (arg7.view.writes (Elt F) arg7.view.junk [p7]) (arg8.view.writes (Elt F) arg8.view.junk [p8]) n).1 ++ [p7]))
        = (accs x0 x2 x3 x4 n).1
      ∧ View.readAt (Elt F) arg8.view (Rect.unit ![0, 0] S64x128.size inb_S64x128_S64x128_0_0).toLoadRect
          (arg8.view.writes (Elt F) arg8.view.junk
            ((pb_k0_t1 (F := F) 𝒱 c bd i arg1 harg1 arg2 harg2 arg3 harg3 arg4 harg4 arg5 harg5 arg6 harg6 arg7 harg7 arg8 harg8 x2 x3 x4 (harg1.unread x0)
                (arg7.view.writes (Elt F) arg7.view.junk [p7]) (arg8.view.writes (Elt F) arg8.view.junk [p8]) n).2 ++ [p8]))
        = (accs x0 x2 x3 x4 n).2
  | 0, _ => by
    rw [pb_k0_t1.eq_1]
    exact ⟨readAt_whole_cons arg7 hz2 _ _ _, readAt_whole_cons arg8 hz2 _ _ _⟩
  | n + 1, hn => by
    have hlt : n < k0_t1_loop.trips := hn
    obtain ⟨ih7, ih8⟩ := accs_inv 𝒱 c bd i arg1 harg1 arg2 harg2 arg3 harg3 arg4 harg4 arg5 harg5 arg6 harg6 arg7 harg7 arg8 harg8 x0 x2 x3 x4 n (Nat.le_of_lt hlt)
    have hch : View.readAt (Elt F) arg1.view (Rect.unit (s := S1x128x1x16384) (k0_off1 ⟨n, hlt⟩) S1x128x1x2048.size (k0_off1_inb ⟨n, hlt⟩)).toLoadRect (harg1.unread x0)
        = chunk x0 ⟨n, hlt⟩ := by
      rw [View.readAt_eq_ld, harg1.read_unread]; rfl
    rw [pb_k0_t1_succ (F := F) 𝒱 c bd i arg1 harg1 arg2 harg2 arg3 harg3 arg4 harg4 arg5 harg5 arg6 harg6 arg7 harg7 arg8 harg8 x2 x3 x4 (harg1.unread x0) _ _ ⟨n, hlt⟩, trip_pieces]
    refine ⟨(readAt_whole_cons arg7 hz2 _ _ _).trans ?_, (readAt_whole_cons arg8 hz2 _ _ _).trans ?_⟩
    · rw [← View.writes_append, ih7, hch, accs, dif_pos hlt]
    · rw [← View.writes_append, ih8, hch, accs, dif_pos hlt]

/-- What the body's stores leave in the output's staging buffer: `encBlock` of the five input blocks. -/
theorem out_eq (c : Dev nD) (i : grid0.Coords) (arg1 : Memref sig .tc .vmem S1x128x1x16384 .f32) (harg1 : arg1.IsWhole) (arg2 : Memref sig .tc .vmem S64x128 .f32) (harg2 : arg2.IsWhole) (arg3 : Memref sig .tc .vmem S64x128 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x128 .f32) (harg6 : arg6.IsWhole) (arg7 : Memref sig .tc .vmem S64x1 .f32) (harg7 : arg7.IsWhole) (arg8 : Memref sig .tc .vmem S64x128 .f32) (harg8 : arg8.IsWhole)
    (x0 : Vec F S1x128x1x16384 .f32) (x1 x2 : Vec F S64x128 .f32) (x3 x4 : Vec F S64x1 .f32) :
    out0_A_5 c i arg1 harg1 arg2 harg2 arg3 harg3 arg4 harg4 arg5 harg5 arg6 harg6 arg7 harg7 arg8 harg8 x0 x1 x2 x3 x4 = encBlock x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  sl_unfold_words
  refine (View.canon_unit_zero hz3 _ _).trans ?_
  obtain ⟨h7, h8⟩ := accs_inv Variants.none c none i arg1 harg1 arg2 harg2 arg3 harg3 arg4 harg4 arg5 harg5 arg6 harg6 arg7 harg7 arg8 harg8 x0 x2 x3 x4 k0_t1_loop.trips le_rfl
  have e3 := readAt_whole_unread arg3 harg3 hz2 inb_S64x128_S64x128_0_0 x2
  have e4 := readAt_whole_unread arg4 harg4 hz2 inb_S64x1_S64x1_0_0 x3
  have e5 := readAt_whole_unread arg5 harg5 hz2 inb_S64x1_S64x1_0_0 x4
  rw [e3, e4, e5]
  unfold encBlock
  refine congr (congr (congrArg k0_pay7 ?_) ?_) ?_
  · exact h8
  · exact h7
  · exact readAt_whole_unread arg2 harg2 hz2 _ x1

end Cert.KernelIdeal.EncValue

end
-- ==== Proof.Spec.lean ====
/-
  The mathematics of the two programs, stated over plain coordinates on the extended reals.

  Inputs: `x b c s` (batch 16, channel 128, position 16384; the unit axis of the array dropped), the
  codewords `cw k c` (64 of them) and the smoothing factors `sm k`.

  Both programs soft-assign every position `s` of batch `b` to the 64 codewords, with logits
  `sm k · ‖x(b,·,s) − cw(k,·)‖²` expanded as `‖x‖² − 2⟨x, cw⟩ + ‖cw‖²`, and aggregate the residuals:
  `e b k c = ∑ s, a b s k · x b c s − (∑ s, a b s k) · cw k c`.

  The reference forms the logit as `sm · ((‖x‖² − 2·cross) + ‖cw‖²)`; the kernel distributes the factor first,
  `(sm·‖x‖² + ∑ c, ((−2·sm)·cw)·x) + sm·‖cw‖²`, walks the positions in 8 chunks of 2048 lanes and adds the
  chunks' partial sums into two accumulators that start at zero.
-/
import Idealize.ShloMosaic.PureOps.Ideal
import Idealize.ShloMosaic.Lib.ValueIdx

noncomputable section

namespace Cert.Spec

open Idealize.ShloMosaic

/-- The arrays as functions of plain coordinates. -/
abbrev XArr := Fin 16 → Fin 128 → Fin 16384 → EReal
abbrev CwArr := Fin 64 → Fin 128 → EReal
abbrev SmArr := Fin 64 → EReal
/-- Logits / assignments: batch, position, codeword. -/
abbrev Logits := Fin 16 → Fin 16384 → Fin 64 → EReal
/-- The encoded residual sums: batch, codeword, channel. -/
abbrev EArr := Fin 16 → Fin 64 → Fin 128 → EReal

/-- Position `j · 2048 + q`: lane `q` of chunk `j`. -/
def pos (j : Fin 8) (q : Fin 2048) : Fin 16384 := ⟨j.val * 2048 + q.val, by omega⟩

/-- The float literals the programs carry, as the extended reals they denote. -/
def two : EReal := Ideal.ofBits .f32 0x40000000#32
def negTwo : EReal := Ideal.ofBits .f32 0xC0000000#32
def negInf : EReal := Ideal.ofBits .f32 0xFF800000#32

/-- The running maximum of 64 logits, from the literal the reduction starts at. -/
def foldMax (f : Fin 64 → EReal) : EReal := (Finset.univ : Finset (Fin 64)).fold max negInf f

/-! ## The reference's form -/

/-- `‖x(b,·,s)‖²`, summed from an initial zero. -/
def sqNormR (x : XArr) (b : Fin 16) (s : Fin 16384) : EReal := 0 + ∑ c : Fin 128, x b c s * x b c s
/-- `‖cw(k,·)‖²`, summed from an initial zero. -/
def cwNormR (cw : CwArr) (k : Fin 64) : EReal := 0 + ∑ c : Fin 128, cw k c * cw k c
/-- `⟨x(b,·,s), cw(k,·)⟩`. -/
def crossR (x : XArr) (cw : CwArr) (b : Fin 16) (s : Fin 16384) (k : Fin 64) : EReal := ∑ c : Fin 128, x b c s * cw k c
/-- The reference's logit. -/
def logitR (x : XArr) (cw : CwArr) (sm : SmArr) : Logits :=
  fun b s k => sm k * ((sqNormR x b s - two * crossR x cw b s k) + cwNormR cw k)
/-- The reference's softmax over the codewords: the maximum once more against the starting literal, the normaliser
    summed from an initial zero. -/
def assignR (z : Logits) : Logits :=
  fun b s k => Ideal.div (Ideal.exp (z b s k - max negInf (foldMax (z b s))))
    (0 + ∑ k' : Fin 64, Ideal.exp (z b s k' - max negInf (foldMax (z b s))))
/-- The reference's residual sums from an assignment. -/
def encodeR (a : Logits) (x : XArr) (cw : CwArr) : EArr :=
  fun b k c => (∑ s : Fin 16384, a b s k * x b c s) - (0 + ∑ s : Fin 16384, a b s k) * cw k c
/-- The reference's `e`. -/
def eR (x : XArr) (cw : CwArr) (sm : SmArr) : EArr := encodeR (assignR (logitR x cw sm)) x cw

/-! ## The kernel's form -/

/-- `‖x(b,·,s)‖²`, a plain sum. -/
def sqNormK (x : XArr) (b : Fin 16) (s : Fin 16384) : EReal := ∑ c : Fin 128, x b c s * x b c s
/-- The scaled codewords the host prepares: `(−2 · sm k) · cw k c`. -/
def cwScaled (cw : CwArr) (sm : SmArr) (k : Fin 64) (c : Fin 128) : EReal := (negTwo * sm k) * cw k c
/-- `sm k · ‖cw(k,·)‖²`, as the host prepares it. -/
def smCwNorm (cw : CwArr) (sm : SmArr) (k : Fin 64) : EReal := sm k * cwNormR cw k
/-- The kernel's logit. -/
def logitK (x : XArr) (cw : CwArr) (sm : SmArr) : Logits :=
  fun b s k => (sm k * sqNormK x b s + ∑ c : Fin 128, cwScaled cw sm k c * x b c s) + smCwNorm cw sm k
/-- The kernel's softmax over the codewords. -/
def assignK (z : Logits) : Logits :=
  fun b s k => Ideal.div (Ideal.exp (z b s k - foldMax (z b s)))
    (∑ k' : Fin 64, Ideal.exp (z b s k' - foldMax (z b s)))
/-- Chunk `j`'s contribution to the assignment-mass accumulator. -/
def partA (a : Logits) (b : Fin 16) (j : Fin 8) (k : Fin 64) : EReal := ∑ q : Fin 2048, a b (pos j q) k
/-- Chunk `j`'s contribution to the weighted-sum accumulator. -/
def partAX (a : Logits) (x : XArr) (b : Fin 16) (j : Fin 8) (k : Fin 64) (c : Fin 128) : EReal :=
  ∑ q : Fin 2048, a b (pos j q) k * x b c (pos j q)
/-- The accumulators after the first `n` chunks, from zero, each chunk added on the right. -/
def accA (a : Logits) (b : Fin 16) (k : Fin 64) : ℕ → EReal
  | 0 => 0
  | n + 1 => accA a b k n + (if h : n < 8 then partA a b ⟨n, h⟩ k else 0)
def accAX (a : Logits) (x : XArr) (b : Fin 16) (k : Fin 64) (c : Fin 128) : ℕ → EReal
  | 0 => 0
  | n + 1 => accAX a x b k c n + (if h : n < 8 then partAX a x b ⟨n, h⟩ k c else 0)
/-- The kernel's `e`. -/
def eK (x : XArr) (cw : CwArr) (sm : SmArr) : EArr :=
  fun b k c => accAX (assignK (logitK x cw sm)) x b k c 8 - accA (assignK (logitK x cw sm)) b k 8 * cw k c

/-- Every entry of the three inputs is a real number. -/
def FiniteIn (x : XArr) (cw : CwArr) (sm : SmArr) : Prop :=
  (∀ b c s, ∃ r : ℝ, x b c s = (r : EReal)) ∧ (∀ k c, ∃ r : ℝ, cw k c = (r : EReal)) ∧ (∀ k, ∃ r : ℝ, sm k = (r : EReal))

end Cert.Spec

end
-- ==== Proof.EncArray.lean ====
import proofs.«404385_j35433480192595_3_alg».proof.Proof.Gen.KernelIdeal.Frame
import proofs.«404385_j35433480192595_3_alg».proof.Proof.EncBlock
import proofs.«404385_j35433480192595_3_alg».proof.Proof.Spec
import proofs.«404385_j35433480192595_3_alg».proof.Proof.EncPieces
import Idealize.ShloMosaic.Lib.Pipeline.Value
import Idealize.ShloMosaic.Lib.ValueIdx
import Idealize.ShloMosaic.Lib.Tactic

set_option maxRecDepth 16384

noncomputable section

namespace Cert.KernelIdeal.EncValue

open Idealize.ShloMosaic Idealize.ShloMosaic.TcCoe Idealize.SL.Sem Cert.KernelIdeal Cert.KernelIdeal.Gen
open Idealize.ShloMosaic.Pipeline (Dat)
open Idealize.ShloMosaic.ValueIdx

/-- The index maps over the grid: the block of `x` and the output block sit at the point's number on the batch axis
    and at zero on every other axis; the four whole-array windows sit at zero. -/
theorem enc_index_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- An array of `x`'s shape as a function of batch, channel and position (the unit axis dropped). -/
abbrev xOf (a0 : Vec Ideal S16x128x1x16384 .f32) : Cert.Spec.XArr :=
  fun b ch s => a0 (ix4 b ch 0 s)

/-- The whole output array: the kernel's form of the residual sums at batch, codeword, channel. -/
abbrev eArr (a0 : Vec Ideal S16x128x1x16384 .f32) (CW : Cert.Spec.CwArr) (SM : Cert.Spec.SmArr) : Vec Ideal S16x64x128 .f32 :=
  fun j => Cert.Spec.eK (xOf a0) CW SM (j 0) (j 1) (j 2)

/-- What the body leaves in its output block is `encBlock` of the five input blocks, on any staging memrefs. -/
abbrev OutIsEncBlock : Prop :=
  ∀ (c : Dev nD) (i : grid0.Coords) (arg1 : Memref sig .tc .vmem S1x128x1x16384 .f32) (harg1 : arg1.IsWhole) (arg2 : Memref sig .tc .vmem S64x128 .f32) (harg2 : arg2.IsWhole) (arg3 : Memref sig .tc .vmem S64x128 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x128 .f32) (harg6 : arg6.IsWhole) (arg7 : Memref sig .tc .vmem S64x1 .f32) (harg7 : arg7.IsWhole) (arg8 : Memref sig .tc .vmem S64x128 .f32) (harg8 : arg8.IsWhole) (x0 : Vec Ideal S1x128x1x16384 .f32) (x1 x2 : Vec Ideal S64x128 .f32) (x3 x4 : Vec Ideal S64x1 .f32),
    Gen.out0_A_5 (F := Ideal) c i arg1 harg1 arg2 harg2 arg3 harg3 arg4 harg4 arg5 harg5 arg6 harg6 arg7 harg7 arg8 harg8 x0 x1 x2 x3 x4 = encBlock x0 x1 x2 x3 x4

/-- `encBlock` of blocks holding batch `b` of `x`, the codewords, the scaled codewords, the smoothed norms and the
    smoothing factors reads, at codeword `k` and channel `c`, the kernel's form of the residual sum. -/
abbrev EncBlockReads : Prop :=
  ∀ (x0 : Vec Ideal S1x128x1x16384 .f32) (x1 x2 : Vec Ideal S64x128 .f32) (x3 x4 : Vec Ideal S64x1 .f32) (X : Cert.Spec.XArr) (CW : Cert.Spec.CwArr) (SM : Cert.Spec.SmArr) (b : Fin 16)
    (h0 : ∀ (c : Fin 128) (s : Fin 16384), x0 (ix4 0 c 0 s) = X b c s) (h1 : ∀ (k : Fin 64) (c : Fin 128), x1 (ix2 k c) = CW k c)
    (h2 : ∀ (k : Fin 64) (c : Fin 128), x2 (ix2 k c) = Cert.Spec.cwScaled CW SM k c) (h3 : ∀ k : Fin 64, x3 (ix2 k 0) = Cert.Spec.smCwNorm CW SM k) (h4 : ∀ k : Fin 64, x4 (ix2 k 0) = SM k) (k : Fin 64) (c : Fin 128),
    encBlock (F := Ideal) x0 x1 x2 x3 x4 (ix3 0 k c) = Cert.Spec.eK X CW SM b k c

section
variable (V : (c : Dev nD) → (b : Ref sig .tc) → Buf (Elt Ideal) ((c : Thread nD τ).loc b))

/-- The block of `x` at point `t` is batch `t` of `x`. -/
theorem xblk_apply (c : Dev nD) (t : Fin cfg0.N) (y : S1x128x1x16384.Idx) (k : S16x128x1x16384.Idx)
    (hk0 : (k 0).val = t.val) (hk1 : (k 1).val = (y 1).val) (hk2 : (k 2).val = (y 2).val) (hk3 : (k 3).val = (y 3).val) :
    (iblk0 V c 0 t : Vec Ideal S1x128x1x16384 .f32) y = (V c main_arg0 : Vec Ideal S16x128x1x16384 .f32) k := by
  obtain ⟨a0, a1, a2, a3, -⟩ := enc_index_facts t
  unfold iblk0
  rw [View.read_apply]
  show V c main_arg0 _ = V c main_arg0 _
  congr 1
  funext a
  apply Fin.ext
  match a with
  | ⟨0, _⟩ => show win0_0.index t (0 : Fin 4) * 1 + 1 * (y 0).val = (k 0).val; have hy : (y 0).val < 1 := (y 0).isLt; omega
  | ⟨1, _⟩ => show win0_0.index t (1 : Fin 4) * 128 + 1 * (y 1).val = (k 1).val; omega
  | ⟨2, _⟩ => show win0_0.index t (2 : Fin 4) * 1 + 1 * (y 2).val = (k 2).val; omega
  | ⟨3, _⟩ => show win0_0.index t (3 : Fin 4) * 16384 + 1 * (y 3).val = (k 3).val; omega

/-- The codewords' window holds the whole array at every point. -/
theorem cwblk_apply (c : Dev nD) (t : Fin cfg0.N) (y : S64x128.Idx) :
    (iblk0 V c 1 t : Vec Ideal S64x128 .f32) y = (V c main_arg1 : Vec Ideal S64x128 .f32) y := by
  obtain ⟨-, -, -, -, b0, b1, -⟩ := enc_index_facts t
  unfold iblk0
  rw [View.read_apply]
  show V c main_arg1 _ = V c main_arg1 _
  congr 1
  funext a
  apply Fin.ext
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- The scaled codewords' window holds the whole array at every point. -/
theorem scblk_apply (c : Dev nD) (t : Fin cfg0.N) (y : S64x128.Idx) :
    (iblk0 V c 2 t : Vec Ideal S64x128 .f32) y = (V c main_call0_v7 : Vec Ideal S64x128 .f32) y := by
  obtain ⟨-, -, -, -, -, -, b0, b1, -⟩ := enc_index_facts t
  unfold iblk0
  rw [View.read_apply]
  show V c main_call0_v7 _ = V c main_call0_v7 _
  congr 1
  funext a
  apply Fin.ext
  match a with
  | ⟨0, _⟩ => show win0_2.index t (0 : Fin 2) * 64 + 1 * (y 0).val = (y 0).val; omega
  | ⟨1, _⟩ => show win0_2.index t (1 : Fin 2) * 128 + 1 * (y 1).val = (y 1).val; omega

/-- The smoothed codeword norms' window holds the whole column at every point. -/
theorem nblk_apply (c : Dev nD) (t : Fin cfg0.N) (y : S64x1.Idx) :
    (iblk0 V c 3 t : Vec Ideal S64x1 .f32) y = (V c main_call0_v8 : Vec Ideal S64x1 .f32) y := by
  obtain ⟨-, -, -, -, -, -, -, -, b0, b1, -⟩ := enc_index_facts t
  unfold iblk0
  rw [View.read_apply]
  show V c main_call0_v8 _ = V c main_call0_v8 _
  congr 1
  funext a
  apply Fin.ext
  match a with
  | ⟨0, _⟩ => show win0_3.index t (0 : Fin 2) * 64 + 1 * (y 0).val = (y 0).val; omega
  | ⟨1, _⟩ => show win0_3.index t (1 : Fin 2) * 1 + 1 * (y 1).val = (y 1).val; omega

/-- The smoothing factors' window holds the whole column at every point. -/
theorem smblk_apply (c : Dev nD) (t : Fin cfg0.N) (y : S64x1.Idx) :
    (iblk0 V c 4 t : Vec Ideal S64x1 .f32) y = (V c main_call0_v0 : Vec Ideal S64x1 .f32) y := by
  obtain ⟨-, -, -, -, -, -, -, -, -, -, b0, b1, -⟩ := enc_index_facts t
  unfold iblk0
  rw [View.read_apply]
  show V c main_call0_v0 _ = V c main_call0_v0 _
  congr 1
  funext a
  apply Fin.ext
  match a with
  | ⟨0, _⟩ => show win0_4.index t (0 : Fin 2) * 64 + 1 * (y 0).val = (y 0).val; omega
  | ⟨1, _⟩ => show win0_4.index t (1 : Fin 2) * 1 + 1 * (y 1).val = (y 1).val; omega

/-- The point's number as a batch. -/
def batchOf (t : Fin cfg0.N) : Fin 16 := ⟨t.val, by have hN : grid0.N = 16 := N_0; have ht : t.val < grid0.N := t.isLt; omega⟩

/-- What the body leaves in the output's buffer after point `t`: the kernel's form at batch `t`. -/
theorem outs_apply_of (hA : OutIsEncBlock) (hB : EncBlockReads) (c : Dev nD) (CW : Cert.Spec.CwArr) (SM : Cert.Spec.SmArr)
    (h1 : ∀ (k : Fin 64) (ch : Fin 128), (V c main_arg1 : Vec Ideal S64x128 .f32) (ix2 k ch) = CW k ch)
    (h2 : ∀ (k : Fin 64) (ch : Fin 128), (V c main_call0_v7 : Vec Ideal S64x128 .f32) (ix2 k ch) = Cert.Spec.cwScaled CW SM k ch)
    (h3 : ∀ k : Fin 64, (V c main_call0_v8 : Vec Ideal S64x1 .f32) (ix2 k 0) = Cert.Spec.smCwNorm CW SM k)
    (h4 : ∀ k : Fin 64, (V c main_call0_v0 : Vec Ideal S64x1 .f32) (ix2 k 0) = SM k)
    (t : Fin cfg0.N) (k : Fin 64) (ch : Fin 128) :
    outsAt0 (F := Ideal) V c t (ix3 0 k ch) = Cert.Spec.eK (xOf (V c main_arg0)) CW SM (batchOf t) k ch := by
  unfold outsAt0
  rw [hA]
  refine hB _ _ _ _ _ (xOf (V c main_arg0)) CW SM (batchOf t) (fun ch' s => ?_) (fun k' ch' => ?_) (fun k' ch' => ?_) (fun k' => ?_) (fun k' => ?_) k ch
  · exact xblk_apply V c t _ _ rfl rfl rfl rfl
  · exact (cwblk_apply V c t _).trans (h1 k' ch')
  · exact (scblk_apply V c t _).trans (h2 k' ch')
  · exact (nblk_apply V c t _).trans (h3 k')
  · exact (smblk_apply V c t _).trans (h4 k')

/-- What point `t` writes back is block `t` of the whole array. -/
theorem flushed_eq_of (hA : OutIsEncBlock) (hB : EncBlockReads) (c : Dev nD) (CW : Cert.Spec.CwArr) (SM : Cert.Spec.SmArr)
    (h1 : ∀ (k : Fin 64) (ch : Fin 128), (V c main_arg1 : Vec Ideal S64x128 .f32) (ix2 k ch) = CW k ch)
    (h2 : ∀ (k : Fin 64) (ch : Fin 128), (V c main_call0_v7 : Vec Ideal S64x128 .f32) (ix2 k ch) = Cert.Spec.cwScaled CW SM k ch)
    (h3 : ∀ k : Fin 64, (V c main_call0_v8 : Vec Ideal S64x1 .f32) (ix2 k 0) = Cert.Spec.smCwNorm CW SM k)
    (h4 : ∀ k : Fin 64, (V c main_call0_v0 : Vec Ideal S64x1 .f32) (ix2 k 0) = SM k)
    (t : Fin cfg0.N) :
    (dat0 (F := Ideal) V c).flushed 5 t = ((cfg0.win 5).blk t).view.read (Elt Ideal) (eArr (V c main_arg0) CW SM) := by
  show (cfg0.win 5).cut (grid0.coords t) ((dat0 V c).after 5 t) = _
  rw [after0_5]
  obtain ⟨-, -, -, -, -, -, -, -, -, -, -, -, d0, d1, d2⟩ := enc_index_facts t
  funext y
  obtain ⟨u, k, ch, rfl⟩ : ∃ (u : Fin 1) (k : Fin 64) (ch : Fin 128), y = ix3 u k ch := ⟨y 0, y 1, y 2, eq_ix3 y⟩
  obtain rfl : u = 0 := Fin.ext (by omega)
  refine (outs_apply_of V hA hB c CW SM h1 h2 h3 h4 t k ch).trans ?_
  show _ = eArr (V c main_arg0) CW SM (((cfg0.win 5).blk t).view.emb (ix3 0 k ch))
  have e0 : ((((cfg0.win 5).blk t).view.emb (ix3 (0 : Fin 1) k ch)) 0).val = t.val := by
    show win0_5.index t (0 : Fin 3) * 1 + 1 * 0 = t.val; omega
  have e1 : ((((cfg0.win 5).blk t).view.emb (ix3 (0 : Fin 1) k ch)) 1).val = k.val := by
    show win0_5.index t (1 : Fin 3) * 64 + 1 * k.val = k.val; omega
  have e2 : ((((cfg0.win 5).blk t).view.emb (ix3 (0 : Fin 1) k ch)) 2).val = ch.val := by
    show win0_5.index t (2 : Fin 3) * 128 + 1 * ch.val = ch.val; omega
  show Cert.Spec.eK (xOf (V c main_arg0)) CW SM (batchOf t) k ch = Cert.Spec.eK (xOf (V c main_arg0)) CW SM _ _ _
  congr 1
  · exact Fin.ext e0.symm
  · exact Fin.ext e1.symm
  · exact Fin.ext e2.symm

/-- An index of the array is in point `t`'s block iff each coordinate is in the block's range on its axis. -/
theorem enc_mem_blk (t : Fin cfg0.N) (i : S16x64x128.Idx) :
    i ∈ ((cfg0.win 5).blk t).view.set ↔ ∀ a : Fin 3, win0_5.index t a * S1x64x128.size a ≤ (i a).val
      ∧ (i a).val < win0_5.index t a * S1x64x128.size a + S1x64x128.size a := by
  show i ∈ ((View.whole main_call0_v9).slice (win0_5.rect t)).set ↔ _
  rw [View.set_slice_whole, Rect.mem_set_unit]
  exact Iff.rfl

/-- Every index lies in the block of the point numbered by its batch. -/
theorem enc_cover (i : S16x64x128.Idx) :
    ∃ t : Fin cfg0.N, (cfg0.win 5).flush t = true ∧ i ∈ ((cfg0.win 5).blk t).view.set := by
  have hN : grid0.N = 16 := N_0
  have hi0 : (i 0).val < 16 := (i 0).isLt
  have hi1 : (i 1).val < 64 := (i 1).isLt
  have hi2 : (i 2).val < 128 := (i 2).isLt
  obtain ⟨t, ht⟩ : ∃ t : Fin cfg0.N, t.val = (i 0).val := ⟨⟨(i 0).val, by show (i 0).val < grid0.N; omega⟩, rfl⟩
  obtain ⟨-, -, -, -, -, -, -, -, -, -, -, -, d0, d1, d2⟩ := enc_index_facts t
  refine ⟨t, flush0_5 t, ?_⟩
  rw [enc_mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 64 ≤ (i 1).val ∧ (i 1).val < win0_5.index t (1 : Fin 3) * 64 + 64; omega
  | ⟨2, _⟩ => show win0_5.index t (2 : Fin 3) * 128 ≤ (i 2).val ∧ (i 2).val < win0_5.index t (2 : Fin 3) * 128 + 128; omega

/-- The first call's result array after its region: the kernel's form of the residual sums, at every index. -/
theorem e_value_of (hA : OutIsEncBlock) (hB : EncBlockReads) (c : Dev nD) (CW : Cert.Spec.CwArr) (SM : Cert.Spec.SmArr)
    (h1 : ∀ (k : Fin 64) (ch : Fin 128), (V c main_arg1 : Vec Ideal S64x128 .f32) (ix2 k ch) = CW k ch)
    (h2 : ∀ (k : Fin 64) (ch : Fin 128), (V c main_call0_v7 : Vec Ideal S64x128 .f32) (ix2 k ch) = Cert.Spec.cwScaled CW SM k ch)
    (h3 : ∀ k : Fin 64, (V c main_call0_v8 : Vec Ideal S64x1 .f32) (ix2 k 0) = Cert.Spec.smCwNorm CW SM k)
    (h4 : ∀ k : Fin 64, (V c main_call0_v0 : Vec Ideal S64x1 .f32) (ix2 k 0) = SM k) :
    (dat0 (F := Ideal) V c).arrAt 5 cfg0.N
      = eArr (V c main_arg0) CW SM :=
  (dat0 V c).arrAt_eq_of_cover 5 (eArr (V c main_arg0) CW SM) (fun t _ => flushed_eq_of V hA hB c CW SM h1 h2 h3 h4 t) enc_cover

end

/-- The body's output block is `encBlock` of its input blocks. -/
theorem out_is_encBlock : OutIsEncBlock :=
  fun c i a1 b1 a2 b2 a3 b3 a4 b4 a5 b5 a6 b6 a7 b7 a8 b8 x0 x1 x2 x3 x4 =>
    out_eq c i a1 b1 a2 b2 a3 b3 a4 b4 a5 b5 a6 b6 a7 b7 a8 b8 x0 x1 x2 x3 x4

end Cert.KernelIdeal.EncValue

end
-- ==== Proof.EncOps.lean ====
/-
  The first kernel's operations read at an index on the extended reals: the chunk of the block of `x`, the identity
  shape casts, the column and row broadcasts, the four reductions and the two matrix products, each at explicit
  coordinates.
-/
import proofs.«404385_j35433480192595_3_alg».proof.Proof.EncBlock
import proofs.«404385_j35433480192595_3_alg».proof.Proof.Spec
import proofs.«404385_j35433480192595_3_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.EncValue

open Idealize.ShloMosaic Idealize.ShloMosaic.ValueIdx Idealize.SL.Sem Cert.KernelIdeal Cert.KernelIdeal.Gen

/-- Chunk `n` at channel `c`, lane `q` is the block at position `2048·n + q`. -/
theorem chunk_apply (x0 : Vec Ideal S1x128x1x16384 .f32) (n : ℕ) (h : n < k0_t1_loop.trips) (h8 : n < 8)
    (c : Fin 128) (q : Fin 2048) :
    chunk x0 ⟨n, h⟩ (ix4 (0 : Fin 1) c (0 : Fin 1) q) = x0 (ix4 (0 : Fin 1) c (0 : Fin 1) (Cert.Spec.pos ⟨n, h8⟩ q)) := by
  unfold chunk
  show x0 _ = x0 _
  congr 1
  funext a
  apply Fin.ext
  have e := k0_off1_eq ⟨n, h⟩
  match a with
  | ⟨0, _⟩ => show k0_off1 ⟨n, h⟩ 0 + 1 * 0 = 0; rw [e]; rfl
  | ⟨1, _⟩ => show k0_off1 ⟨n, h⟩ 1 + 1 * c.val = c.val; rw [e]; show 0 + 1 * c.val = c.val; omega
  | ⟨2, _⟩ => show k0_off1 ⟨n, h⟩ 2 + 1 * 0 = 0; rw [e]; rfl
  | ⟨3, _⟩ => show k0_off1 ⟨n, h⟩ 3 + 1 * q.val = n * 2048 + q.val; rw [e]; show 2048 * n + 1 * q.val = n * 2048 + q.val; omega

/-! ## Pointwise and layout operations at an index -/

theorem exp_apply {s : Shape} {φ : FTy} (a : FVec Ideal s φ) (i : s.Idx) : exp a i = Ideal.exp (a i) := rfl

/-- A column `[a, 1]` broadcast to `[a, b]` reads, at `(i, j)`, the column at `(i, 0)`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `[a]` cast to the column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The `[1, 128, 1, 2048]` block viewed `[128, 2048]`. -/
theorem pay8_apply (v30 : Vec Ideal S1x128x1x2048 .f32) (c : Fin 128) (q : Fin 2048) :
    k0_pay8 v30 (ix2 c q) = v30 (ix4 (0 : Fin 1) c (0 : Fin 1) q) := by
  unfold k0_pay8
  exact shapeCast_apply v30 _ _ _ (by
    rw [Shape.rowMajor_val_four, Shape.rowMajor_val_two]
    show ((0 * 128 + c.val) * 1 + 0) * 2048 + q.val = c.val * 2048 + q.val
    omega)

theorem pay9_apply (v30 : Vec Ideal S1x128x1x2048 .f32) (c : Fin 128) (q : Fin 2048) :
    k0_pay9 v30 (ix2 c q) = v30 (ix4 (0 : Fin 1) c (0 : Fin 1) q) := by
  exact pay8_apply v30 c q

theorem pay3_apply (v8 : Vec Ideal S64x128 .f32) (i : S64x128.Idx) : k0_pay3 v8 i = v8 i := by
  unfold k0_pay3
  show shapeCast S64x128 v8 shapeCasts_S64x128_S64x128 i = v8 i
  rw [shapeCast_self]

theorem pay4_eq (v : Vec Ideal S64x1 .f32) : k0_pay4 v = v := by
  unfold k0_pay4
  exact shapeCast_self v _

theorem pay5_eq (v : Vec Ideal S64x1 .f32) : k0_pay5 v = v := by
  unfold k0_pay5
  exact shapeCast_self v _

theorem pay6_eq (v : FVec Ideal S64x128 .f32) : k0_pay6 v = v := by
  unfold k0_pay6
  exact shapeCast_self v _

/-! ## The reductions at an index -/

/-- The sum over the 128 channels of a `[128, 2048]` array, at lane `q`. -/
theorem sum_ch_apply (W : FVec Ideal S128x2048 .f32) (q : Fin 2048) :
    multiReduction (F := Ideal) .add [0] S2048 W 0x00000000#32 reduces_S128x2048_S2048 (.inl rfl) rfl (ix1 q)
      = ∑ c : Fin 128, W (ix2 c q) := by
  refine (Ideal.multiReduction_add_single W 0x00000000#32 reduces_S128x2048_S2048 (.inl rfl) rfl (ix1 q)).trans ?_
  refine Finset.sum_congr rfl fun c _ => congrArg W ?_
  funext a; apply Fin.ext
  match a with
  | ⟨0, _⟩ => rfl
  | ⟨1, _⟩ => rfl

/-- The sum over the 64 codewords of a `[64, 2048]` array, at lane `q`. -/
theorem sum_cw_apply (Z : FVec Ideal S64x2048 .f32) (q : Fin 2048) :
    multiReduction (F := Ideal) .add [0] S2048 Z 0x00000000#32 reduces_S64x2048_S2048 (.inl rfl) rfl (ix1 q)
      = ∑ k : Fin 64, Z (ix2 k q) := by
  refine (Ideal.multiReduction_add_single Z 0x00000000#32 reduces_S64x2048_S2048 (.inl rfl) rfl (ix1 q)).trans ?_
  refine Finset.sum_congr rfl fun c _ => congrArg Z ?_
  funext a; apply Fin.ext
  match a with
  | ⟨0, _⟩ => rfl
  | ⟨1, _⟩ => rfl

/-- The maximum over the 64 codewords of a `[64, 2048]` array, at lane `q`: the fold of `max` from the starting literal. -/
theorem max_cw_apply (Z : FVec Ideal S64x2048 .f32) (q : Fin 2048) :
    multiReduction (F := Ideal) .maximumf [0] S2048 Z 0xFF800000#32 reduces_S64x2048_S2048 (.inl rfl) rfl (ix1 q)
      = Cert.Spec.foldMax fun k => Z (ix2 k q) := by
  refine (Ideal.multiReduction_maximumf_single Z 0xFF800000#32 reduces_S64x2048_S2048 (.inl rfl) rfl (ix1 q)).trans ?_
  unfold Cert.Spec.foldMax Cert.Spec.negInf
  refine congrArg (Finset.fold max (Ideal.ofBits .f32 0xFF800000#32) · (Finset.univ : Finset (Fin 64))) ?_
  funext k
  refine congrArg Z ?_
  funext a; apply Fin.ext
  match a with
  | ⟨0, _⟩ => rfl
  | ⟨1, _⟩ => rfl

/-- The sum over the 2048 lanes of a `[64, 2048]` array, at codeword `k`. -/
theorem sum_lane_apply (Z : FVec Ideal S64x2048 .f32) (k : Fin 64) :
    multiReduction (F := Ideal) .add [1] S64 Z 0x00000000#32 reduces_S64x2048_S64 (.inl rfl) rfl (ix1 k)
      = ∑ q : Fin 2048, Z (ix2 k q) := by
  refine (Ideal.multiReduction_add_single Z 0x00000000#32 reduces_S64x2048_S64 (.inl rfl) rfl (ix1 k)).trans ?_
  refine Finset.sum_congr rfl fun c _ => congrArg Z ?_
  funext a; apply Fin.ext
  match a with
  | ⟨0, _⟩ => rfl
  | ⟨1, _⟩ => rfl

/-! ## The two matrix products at an index -/

theorem lhs_d1_0 (j : S64x2048.Idx) (kk : dot_S64x128_S128x2048_S64x2048_1_0_0_1_n_n.contr.Idx) :
    (dot_S64x128_S128x2048_S64x2048_1_0_0_1_n_n.lhsIdx j kk (0 : Fin 2)).val = (j (0 : Fin 2)).val := by
  unfold DotDims.lhsIdx
  rw [dif_neg (show ¬(0 : Fin S64x128.rank) ∈ dot_S64x128_S128x2048_S64x2048_1_0_0_1_n_n.lhsBatch by decide),
    dif_pos (show (0 : Fin S64x128.rank) ∈ dot_S64x128_S128x2048_S64x2048_1_0_0_1_n_n.lhsNonContracting by decide)]
  rfl

theorem lhs_d1_1 (j : S64x2048.Idx) (kk : dot_S64x128_S128x2048_S64x2048_1_0_0_1_n_n.contr.Idx) :
    (dot_S64x128_S128x2048_S64x2048_1_0_0_1_n_n.lhsIdx j kk (1 : Fin 2)).val = (kk ⟨0, by decide⟩).val :=
  dot_S64x128_S128x2048_S64x2048_1_0_0_1_n_n.lhsIdx_val_of_single rfl j kk

theorem rhs_d1_0 (j : S64x2048.Idx) (kk : dot_S64x128_S128x2048_S64x2048_1_0_0_1_n_n.contr.Idx) :
    (dot_S64x128_S128x2048_S64x2048_1_0_0_1_n_n.rhsIdx j kk (0 : Fin 2)).val = (kk ⟨0, by decide⟩).val :=
  dot_S64x128_S128x2048_S64x2048_1_0_0_1_n_n.rhsIdx_val_of_single rfl j kk

theorem rhs_d1_1 (j : S64x2048.Idx) (kk : dot_S64x128_S128x2048_S64x2048_1_0_0_1_n_n.contr.Idx) :
    (dot_S64x128_S128x2048_S64x2048_1_0_0_1_n_n.rhsIdx j kk (1 : Fin 2)).val = (j (1 : Fin 2)).val := by
  unfold DotDims.rhsIdx
  rw [dif_neg (show ¬(1 : Fin S128x2048.rank) ∈ dot_S64x128_S128x2048_S64x2048_1_0_0_1_n_n.rhsBatch by decide),
    dif_pos (show (1 : Fin S128x2048.rank) ∈ dot_S64x128_S128x2048_S64x2048_1_0_0_1_n_n.rhsNonContracting by decide)]
  rfl

/-- The first product, `[64,128] × [128,2048]` into zero: the sum over the 128 channels. -/
theorem matmul1_apply (A : FVec Ideal S64x128 .bf16) (B : FVec Ideal S128x2048 .bf16) (k : Fin 64) (q : Fin 2048) :
    matmul dot_S64x128_S128x2048_S64x2048_1_0_0_1_n_n none A B (constant (F := Ideal) S64x2048 .f32 0x00000000#32) (ix2 k q)
      = ∑ c : Fin 128, A (ix2 k c) * B (ix2 c q) := by
  show FloatOps.matmul dot_S64x128_S128x2048_S64x2048_1_0_0_1_n_n none A B (constant S64x2048 .f32 0x00000000#32) (ix2 k q) = _
  rw [Ideal.matmul_constant_zero_apply,
    ← Equiv.sum_comp (contrEquiv1 dot_S64x128_S128x2048_S64x2048_1_0_0_1_n_n 128 rfl rfl).symm]
  refine Finset.sum_congr rfl fun c _ => ?_
  have c2 := contrEquiv1_symm_val dot_S64x128_S128x2048_S64x2048_1_0_0_1_n_n 128 rfl rfl c
  have l : dot_S64x128_S128x2048_S64x2048_1_0_0_1_n_n.lhsIdx (ix2 k q)
      ((contrEquiv1 dot_S64x128_S128x2048_S64x2048_1_0_0_1_n_n 128 rfl rfl).symm c) = ix2 k c := by
    funext ax; apply Fin.ext
    match ax with
    | ⟨0, _⟩ => exact lhs_d1_0 _ _
    | ⟨1, _⟩ => exact (lhs_d1_1 _ _).trans c2
  have r : dot_S64x128_S128x2048_S64x2048_1_0_0_1_n_n.rhsIdx (ix2 k q)
      ((contrEquiv1 dot_S64x128_S128x2048_S64x2048_1_0_0_1_n_n 128 rfl rfl).symm c) = ix2 c q := by
    funext ax; apply Fin.ext
    match ax with
    | ⟨0, _⟩ => exact (rhs_d1_0 _ _).trans c2
    | ⟨1, _⟩ => exact rhs_d1_1 _ _
  rw [l, r]

theorem lhs_d2_0 (j : S64x128.Idx) (kk : dot_S64x2048_S128x2048_S64x128_1_1_0_0_n_n.contr.Idx) :
    (dot_S64x2048_S128x2048_S64x128_1_1_0_0_n_n.lhsIdx j kk (0 : Fin 2)).val = (j (0 : Fin 2)).val := by
  unfold DotDims.lhsIdx
  rw [dif_neg (show ¬(0 : Fin S64x2048.rank) ∈ dot_S64x2048_S128x2048_S64x128_1_1_0_0_n_n.lhsBatch by decide),
    dif_pos (show (0 : Fin S64x2048.rank) ∈ dot_S64x2048_S128x2048_S64x128_1_1_0_0_n_n.lhsNonContracting by decide)]
  rfl

theorem lhs_d2_1 (j : S64x128.Idx) (kk : dot_S64x2048_S128x2048_S64x128_1_1_0_0_n_n.contr.Idx) :
    (dot_S64x2048_S128x2048_S64x128_1_1_0_0_n_n.lhsIdx j kk (1 : Fin 2)).val = (kk ⟨0, by decide⟩).val :=
  dot_S64x2048_S128x2048_S64x128_1_1_0_0_n_n.lhsIdx_val_of_single rfl j kk

theorem rhs_d2_0 (j : S64x128.Idx) (kk : dot_S64x2048_S128x2048_S64x128_1_1_0_0_n_n.contr.Idx) :
    (dot_S64x2048_S128x2048_S64x128_1_1_0_0_n_n.rhsIdx j kk (0 : Fin 2)).val = (j (1 : Fin 2)).val := by
  unfold DotDims.rhsIdx
  rw [dif_neg (show ¬(0 : Fin S128x2048.rank) ∈ dot_S64x2048_S128x2048_S64x128_1_1_0_0_n_n.rhsBatch by decide),
    dif_pos (show (0 : Fin S128x2048.rank) ∈ dot_S64x2048_S128x2048_S64x128_1_1_0_0_n_n.rhsNonContracting by decide)]
  rfl

theorem rhs_d2_1 (j : S64x128.Idx) (kk : dot_S64x2048_S128x2048_S64x128_1_1_0_0_n_n.contr.Idx) :
    (dot_S64x2048_S128x2048_S64x128_1_1_0_0_n_n.rhsIdx j kk (1 : Fin 2)).val = (kk ⟨0, by decide⟩).val :=
  dot_S64x2048_S128x2048_S64x128_1_1_0_0_n_n.rhsIdx_val_of_single rfl j kk

/-- The second product, `[64,2048] × [128,2048]` over both lane axes, into zero: the sum over the 2048 lanes. -/
theorem matmul2_apply (A : FVec Ideal S64x2048 .bf16) (B : FVec Ideal S128x2048 .bf16) (k : Fin 64) (c : Fin 128) :
    matmul dot_S64x2048_S128x2048_S64x128_1_1_0_0_n_n none A B (constant (F := Ideal) S64x128 .f32 0x00000000#32) (ix2 k c)
      = ∑ q : Fin 2048, A (ix2 k q) * B (ix2 c q) := by
  show FloatOps.matmul dot_S64x2048_S128x2048_S64x128_1_1_0_0_n_n none A B (constant S64x128 .f32 0x00000000#32) (ix2 k c) = _
  rw [Ideal.matmul_constant_zero_apply,
    ← Equiv.sum_comp (contrEquiv1 dot_S64x2048_S128x2048_S64x128_1_1_0_0_n_n 2048 rfl rfl).symm]
  refine Finset.sum_congr rfl fun q _ => ?_
  have c2 := contrEquiv1_symm_val dot_S64x2048_S128x2048_S64x128_1_1_0_0_n_n 2048 rfl rfl q
  have l : dot_S64x2048_S128x2048_S64x128_1_1_0_0_n_n.lhsIdx (ix2 k c)
      ((contrEquiv1 dot_S64x2048_S128x2048_S64x128_1_1_0_0_n_n 2048 rfl rfl).symm q) = ix2 k q := by
    funext ax; apply Fin.ext
    match ax with
    | ⟨0, _⟩ => exact lhs_d2_0 _ _
    | ⟨1, _⟩ => exact (lhs_d2_1 _ _).trans c2
  have r : dot_S64x2048_S128x2048_S64x128_1_1_0_0_n_n.rhsIdx (ix2 k c)
      ((contrEquiv1 dot_S64x2048_S128x2048_S64x128_1_1_0_0_n_n 2048 rfl rfl).symm q) = ix2 c q := by
    funext ax; apply Fin.ext
    match ax with
    | ⟨0, _⟩ => exact rhs_d2_0 _ _
    | ⟨1, _⟩ => exact (rhs_d2_1 _ _).trans c2
  rw [l, r]

end Cert.KernelIdeal.EncValue

end
-- ==== Proof.EncRead.lean ====
/-
  The first kernel's arithmetic read at an index on the extended reals: one chunk's soft assignments are the softmax of
  the kernel's logit, the two accumulators after `n` chunks are the specification's partial sums, and the output block
  at codeword `k`, channel `c` is `Spec.eK` at the block's batch row.
-/
import proofs.«404385_j35433480192595_3_alg».proof.Proof.EncOps

noncomputable section

namespace Cert.KernelIdeal.EncValue

open Idealize.ShloMosaic Idealize.ShloMosaic.ValueIdx Idealize.SL.Sem Cert.KernelIdeal Cert.KernelIdeal.Gen

/-! ## One chunk's assignments and partial sums -/

/-- The logit of codeword `k` at one position, from the position's channel values `Y`, the scaled codewords `A`, the
    smoothed codeword norms `N` and the smoothing factors `M`. -/
def lg (Y : Fin 128 → EReal) (A : Fin 64 → Fin 128 → EReal) (N M : Fin 64 → EReal) (k : Fin 64) : EReal :=
  (M k * ∑ c : Fin 128, Y c * Y c + ∑ c : Fin 128, A k c * Y c) + N k

/-- The softmax over the 64 codewords: the maximum subtracted, the exponentials normalised by their sum. -/
def sm (z : Fin 64 → EReal) (k : Fin 64) : EReal :=
  Ideal.div (Ideal.exp (z k - Cert.Spec.foldMax z)) (∑ k' : Fin 64, Ideal.exp (z k' - Cert.Spec.foldMax z))

/-- The chunk's logits as an array: the smoothing column times the squared norms, plus the first product, plus the
    smoothed codeword norms. -/
def zArr (v10 : FVec Ideal S64x128 .bf16) (v12 v14 : FVec Ideal S64x1 .f32) (v30 : Vec Ideal S1x128x1x2048 .f32) :
    FVec Ideal S64x2048 .f32 :=
  addf (addf (mulf (broadcastTo S64x2048 v14 broadcasts_S64x1_S64x2048)
      (broadcastTo S64x2048 (shapeCast S1x2048 (multiReduction .add [0] S2048 (mulf (k0_pay8 v30) (k0_pay8 v30)) 0x00000000#32
        reduces_S128x2048_S2048 (.inl rfl) rfl) shapeCasts_S2048_S1x2048) broadcasts_S1x2048_S64x2048))
      (matmul dot_S64x128_S128x2048_S64x2048_1_0_0_1_n_n none v10 (k0_pay9 v30) (constant S64x2048 .f32 0x00000000#32)))
    (broadcastTo S64x2048 v12 broadcasts_S64x1_S64x2048)

/-- The softmax down the codeword axis of a `[64, 2048]` array, as the kernel's operations. -/
def softArr (Z : FVec Ideal S64x2048 .f32) : FVec Ideal S64x2048 .f32 :=
  divf
    (exp (subf Z (broadcastTo S64x2048 (shapeCast S1x2048 (multiReduction .maximumf [0] S2048 Z 0xFF800000#32
      reduces_S64x2048_S2048 (.inl rfl) rfl) shapeCasts_S2048_S1x2048) broadcasts_S1x2048_S64x2048)))
    (broadcastTo S64x2048 (shapeCast S1x2048 (multiReduction .add [0] S2048
      (exp (subf Z (broadcastTo S64x2048 (shapeCast S1x2048 (multiReduction .maximumf [0] S2048 Z 0xFF800000#32
        reduces_S64x2048_S2048 (.inl rfl) rfl) shapeCasts_S2048_S1x2048) broadcasts_S1x2048_S64x2048)))
      0x00000000#32 reduces_S64x2048_S2048 (.inl rfl) rfl) shapeCasts_S2048_S1x2048) broadcasts_S1x2048_S64x2048)

theorem pay10_eq (v10 : FVec Ideal S64x128 .bf16) (v12 v14 : FVec Ideal S64x1 .f32) (v30 : Vec Ideal S1x128x1x2048 .f32) :
    k0_pay10 v10 v12 v14 v30 = softArr (zArr v10 v12 v14 v30) := rfl

theorem zArr_apply (v10 : FVec Ideal S64x128 .bf16) (v12 v14 : FVec Ideal S64x1 .f32) (v30 : Vec Ideal S1x128x1x2048 .f32)
    (Y : Fin 128 → Fin 2048 → EReal) (A : Fin 64 → Fin 128 → EReal) (N M : Fin 64 → EReal)
    (hY : ∀ c q, v30 (ix4 (0 : Fin 1) c (0 : Fin 1) q) = Y c q) (hA : ∀ k c, v10 (ix2 k c) = A k c)
    (hN : ∀ k, v12 (ix2 k (0 : Fin 1)) = N k) (hM : ∀ k, v14 (ix2 k (0 : Fin 1)) = M k) (k : Fin 64) (q : Fin 2048) :
    zArr v10 v12 v14 v30 (ix2 k q) = lg (fun c => Y c q) A N M k := by
  unfold zArr
  simp only [addf_apply, mulf_apply, broadcastTo_a1_ab_apply, broadcastTo_1b_ab_apply, shapeCast_a_1a_apply, matmul1_apply,
    pay9_apply, hY, hA, hN, hM]
  rw [sum_ch_apply]
  simp only [mulf_apply, pay8_apply, hY]
  rfl

theorem softArr_apply (Z : FVec Ideal S64x2048 .f32) (k : Fin 64) (q : Fin 2048) :
    softArr Z (ix2 k q) = sm (fun k' => Z (ix2 k' q)) k := by
  unfold softArr
  simp only [divf_apply, exp_apply, subf_apply, broadcastTo_1b_ab_apply, shapeCast_a_1a_apply]
  rw [sum_cw_apply]
  simp only [exp_apply, subf_apply, broadcastTo_1b_ab_apply, shapeCast_a_1a_apply]
  rw [max_cw_apply]
  rfl

/-- The chunk's soft assignments at codeword `k`, lane `q`. -/
theorem pay10_apply (v10 : FVec Ideal S64x128 .bf16) (v12 v14 : FVec Ideal S64x1 .f32) (v30 : Vec Ideal S1x128x1x2048 .f32)
    (Y : Fin 128 → Fin 2048 → EReal) (A : Fin 64 → Fin 128 → EReal) (N M : Fin 64 → EReal)
    (hY : ∀ c q, v30 (ix4 (0 : Fin 1) c (0 : Fin 1) q) = Y c q) (hA : ∀ k c, v10 (ix2 k c) = A k c)
    (hN : ∀ k, v12 (ix2 k (0 : Fin 1)) = N k) (hM : ∀ k, v14 (ix2 k (0 : Fin 1)) = M k) (k : Fin 64) (q : Fin 2048) :
    k0_pay10 v10 v12 v14 v30 (ix2 k q) = sm (lg (fun c => Y c q) A N M) k := by
  rw [pay10_eq, softArr_apply]
  exact congrArg (sm · k) (funext fun k' => zArr_apply v10 v12 v14 v30 Y A N M hY hA hN hM k' q)

/-- The mass accumulator after one chunk: the old column plus the chunk's assignments summed over its lanes. -/
theorem pay11_apply (v10 : FVec Ideal S64x128 .bf16) (v12 v14 : FVec Ideal S64x1 .f32) (v30 : Vec Ideal S1x128x1x2048 .f32)
    (v56 : Vec Ideal S64x1 .f32)
    (Y : Fin 128 → Fin 2048 → EReal) (A : Fin 64 → Fin 128 → EReal) (N M : Fin 64 → EReal)
    (hY : ∀ c q, v30 (ix4 (0 : Fin 1) c (0 : Fin 1) q) = Y c q) (hA : ∀ k c, v10 (ix2 k c) = A k c)
    (hN : ∀ k, v12 (ix2 k (0 : Fin 1)) = N k) (hM : ∀ k, v14 (ix2 k (0 : Fin 1)) = M k) (k : Fin 64) (u : Fin 1) :
    k0_pay11 v10 v12 v14 v30 v56 (ix2 k u)
      = v56 (ix2 k u) + ∑ q : Fin 2048, sm (lg (fun c => Y c q) A N M) k := by
  unfold k0_pay11
  rw [shapeCast_self]
  simp only [addf_apply, shapeCast_a_a1_apply]
  rw [sum_lane_apply]
  simp only [pay10_apply v10 v12 v14 v30 Y A N M hY hA hN hM]

/-- The weighted-sum accumulator after one chunk: the old array plus the second product. -/
theorem pay12_apply (v10 : FVec Ideal S64x128 .bf16) (v12 v14 : FVec Ideal S64x1 .f32) (v30 : Vec Ideal S1x128x1x2048 .f32)
    (v61 : Vec Ideal S64x128 .f32)
    (Y : Fin 128 → Fin 2048 → EReal) (A : Fin 64 → Fin 128 → EReal) (N M : Fin 64 → EReal)
    (hY : ∀ c q, v30 (ix4 (0 : Fin 1) c (0 : Fin 1) q) = Y c q) (hA : ∀ k c, v10 (ix2 k c) = A k c)
    (hN : ∀ k, v12 (ix2 k (0 : Fin 1)) = N k) (hM : ∀ k, v14 (ix2 k (0 : Fin 1)) = M k) (k : Fin 64) (c : Fin 128) :
    k0_pay12 v10 v12 v14 v30 v61 (ix2 k c)
      = v61 (ix2 k c) + ∑ q : Fin 2048, sm (lg (fun c' => Y c' q) A N M) k * Y c q := by
  unfold k0_pay12
  simp only [addf_apply, matmul2_apply, truncf_apply, pay9_apply, hY,
    pay10_apply v10 v12 v14 v30 Y A N M hY hA hN hM]

/-- The stored block: the weighted sums minus the mass times the codewords. -/
theorem pay7_apply (v16 : Vec Ideal S64x128 .f32) (v17 : Vec Ideal S64x1 .f32) (v18 : Vec Ideal S64x128 .f32)
    (u : Fin 1) (k : Fin 64) (c : Fin 128) :
    k0_pay7 v16 v17 v18 (ix3 u k c) = v16 (ix2 k c) - v17 (ix2 k (0 : Fin 1)) * v18 (ix2 k c) := by
  unfold k0_pay7
  simp only [shapeCast_ab_1ab_apply, subf_apply, mulf_apply, broadcastTo_a1_ab_apply]

/-! ## The accumulators and the output block -/

/-- The kernel's softmax of the kernel's logit, over the input arrays' coordinates, is the specification's assignment. -/
theorem sm_lg_eq (X : Cert.Spec.XArr) (CW : Cert.Spec.CwArr) (SM : Cert.Spec.SmArr) (b : Fin 16) (s : Fin 16384) (k : Fin 64) :
    sm (lg (fun c => X b c s) (Cert.Spec.cwScaled CW SM) (Cert.Spec.smCwNorm CW SM) SM) k
      = Cert.Spec.assignK (Cert.Spec.logitK X CW SM) b s k := rfl

/-- One trip of the loop. -/
theorem accs_succ (x0 : Vec Ideal S1x128x1x16384 .f32) (x2 : Vec Ideal S64x128 .f32) (x3 x4 : Vec Ideal S64x1 .f32)
    (n : ℕ) (h : n < k0_t1_loop.trips) :
    accs x0 x2 x3 x4 (n + 1)
      = (k0_pay11 (k0_pay3 x2) (k0_pay4 x3) (k0_pay5 x4) (chunk x0 ⟨n, h⟩) (accs x0 x2 x3 x4 n).1,
         k0_pay6 (k0_pay12 (k0_pay3 x2) (k0_pay4 x3) (k0_pay5 x4) (chunk x0 ⟨n, h⟩) (accs x0 x2 x3 x4 n).2)) := by
  rw [accs, dif_pos h]

/-- The two accumulators after `n ≤ 8` chunks are the specification's partial sums. -/
theorem accs_apply (x0 : Vec Ideal S1x128x1x16384 .f32) (x2 : Vec Ideal S64x128 .f32) (x3 x4 : Vec Ideal S64x1 .f32)
    (X : Cert.Spec.XArr) (CW : Cert.Spec.CwArr) (SM : Cert.Spec.SmArr) (b : Fin 16)
    (h0 : ∀ (c : Fin 128) (s : Fin 16384), x0 (ix4 (0 : Fin 1) c (0 : Fin 1) s) = X b c s)
    (h2 : ∀ (k : Fin 64) (c : Fin 128), x2 (ix2 k c) = Cert.Spec.cwScaled CW SM k c)
    (h3 : ∀ k : Fin 64, x3 (ix2 k (0 : Fin 1)) = Cert.Spec.smCwNorm CW SM k)
    (h4 : ∀ k : Fin 64, x4 (ix2 k (0 : Fin 1)) = SM k) (n : ℕ) (hn : n ≤ 8) (k : Fin 64) :
    (accs x0 x2 x3 x4 n).1 (ix2 k (0 : Fin 1)) = Cert.Spec.accA (Cert.Spec.assignK (Cert.Spec.logitK X CW SM)) b k n
    ∧ ∀ c : Fin 128, (accs x0 x2 x3 x4 n).2 (ix2 k c)
        = Cert.Spec.accAX (Cert.Spec.assignK (Cert.Spec.logitK X CW SM)) X b k c n := by
  induction n with
  | zero =>
    refine ⟨?_, fun c => ?_⟩
    · show (k0_pay1 (F := Ideal)) (ix2 k (0 : Fin 1)) = 0
      unfold k0_pay1
      rw [shapeCast_self]
      exact Ideal.ofBits_zero_f32
    · show (k0_pay2 (F := Ideal)) (ix2 k c) = 0
      unfold k0_pay2
      rw [shapeCast_self]
      exact Ideal.ofBits_zero_f32
  | succ n ih =>
    have h8 : n < 8 := by omega
    have ht : n < k0_t1_loop.trips := by rw [trips_eq]; exact h8
    obtain ⟨ih1, ih2⟩ := ih (by omega)
    have hY : ∀ c q, chunk x0 ⟨n, ht⟩ (ix4 (0 : Fin 1) c (0 : Fin 1) q) = X b c (Cert.Spec.pos ⟨n, h8⟩ q) := fun c q => by
      rw [chunk_apply x0 n ht h8, h0]
    have hA : ∀ k c, k0_pay3 x2 (ix2 k c) = Cert.Spec.cwScaled CW SM k c := fun k c => by rw [pay3_apply, h2]
    have hN : ∀ k, k0_pay4 x3 (ix2 k (0 : Fin 1)) = Cert.Spec.smCwNorm CW SM k := fun k => by rw [pay4_eq, h3]
    have hM : ∀ k, k0_pay5 x4 (ix2 k (0 : Fin 1)) = SM k := fun k => by rw [pay5_eq, h4]
    rw [accs_succ x0 x2 x3 x4 n ht]
    refine ⟨?_, fun c => ?_⟩
    · show k0_pay11 (k0_pay3 x2) (k0_pay4 x3) (k0_pay5 x4) (chunk x0 ⟨n, ht⟩) (accs x0 x2 x3 x4 n).1 (ix2 k (0 : Fin 1)) = _
      rw [pay11_apply (k0_pay3 x2) (k0_pay4 x3) (k0_pay5 x4) (chunk x0 ⟨n, ht⟩) (accs x0 x2 x3 x4 n).1
        (fun c q => X b c (Cert.Spec.pos ⟨n, h8⟩ q)) (Cert.Spec.cwScaled CW SM) (Cert.Spec.smCwNorm CW SM) SM hY hA hN hM,
        ih1, Cert.Spec.accA, dif_pos h8]
      rfl
    · show k0_pay6 (k0_pay12 (k0_pay3 x2) (k0_pay4 x3) (k0_pay5 x4) (chunk x0 ⟨n, ht⟩) (accs x0 x2 x3 x4 n).2) (ix2 k c) = _
      rw [pay6_eq, pay12_apply (k0_pay3 x2) (k0_pay4 x3) (k0_pay5 x4) (chunk x0 ⟨n, ht⟩) (accs x0 x2 x3 x4 n).2
        (fun c q => X b c (Cert.Spec.pos ⟨n, h8⟩ q)) (Cert.Spec.cwScaled CW SM) (Cert.Spec.smCwNorm CW SM) SM hY hA hN hM,
        ih2, Cert.Spec.accAX, dif_pos h8]
      rfl

/-- The first kernel's output block at codeword `k`, channel `c` is the specification's `e` at the block's batch row. -/
theorem encBlock_apply (x0 : Vec Ideal S1x128x1x16384 .f32) (x1 x2 : Vec Ideal S64x128 .f32) (x3 x4 : Vec Ideal S64x1 .f32)
    (X : Cert.Spec.XArr) (CW : Cert.Spec.CwArr) (SM : Cert.Spec.SmArr) (b : Fin 16)
    (h0 : ∀ (c : Fin 128) (s : Fin 16384), x0 (ValueIdx.ix4 0 c 0 s) = X b c s)
    (h1 : ∀ (k : Fin 64) (c : Fin 128), x1 (ValueIdx.ix2 k c) = CW k c)
    (h2 : ∀ (k : Fin 64) (c : Fin 128), x2 (ValueIdx.ix2 k c) = Cert.Spec.cwScaled CW SM k c)
    (h3 : ∀ k : Fin 64, x3 (ValueIdx.ix2 k 0) = Cert.Spec.smCwNorm CW SM k)
    (h4 : ∀ k : Fin 64, x4 (ValueIdx.ix2 k 0) = SM k)
    (k : Fin 64) (c : Fin 128) :
    encBlock (F := Ideal) x0 x1 x2 x3 x4 (ValueIdx.ix3 0 k c) = Cert.Spec.eK X CW SM b k c := by
  have hA := accs_apply x0 x2 x3 x4 X CW SM b h0 h2 h3 h4 k0_t1_loop.trips (le_of_eq trips_eq) k
  unfold encBlock
  rw [pay7_apply, hA.1, hA.2 c, h1, trips_eq]
  rfl

end Cert.KernelIdeal.EncValue

end
-- ==== Proof.PrepRead.lean ====
/-
  The three small arrays the host prepares for the first kernel, read at an index on the extended reals: the smoothing
  factors as a column, the scaled codewords `(−2 · sm k) · cw k c`, and the smoothed codeword norms
  `sm k · (0 + ∑ c, cw k c · cw k c)`.
-/
import proofs.«404385_j35433480192595_3_alg».proof.Proof.KerTerms
import proofs.«404385_j35433480192595_3_alg».proof.Proof.Spec
import Idealize.ShloMosaic.Lib.IdealHost
import Idealize.ShloMosaic.Lib.Pipeline.Value
import Idealize.ShloMosaic.PureOps.Ideal.Laws

noncomputable section

namespace Cert.KernelIdeal.PrepRead

open Cert.KernelIdeal Cert.KernelIdeal.Gen Idealize.ShloMosaic Idealize.ShloMosaic.ValueIdx

/-- The reshape [64] → [64, 1] read at (k, 0): entry k. -/
theorem shapeCast_col_apply (sm : (⟨S64, .f32⟩ : BufTy).Contents (Elt Ideal)) (k : Fin 64) :
    shapeCast S64x1 sm shapeCasts_S64_S64x1 (ix2 k 0) = sm (ix1 k) :=
  shapeCast_apply sm shapeCasts_S64_S64x1 (ix2 k 0) (ix1 k) (by
    rw [Shape.rowMajor_val_one, Shape.rowMajor_val_two]
    show k.val = k.val * 1 + 0
    omega)

/-- The smoothing column at (k, 0) is `sm k`. -/
theorem smCol_apply (sm : (⟨S64, .f32⟩ : BufTy).Contents (Elt Ideal)) (k : Fin 64) :
    Terms.smCol (F := Ideal) sm (ix2 k 0) = sm (ix1 k) := by
  unfold Terms.smCol
  exact shapeCast_col_apply sm k

/-- The scaled codewords at (k, c): `(−2 · sm k) · cw k c`. -/
theorem cwScaled_apply (cw : (⟨S64x128, .f32⟩ : BufTy).Contents (Elt Ideal)) (sm : (⟨S64, .f32⟩ : BufTy).Contents (Elt Ideal))
    (k : Fin 64) (c : Fin 128) :
    Terms.cwScaled (F := Ideal) cw sm (ix2 k c)
      = Cert.Spec.cwScaled (fun k c => cw (ix2 k c)) (fun k => sm (ix1 k)) k c := by
  unfold Terms.cwScaled Cert.Spec.cwScaled Cert.Spec.negTwo
  rw [mulf_apply]
  rw [broadcastInDim_apply ![0, 1] bcast_S64x1_S64x128_0_1 _ (ix2 k c) (ix2 k 0)
    (fun a => match a with | ⟨0, _⟩ => rfl | ⟨1, _⟩ => rfl)]
  rw [mulf_apply, broadcastInDim_scalar_apply, constant_apply, shapeCast_col_apply]

/-- The smoothed codeword norm at (k, 0): `sm k · (0 + ∑ c, cw k c · cw k c)`. -/
theorem smCwNorm_apply (cw : (⟨S64x128, .f32⟩ : BufTy).Contents (Elt Ideal)) (sm : (⟨S64, .f32⟩ : BufTy).Contents (Elt Ideal))
    (k : Fin 64) :
    Terms.smCwNorm (F := Ideal) cw sm (ix2 k 0)
      = Cert.Spec.smCwNorm (fun k c => cw (ix2 k c)) (fun k => sm (ix1 k)) k := by
  have hR : S64x128.Reduces [1] S64 := by decide
  unfold Terms.smCwNorm Cert.Spec.smCwNorm Cert.Spec.cwNormR
  rw [mulf_apply, shapeCast_col_apply]
  rw [broadcastInDim_apply ![0] bcast_S64_S64x1_0 _ (ix2 k 0) (ix1 k)
    (fun a => match a with | ⟨0, _⟩ => rfl)]
  beta_reduce
  rw [hostReduceAdd_apply, Ideal.hostReduceAdd_single reducesTo_S64x128_S64_d1 hR, constant_apply, Ideal.ofBits_zero_f32]
  congr 2
  refine Finset.sum_congr rfl fun c _ => ?_
  rw [mulf_apply]
  have hi : hR.lift (ix1 k) c = ix2 k c := by
    funext a
    match a with
    | ⟨0, _⟩ => exact Fin.ext rfl
    | ⟨1, _⟩ => exact Fin.ext rfl
  rw [hi]
  rfl

end Cert.KernelIdeal.PrepRead

end
-- ==== Proof.RefTerms.lean ====
/-
  The reference's host program cut into the functions the proof speaks of: the residual sums `e` from the inputs,
  the batch-normalised tensor's two ingredients (the centred tensor; the variance plus epsilon), the chain from the
  normalised tensor to the per-(batch, channel) gate, and the gated output. Each is the program's own operations, in order.
-/
import proofs.«404385_j35433480192595_3_alg».proof.Proof.Gen.ReferenceIdeal

noncomputable section

namespace Cert.ReferenceIdeal.Terms

open Cert.ReferenceIdeal Cert.ReferenceIdeal.Gen Idealize.ShloMosaic

variable {F : FTy → Type} [FloatOps F]

/-- `e b k c`: the soft-assignment-weighted residual sums, as the reference computes them. -/
noncomputable def encode (x : (⟨S16x128x1x16384, .f32⟩ : BufTy).Contents (Elt F)) (cw : (⟨S64x128, .f32⟩ : BufTy).Contents (Elt F)) (sm : (⟨S64, .f32⟩ : BufTy).Contents (Elt F)) : (⟨S16x64x128, .f32⟩ : BufTy).Contents (Elt F) :=
  have v0 : (⟨S16x128x16384, .f32⟩ : BufTy).Contents (Elt F) := shapeCast S16x128x16384 x shapeCasts_S16x128x1x16384_S16x128x16384
  have v1 : (⟨S16x16384x128, .f32⟩ : BufTy).Contents (Elt F) := (transpose S16x16384x128 [0, 2, 1] · transposes_S16x128x16384_S16x16384x128_0_2_1) v0
  have v2 : (⟨S16x16384x128, .f32⟩ : BufTy).Contents (Elt F) := mulf v1 v1
  have cst : (⟨S_, .f32⟩ : BufTy).Contents (Elt F) := constant S_ .f32 0x00000000#32
  have v3 : (⟨S16x16384, .f32⟩ : BufTy).Contents (Elt F) := (fun x v => Host.reduceAdd x v reducesTo_S16x16384x128_S16x16384_d2 h_S_) v2 cst
  have v4 : (⟨S64x128, .f32⟩ : BufTy).Contents (Elt F) := mulf cw cw
  have cst_0 : (⟨S_, .f32⟩ : BufTy).Contents (Elt F) := constant S_ .f32 0x00000000#32
  have v5 : (⟨S64, .f32⟩ : BufTy).Contents (Elt F) := (fun x v => Host.reduceAdd x v reducesTo_S64x128_S64_d1 h_S_) v4 cst_0
  have v6 : (⟨S16x16384x64, .f32⟩ : BufTy).Contents (Elt F) := (fun l r => Host.dotGeneral dot_S16x16384x128_S64x128_S16x16384x64_2_1_01_0_n_n none l r) v1 cw
  have v7 : (⟨S16x16384x1, .f32⟩ : BufTy).Contents (Elt F) := (broadcastInDim S16x16384x1 ![0, 1] bcast_S16x16384_S16x16384x1_0_1) v3
  have cst_1 : (⟨S_, .f32⟩ : BufTy).Contents (Elt F) := constant S_ .f32 0x40000000#32
  have v8 : (⟨S16x16384x64, .f32⟩ : BufTy).Contents (Elt F) := (broadcastInDim S16x16384x64 ![] bcast_S_S16x16384x64) cst_1
  have v9 : (⟨S16x16384x64, .f32⟩ : BufTy).Contents (Elt F) := mulf v8 v6
  have v10 : (⟨S16x16384x64, .f32⟩ : BufTy).Contents (Elt F) := (broadcastInDim S16x16384x64 ![0, 1, 2] bcast_S16x16384x1_S16x16384x64_0_1_2) v7
  have v11 : (⟨S16x16384x64, .f32⟩ : BufTy).Contents (Elt F) := subf v10 v9
  have v12 : (⟨S1x1x64, .f32⟩ : BufTy).Contents (Elt F) := (broadcastInDim S1x1x64 ![2] bcast_S64_S1x1x64_2) v5
  have v13 : (⟨S16x16384x64, .f32⟩ : BufTy).Contents (Elt F) := (broadcastInDim S16x16384x64 ![0, 1, 2] bcast_S1x1x64_S16x16384x64_0_1_2) v12
  have v14 : (⟨S16x16384x64, .f32⟩ : BufTy).Contents (Elt F) := addf v11 v13
  have v15 : (⟨S1x1x64, .f32⟩ : BufTy).Contents (Elt F) := (broadcastInDim S1x1x64 ![2] bcast_S64_S1x1x64_2) sm
  have v16 : (⟨S16x16384x64, .f32⟩ : BufTy).Contents (Elt F) := (broadcastInDim S16x16384x64 ![0, 1, 2] bcast_S1x1x64_S16x16384x64_0_1_2) v15
  have v17 : (⟨S16x16384x64, .f32⟩ : BufTy).Contents (Elt F) := mulf v16 v14
  have cst_2 : (⟨S_, .f32⟩ : BufTy).Contents (Elt F) := constant S_ .f32 0xFF800000#32
  have v18 : (⟨S16x16384, .f32⟩ : BufTy).Contents (Elt F) := (fun x v => Host.reduce FloatOps.maximumf x v reducesTo_S16x16384x64_S16x16384_d2 h_S_) v17 cst_2
  have cst_3 : (⟨S_, .f32⟩ : BufTy).Contents (Elt F) := constant S_ .f32 0xFF800000#32
  have v19 : (⟨S16x16384, .f32⟩ : BufTy).Contents (Elt F) := (broadcastInDim S16x16384 ![] bcast_S_S16x16384) cst_3
  have v20 : (⟨S16x16384, .f32⟩ : BufTy).Contents (Elt F) := maximumf v19 v18
  have v21 : (⟨S16x16384x1, .f32⟩ : BufTy).Contents (Elt F) := (broadcastInDim S16x16384x1 ![0, 1] bcast_S16x16384_S16x16384x1_0_1) v20
  have v22 : (⟨S16x16384x64, .f32⟩ : BufTy).Contents (Elt F) := (broadcastInDim S16x16384x64 ![0, 1, 2] bcast_S16x16384x1_S16x16384x64_0_1_2) v21
  have v23 : (⟨S16x16384x64, .f32⟩ : BufTy).Contents (Elt F) := subf v17 v22
  have v24 : (⟨S16x16384x64, .f32⟩ : BufTy).Contents (Elt F) := Host.exp v23
  have cst_4 : (⟨S_, .f32⟩ : BufTy).Contents (Elt F) := constant S_ .f32 0x00000000#32
  have v25 : (⟨S16x16384, .f32⟩ : BufTy).Contents (Elt F) := (fun x v => Host.reduceAdd x v reducesTo_S16x16384x64_S16x16384_d2 h_S_) v24 cst_4
  have v26 : (⟨S16x16384x1, .f32⟩ : BufTy).Contents (Elt F) := (broadcastInDim S16x16384x1 ![0, 1] bcast_S16x16384_S16x16384x1_0_1) v25
  have v27 : (⟨S16x16384x64, .f32⟩ : BufTy).Contents (Elt F) := (broadcastInDim S16x16384x64 ![0, 1, 2] bcast_S16x16384x1_S16x16384x64_0_1_2) v26
  have v28 : (⟨S16x16384x64, .f32⟩ : BufTy).Contents (Elt F) := Host.divf v24 v27
  have v29 : (⟨S16x64x128, .f32⟩ : BufTy).Contents (Elt F) := (fun l r => Host.dotGeneral dot_S16x16384x64_S16x16384x128_S16x64x128_1_1_2_2_0_0 none l r) v28 v1
  have cst_5 : (⟨S_, .f32⟩ : BufTy).Contents (Elt F) := constant S_ .f32 0x00000000#32
  have v30 : (⟨S16x64, .f32⟩ : BufTy).Contents (Elt F) := (fun x v => Host.reduceAdd x v reducesTo_S16x16384x64_S16x64_d1 h_S_) v28 cst_5
  have v31 : (⟨S16x64x1, .f32⟩ : BufTy).Contents (Elt F) := (broadcastInDim S16x64x1 ![0, 1] bcast_S16x64_S16x64x1_0_1) v30
  have v32 : (⟨S1x64x128, .f32⟩ : BufTy).Contents (Elt F) := (broadcastInDim S1x64x128 ![1, 2] bcast_S64x128_S1x64x128_1_2) cw
  have v33 : (⟨S16x64x128, .f32⟩ : BufTy).Contents (Elt F) := (broadcastInDim S16x64x128 ![0, 1, 2] bcast_S16x64x1_S16x64x128_0_1_2) v31
  have v34 : (⟨S16x64x128, .f32⟩ : BufTy).Contents (Elt F) := (broadcastInDim S16x64x128 ![0, 1, 2] bcast_S1x64x128_S16x64x128_0_1_2) v32
  have v35 : (⟨S16x64x128, .f32⟩ : BufTy).Contents (Elt F) := mulf v33 v34
  have v36 : (⟨S16x64x128, .f32⟩ : BufTy).Contents (Elt F) := subf v29 v35
  v36

/-- `e` minus its per-codeword mean over batch and channel. -/
noncomputable def centered (e : (⟨S16x64x128, .f32⟩ : BufTy).Contents (Elt F)) : (⟨S16x64x128, .f32⟩ : BufTy).Contents (Elt F) :=
  have cst_6 : (⟨S_, .f32⟩ : BufTy).Contents (Elt F) := constant S_ .f32 0x00000000#32
  have v37 : (⟨S64, .f32⟩ : BufTy).Contents (Elt F) := (fun x v => Host.reduceAdd x v reducesTo_S16x64x128_S64_d0_2 h_S_) e cst_6
  have v38 : (⟨S1x64x1, .f32⟩ : BufTy).Contents (Elt F) := (broadcastInDim S1x64x1 ![1] bcast_S64_S1x64x1_1) v37
  have cst_7 : (⟨S_, .f32⟩ : BufTy).Contents (Elt F) := constant S_ .f32 0x45000000#32
  have v39 : (⟨S1x64x1, .f32⟩ : BufTy).Contents (Elt F) := (broadcastInDim S1x64x1 ![] bcast_S_S1x64x1) cst_7
  have v40 : (⟨S1x64x1, .f32⟩ : BufTy).Contents (Elt F) := Host.divf v38 v39
  have v42 : (⟨S16x64x128, .f32⟩ : BufTy).Contents (Elt F) := (broadcastInDim S16x64x128 ![0, 1, 2] bcast_S1x64x1_S16x64x128_0_1_2) v40
  have v43 : (⟨S16x64x128, .f32⟩ : BufTy).Contents (Elt F) := subf e v42
  v43

/-- The per-codeword variance of `e` over batch and channel, plus the epsilon literal. -/
noncomputable def varEps (e : (⟨S16x64x128, .f32⟩ : BufTy).Contents (Elt F)) : (⟨S1x64x1, .f32⟩ : BufTy).Contents (Elt F) :=
  have c : (⟨S_, .i32⟩ : BufTy).Contents (Elt F) := constantI S_ 32 0#32
  have call0_cst : (⟨S_, .f32⟩ : BufTy).Contents (Elt F) := constant S_ .f32 0x00000000#32
  have call0_v0 : (⟨S64, .f32⟩ : BufTy).Contents (Elt F) := (fun x v => Host.reduceAdd x v reducesTo_S16x64x128_S64_d0_2 h_S_) e call0_cst
  have call0_v1 : (⟨S1x64x1, .f32⟩ : BufTy).Contents (Elt F) := (broadcastInDim S1x64x1 ![1] bcast_S64_S1x64x1_1) call0_v0
  have call0_cst_0 : (⟨S_, .f32⟩ : BufTy).Contents (Elt F) := constant S_ .f32 0x45000000#32
  have call0_v2 : (⟨S1x64x1, .f32⟩ : BufTy).Contents (Elt F) := (broadcastInDim S1x64x1 ![] bcast_S_S1x64x1) call0_cst_0
  have call0_v3 : (⟨S1x64x1, .f32⟩ : BufTy).Contents (Elt F) := Host.divf call0_v1 call0_v2
  have call0_v4 : (⟨S16x64x128, .f32⟩ : BufTy).Contents (Elt F) := (broadcastInDim S16x64x128 ![0, 1, 2] bcast_S1x64x1_S16x64x128_0_1_2) call0_v3
  have call0_v5 : (⟨S16x64x128, .f32⟩ : BufTy).Contents (Elt F) := subf e call0_v4
  have call0_v6 : (⟨S16x64x128, .f32⟩ : BufTy).Contents (Elt F) := mulf call0_v5 call0_v5
  have call0_v7 : (⟨S_, .f32⟩ : BufTy).Contents (Elt F) := (sitofp .f32) c
  have call0_cst_1 : (⟨S_, .f32⟩ : BufTy).Contents (Elt F) := constant S_ .f32 0x45000000#32
  have call0_v8 : (⟨S_, .f32⟩ : BufTy).Contents (Elt F) := subf call0_cst_1 call0_v7
  have call0_cst_2 : (⟨S_, .f32⟩ : BufTy).Contents (Elt F) := constant S_ .f32 0x00000000#32
  have call0_v9 : (⟨S64, .f32⟩ : BufTy).Contents (Elt F) := (fun x v => Host.reduceAdd x v reducesTo_S16x64x128_S64_d0_2 h_S_) call0_v6 call0_cst_2
  have call0_v10 : (⟨S1x64x1, .f32⟩ : BufTy).Contents (Elt F) := (broadcastInDim S1x64x1 ![1] bcast_S64_S1x64x1_1) call0_v9
  have call0_v11 : (⟨S1x64x1, .f32⟩ : BufTy).Contents (Elt F) := (broadcastInDim S1x64x1 ![] bcast_S_S1x64x1) call0_v8
  have call0_v12 : (⟨S1x64x1, .f32⟩ : BufTy).Contents (Elt F) := Host.divf call0_v10 call0_v11
  have call0_cst_3 : (⟨S_, .f32⟩ : BufTy).Contents (Elt F) := constant S_ .f32 0x00000000#32
  have call0_v13 : (⟨S_, .i1⟩ : BufTy).Contents (Elt F) := (cmpf .ogt) call0_v8 call0_cst_3
  have call0_cst_4 : (⟨S_, .f32⟩ : BufTy).Contents (Elt F) := constant S_ .f32 0x7FC00000#32
  have call0_call0_v0 : (⟨S_, .f32⟩ : BufTy).Contents (Elt F) := id call0_cst_4
  have call0_call0_v1 : (⟨S1x64x1, .f32⟩ : BufTy).Contents (Elt F) := (broadcastInDim S1x64x1 ![] bcast_S_S1x64x1) call0_call0_v0
  have v41 : (⟨S1x64x1, .f32⟩ : BufTy).Contents (Elt F) := (fun p a b => select (broadcastInDim S1x64x1 ![] bcast_S_S1x64x1 p) a b) call0_v13 call0_v12 call0_call0_v1
  have cst_8 : (⟨S_, .f32⟩ : BufTy).Contents (Elt F) := constant S_ .f32 0x3727C5AC#32
  have v44 : (⟨S1x64x1, .f32⟩ : BufTy).Contents (Elt F) := (broadcastInDim S1x64x1 ![] bcast_S_S1x64x1) cst_8
  have v45 : (⟨S1x64x1, .f32⟩ : BufTy).Contents (Elt F) := addf v41 v44
  v45

/-- From the normalised tensor `y`: the affine map, the rectifier, the mean over codewords, the linear layer and the logistic gate. -/
noncomputable def gate (y : (⟨S16x64x128, .f32⟩ : BufTy).Contents (Elt F)) (bnw : (⟨S64, .f32⟩ : BufTy).Contents (Elt F)) (bnb : (⟨S64, .f32⟩ : BufTy).Contents (Elt F)) (fcw : (⟨S128x128, .f32⟩ : BufTy).Contents (Elt F)) (fcb : (⟨S128, .f32⟩ : BufTy).Contents (Elt F)) : (⟨S16x128, .f32⟩ : BufTy).Contents (Elt F) :=
  have v49 : (⟨S1x64x1, .f32⟩ : BufTy).Contents (Elt F) := (broadcastInDim S1x64x1 ![1] bcast_S64_S1x64x1_1) bnw
  have v50 : (⟨S16x64x128, .f32⟩ : BufTy).Contents (Elt F) := (broadcastInDim S16x64x128 ![0, 1, 2] bcast_S1x64x1_S16x64x128_0_1_2) v49
  have v51 : (⟨S16x64x128, .f32⟩ : BufTy).Contents (Elt F) := mulf y v50
  have v52 : (⟨S1x64x1, .f32⟩ : BufTy).Contents (Elt F) := (broadcastInDim S1x64x1 ![1] bcast_S64_S1x64x1_1) bnb
  have v53 : (⟨S16x64x128, .f32⟩ : BufTy).Contents (Elt F) := (broadcastInDim S16x64x128 ![0, 1, 2] bcast_S1x64x1_S16x64x128_0_1_2) v52
  have v54 : (⟨S16x64x128, .f32⟩ : BufTy).Contents (Elt F) := addf v51 v53
  have call1_cst : (⟨S_, .f32⟩ : BufTy).Contents (Elt F) := constant S_ .f32 0x00000000#32
  have call1_v0 : (⟨S16x64x128, .f32⟩ : BufTy).Contents (Elt F) := (broadcastInDim S16x64x128 ![] bcast_S_S16x64x128) call1_cst
  have v55 : (⟨S16x64x128, .f32⟩ : BufTy).Contents (Elt F) := maximumf v54 call1_v0
  have cst_9 : (⟨S_, .f32⟩ : BufTy).Contents (Elt F) := constant S_ .f32 0x00000000#32
  have v56 : (⟨S16x128, .f32⟩ : BufTy).Contents (Elt F) := (fun x v => Host.reduceAdd x v reducesTo_S16x64x128_S16x128_d1 h_S_) v55 cst_9
  have cst_10 : (⟨S_, .f32⟩ : BufTy).Contents (Elt F) := constant S_ .f32 0x42800000#32
  have v57 : (⟨S16x128, .f32⟩ : BufTy).Contents (Elt F) := (broadcastInDim S16x128 ![] bcast_S_S16x128) cst_10
  have v58 : (⟨S16x128, .f32⟩ : BufTy).Contents (Elt F) := Host.divf v56 v57
  have v59 : (⟨S128x128, .f32⟩ : BufTy).Contents (Elt F) := (transpose S128x128 [1, 0] · transposes_S128x128_S128x128_1_0) fcw
  have v60 : (⟨S16x128, .f32⟩ : BufTy).Contents (Elt F) := (fun l r => Host.dotGeneral dot_S16x128_S128x128_S16x128_1_0_0_1_n_n none l r) v58 v59
  have v61 : (⟨S1x128, .f32⟩ : BufTy).Contents (Elt F) := (broadcastInDim S1x128 ![1] bcast_S128_S1x128_1) fcb
  have v62 : (⟨S16x128, .f32⟩ : BufTy).Contents (Elt F) := (broadcastInDim S16x128 ![0, 1] bcast_S1x128_S16x128_0_1) v61
  have v63 : (⟨S16x128, .f32⟩ : BufTy).Contents (Elt F) := addf v60 v62
  have v64 : (⟨S16x128, .f32⟩ : BufTy).Contents (Elt F) := Host.negf v63
  have v65 : (⟨S16x128, .f32⟩ : BufTy).Contents (Elt F) := Host.exp v64
  have cst_11 : (⟨S_, .f32⟩ : BufTy).Contents (Elt F) := constant S_ .f32 0x3F800000#32
  have v66 : (⟨S16x128, .f32⟩ : BufTy).Contents (Elt F) := (broadcastInDim S16x128 ![] bcast_S_S16x128) cst_11
  have v67 : (⟨S16x128, .f32⟩ : BufTy).Contents (Elt F) := addf v66 v65
  have cst_12 : (⟨S_, .f32⟩ : BufTy).Contents (Elt F) := constant S_ .f32 0x3F800000#32
  have v68 : (⟨S16x128, .f32⟩ : BufTy).Contents (Elt F) := (broadcastInDim S16x128 ![] bcast_S_S16x128) cst_12
  have v69 : (⟨S16x128, .f32⟩ : BufTy).Contents (Elt F) := Host.divf v68 v67
  v69

/-- The centred tensor divided by the square root of the variance plus epsilon. -/
noncomputable def normalized (cen : (⟨S16x64x128, .f32⟩ : BufTy).Contents (Elt F)) (ve : (⟨S1x64x1, .f32⟩ : BufTy).Contents (Elt F)) : (⟨S16x64x128, .f32⟩ : BufTy).Contents (Elt F) :=
  have v46 : (⟨S1x64x1, .f32⟩ : BufTy).Contents (Elt F) := Host.sqrt ve
  have v47 : (⟨S16x64x128, .f32⟩ : BufTy).Contents (Elt F) := (broadcastInDim S16x64x128 ![0, 1, 2] bcast_S1x64x1_S16x64x128_0_1_2) v46
  have v48 : (⟨S16x64x128, .f32⟩ : BufTy).Contents (Elt F) := Host.divf cen v47
  v48

/-- `x` times the gate broadcast over the two trailing axes. -/
noncomputable def gated (x : (⟨S16x128x1x16384, .f32⟩ : BufTy).Contents (Elt F)) (g : (⟨S16x128, .f32⟩ : BufTy).Contents (Elt F)) : (⟨S16x128x1x16384, .f32⟩ : BufTy).Contents (Elt F) :=
  have v70 : (⟨S16x128x1x1, .f32⟩ : BufTy).Contents (Elt F) := (broadcastInDim S16x128x1x1 ![0, 1] bcast_S16x128_S16x128x1x1_0_1) g
  have v71 : (⟨S16x128x1x16384, .f32⟩ : BufTy).Contents (Elt F) := (broadcastInDim S16x128x1x16384 ![0, 1, 2, 3] bcast_S16x128x1x1_S16x128x1x16384_0_1_2_3) v70
  have v72 : (⟨S16x128x1x16384, .f32⟩ : BufTy).Contents (Elt F) := mulf x v71
  v72

/-- The whole reference: inputs to output. -/
noncomputable def out (x : (⟨S16x128x1x16384, .f32⟩ : BufTy).Contents (Elt F)) (cw : (⟨S64x128, .f32⟩ : BufTy).Contents (Elt F)) (sm bnw bnb : (⟨S64, .f32⟩ : BufTy).Contents (Elt F)) (fcw : (⟨S128x128, .f32⟩ : BufTy).Contents (Elt F)) (fcb : (⟨S128, .f32⟩ : BufTy).Contents (Elt F)) : (⟨S16x128x1x16384, .f32⟩ : BufTy).Contents (Elt F) :=
  gated x (gate (normalized (centered (encode x cw sm)) (varEps (encode x cw sm))) bnw bnb fcw fcb)

end Cert.ReferenceIdeal.Terms

end
-- ==== Proof.GateEq.lean ====
/-
  The batch-normalisation step of the two programs agrees on the extended reals.

  The kernel program multiplies the centred tensor by the reciprocal square root of the variance plus epsilon; the
  reference divides it by the square root. Three facts.
  (1) For an extended real `v > 0`, `x * rsqrt v = x / sqrt v`: at `v = ⊤` both sides are `x * 0` (as `⊤⁻¹ = 0`), and at
      a positive real `r` both are `x * (√r)⁻¹` since `√r ≠ 0`. The identity fails for `v ≤ 0`, so positivity is needed.
  (2) The variance plus epsilon is positive at every index, for every input (no finiteness assumed): the count
      `2048 − 0` is the real `2048 > 0`, so the select takes the mean-of-squares branch; every square `d * d` is
      nonnegative on the extended reals (`⊥ * ⊥ = ⊤`), so the sum over batch and channel from the initial value `0` is
      nonnegative, and so is its quotient by `2048`; the epsilon literal is a positive real; nonnegative plus positive
      is positive.
  (3) The centred tensor, the variance plus epsilon, and the chain from the normalised tensor to the gate are, in the
      two programs, the same operations over the same literal shapes, so each pair is equal by unfolding.
-/
import proofs.«404385_j35433480192595_3_alg».proof.Proof.KerTerms
import proofs.«404385_j35433480192595_3_alg».proof.Proof.RefTerms
import Idealize.ShloMosaic.PureOps.Ideal.Laws
import Idealize.ShloMosaic.Lib.ValueIdx
import Mathlib.Data.EReal.Basic
import Mathlib.Data.EReal.Operations
import Mathlib.Data.EReal.Inv

noncomputable section

namespace Cert.GateEq

open Idealize.ShloMosaic Idealize.ShloMosaic.ValueIdx

/-! ## The scalar identity -/

/-- For a positive extended real `v`, multiplying by the reciprocal square root of `v` is dividing by the square root
    of `v`: at `⊤` both sides are `x * 0`; at a positive real `r` both are `x * (√r)⁻¹`, as `√r ≠ 0`. (It fails for
    `v ≤ 0`.) -/
theorem mul_rsqrt_eq_div_sqrt (x v : EReal) (hv : 0 < v) : x * Ideal.rsqrt v = Ideal.div x (Ideal.sqrt v) := by
  induction v using EReal.rec with
  | bot => exact absurd hv (by simp)
  | top =>
    rw [Ideal.rsqrt_top, Ideal.sqrt_top, Ideal.div, if_neg (by simp), EReal.inv_top]
  | coe r =>
    have hr : 0 < r := by exact_mod_cast hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

/-! ## Positivity of the variance plus epsilon -/

/-- A square is nonnegative on the extended reals (at the infinities too: `⊥ * ⊥ = ⊤`). -/
theorem mul_self_nonneg' (a : EReal) : 0 ≤ a * a := by
  rcases le_total 0 a with h | h
  · exact EReal.mul_nonneg_iff.mpr (Or.inl ⟨h, h⟩)
  · exact EReal.mul_nonneg_iff.mpr (Or.inr ⟨h, h⟩)

/-- The host's sum of squares from the initial value zero is nonnegative at every reduced index, whatever the axes. -/
theorem hostReduceAdd_sq_nonneg {s t : Shape} {axes : List (Fin s.rank)} (h : s.ReducesTo axes t) (d : s.Idx → EReal)
    (j : t.Idx) : 0 ≤ Ideal.hostReduceAdd h (fun k => d k * d k) 0 j := by
  unfold Ideal.hostReduceAdd
  rw [zero_add]
  exact Finset.sum_nonneg fun k _ => mul_self_nonneg' (d k)

/-- `0x45000000` is `2048`. -/
theorem ofBits_2048 : Ideal.ofBits .f32 0x45000000#32 = ((2048 : ℝ) : EReal) := by
  simp [Ideal.ofBits, Ideal.ieee, -EReal.coe_mul]; norm_num

/-- `0x3727C5AC` (the epsilon literal, about `1e-5`) is a positive real. -/
theorem ofBits_eps_pos : (0 : EReal) < Ideal.ofBits .f32 0x3727C5AC#32 := by
  simp [Ideal.ofBits, Ideal.ieee, -EReal.coe_mul]

open Cert.KernelIdeal Cert.KernelIdeal.Gen in
/-- The variance plus epsilon, with the centred tensor `D` left general: the count `2048 − 0` is positive, so the
    select takes the mean of the squares, which is nonnegative; adding the positive epsilon gives a positive value. -/
theorem var_form_pos (D : FVec Ideal S16x64x128 .f32) (i : S1x64x1.Idx) :
    (0 : EReal) < Scalar.select
        (broadcastInDim S1x64x1 ![] bcast_S_S1x64x1
          (cmpf (F := Ideal) CmpFPredicate.ogt (subf (constant S_ FTy.f32 0x45000000#32) (sitofp FTy.f32 (constantI S_ 32 0#32)))
            (constant S_ FTy.f32 0x00000000#32)) i)
        (Ideal.div
          (broadcastInDim S1x64x1 ![1] bcast_S64_S1x64x1_1
            (Host.reduceAdd (mulf D D) (constant S_ FTy.f32 0x00000000#32) reducesTo_S16x64x128_S64_d0_2 h_S_) i)
          (broadcastInDim S1x64x1 ![] bcast_S_S1x64x1
            (subf (constant (F := Ideal) S_ FTy.f32 0x45000000#32) (sitofp FTy.f32 (constantI S_ 32 0#32))) i))
        (broadcastInDim S1x64x1 ![] bcast_S_S1x64x1 (constant (F := Ideal) S_ FTy.f32 0x7FC00000#32) i) +
      broadcastInDim S1x64x1 ![] bcast_S_S1x64x1 (constant (F := Ideal) S_ FTy.f32 0x3727C5AC#32) i := by
  -- the count: 2048 − 0 = 2048
  have hn : Ideal.ofBits .f32 0x45000000#32 - (((0#32 : BitVec 32).toInt : ℝ) : EReal) = ((2048 : ℝ) : EReal) := by
    rw [ofBits_2048, BitVec.toInt_zero, Int.cast_zero, EReal.coe_zero, sub_zero]
  have hcnt : broadcastInDim S1x64x1 ![] bcast_S_S1x64x1
      (subf (constant (F := Ideal) S_ FTy.f32 0x45000000#32) (sitofp FTy.f32 (constantI S_ 32 0#32))) i = ((2048 : ℝ) : EReal) := hn
  have hcmp : broadcastInDim S1x64x1 ![] bcast_S_S1x64x1
      (cmpf (F := Ideal) CmpFPredicate.ogt (subf (constant S_ FTy.f32 0x45000000#32) (sitofp FTy.f32 (constantI S_ 32 0#32)))
        (constant S_ FTy.f32 0x00000000#32)) i = 1#1 := by
    show BitVec.ofBool (decide (Ideal.ofBits .f32 0x00000000#32
      < Ideal.ofBits .f32 0x45000000#32 - (((0#32 : BitVec 32).toInt : ℝ) : EReal))) = 1#1
    rw [hn, Ideal.ofBits_zero_f32, decide_eq_true (EReal.coe_pos.mpr (by norm_num))]
    rfl
  have heps : broadcastInDim S1x64x1 ![] bcast_S_S1x64x1 (constant (F := Ideal) S_ FTy.f32 0x3727C5AC#32) i
      = Ideal.ofBits .f32 0x3727C5AC#32 := rfl
  have hsum : ∀ k, (0 : EReal) ≤ Host.reduceAdd (mulf D D) (constant (F := Ideal) S_ FTy.f32 0x00000000#32)
      reducesTo_S16x64x128_S64_d0_2 h_S_ k := fun k => by
    show 0 ≤ Ideal.hostReduceAdd reducesTo_S16x64x128_S64_d0_2 (fun q => D q * D q) (Ideal.ofBits .f32 0x00000000#32) k
    rw [Ideal.ofBits_zero_f32]
    exact hostReduceAdd_sq_nonneg _ D k
  have hnum : (0 : EReal) ≤ broadcastInDim S1x64x1 ![1] bcast_S64_S1x64x1_1
      (Host.reduceAdd (mulf D D) (constant (F := Ideal) S_ FTy.f32 0x00000000#32) reducesTo_S16x64x128_S64_d0_2 h_S_) i := by
    unfold broadcastInDim
    exact hsum _
  rw [hcmp, select_one, hcnt, heps, Ideal.div_coe (by norm_num)]
  exact Right.add_pos_of_nonneg_of_pos (EReal.mul_nonneg hnum (EReal.coe_nonneg.mpr (by norm_num))) ofBits_eps_pos

/-- The variance plus epsilon is positive at every index, for every `e`. -/
theorem varEps_pos (e : (⟨Cert.KernelIdeal.S16x64x128, .f32⟩ : BufTy).Contents (Elt Ideal)) (i : Cert.KernelIdeal.S1x64x1.Idx) :
    (0 : EReal) < Cert.KernelIdeal.Terms.varEps (F := Ideal) e i :=
  var_form_pos _ i

/-! ## The two normalisations, and the gate -/

/-- The two programs' centred tensors are the same operations. -/
theorem centered_eq (e : (⟨Cert.KernelIdeal.S16x64x128, .f32⟩ : BufTy).Contents (Elt Ideal)) :
    Cert.KernelIdeal.Terms.centered (F := Ideal) e = Cert.ReferenceIdeal.Terms.centered (F := Ideal) e := rfl

/-- The two programs' variances plus epsilon are the same operations. -/
theorem varEps_eq (e : (⟨Cert.KernelIdeal.S16x64x128, .f32⟩ : BufTy).Contents (Elt Ideal)) :
    Cert.KernelIdeal.Terms.varEps (F := Ideal) e = Cert.ReferenceIdeal.Terms.varEps (F := Ideal) e := rfl

/-- The two programs' chains from the normalised tensor to the gate are the same operations. -/
theorem gate_eq (y : (⟨Cert.KernelIdeal.S16x64x128, .f32⟩ : BufTy).Contents (Elt Ideal))
    (bnw bnb : (⟨Cert.KernelIdeal.S64, .f32⟩ : BufTy).Contents (Elt Ideal))
    (fcw : (⟨Cert.KernelIdeal.S128x128, .f32⟩ : BufTy).Contents (Elt Ideal))
    (fcb : (⟨Cert.KernelIdeal.S128, .f32⟩ : BufTy).Contents (Elt Ideal)) :
    Cert.KernelIdeal.Terms.gate (F := Ideal) y bnw bnb fcw fcb = Cert.ReferenceIdeal.Terms.gate (F := Ideal) y bnw bnb fcw fcb := rfl

/-- With a positive second argument at every index, the centred tensor times the broadcast reciprocal square root is
    the centred tensor divided by the broadcast square root. -/
theorem normalized_eq (cen : (⟨Cert.KernelIdeal.S16x64x128, .f32⟩ : BufTy).Contents (Elt Ideal))
    (ve : (⟨Cert.KernelIdeal.S1x64x1, .f32⟩ : BufTy).Contents (Elt Ideal)) (hve : ∀ i, (0 : EReal) < ve i) :
    Cert.KernelIdeal.Terms.normalized (F := Ideal) cen ve = Cert.ReferenceIdeal.Terms.normalized (F := Ideal) cen ve := by
  funext j
  exact mul_rsqrt_eq_div_sqrt (cen j) (ve _) (hve _)

/-- The gate from the kernel program's normalisation is the gate from the reference's. -/
theorem scale_eq (e : (⟨Cert.KernelIdeal.S16x64x128, .f32⟩ : BufTy).Contents (Elt Ideal))
    (bnw bnb : (⟨Cert.KernelIdeal.S64, .f32⟩ : BufTy).Contents (Elt Ideal))
    (fcw : (⟨Cert.KernelIdeal.S128x128, .f32⟩ : BufTy).Contents (Elt Ideal))
    (fcb : (⟨Cert.KernelIdeal.S128, .f32⟩ : BufTy).Contents (Elt Ideal)) :
    Cert.KernelIdeal.Terms.gate (F := Ideal)
        (Cert.KernelIdeal.Terms.normalized (Cert.KernelIdeal.Terms.centered e) (Cert.KernelIdeal.Terms.varEps e)) bnw bnb fcw fcb
      = Cert.ReferenceIdeal.Terms.gate (F := Ideal)
        (Cert.ReferenceIdeal.Terms.normalized (Cert.ReferenceIdeal.Terms.centered e) (Cert.ReferenceIdeal.Terms.varEps e)) bnw bnb fcw fcb := by
  rw [normalized_eq _ _ (varEps_pos e), gate_eq, centered_eq, varEps_eq]

end Cert.GateEq

end
-- ==== Proof.FinalRead.lean ====
/-
  The last step of both programs is the same array: the input scaled, per batch and channel, by the gate. The kernel's
  side reads the gate as a column `[16, 128, 1]`; the reference broadcasts it over the two trailing axes. At every
  index `(b, c, u, s)` both are `x (b, c, u, s) · g (b, c)`.
-/
import proofs.«404385_j35433480192595_3_alg».proof.Proof.ScaleValue
import proofs.«404385_j35433480192595_3_alg».proof.Proof.KerTerms
import proofs.«404385_j35433480192595_3_alg».proof.Proof.RefTerms
import Idealize.ShloMosaic.Lib.Pipeline.Value
import Idealize.ShloMosaic.Lib.ValueIdx

noncomputable section

namespace Cert.FinalRead

open Idealize.ShloMosaic Idealize.ShloMosaic.ValueIdx

/-- The gate column at `(b, c, 0)` is the gate at `(b, c)`. -/
theorem gateCol_apply (g : (⟨Cert.KernelIdeal.S16x128, .f32⟩ : BufTy).Contents (Elt Ideal)) (b : Fin 16) (c : Fin 128) :
    Cert.KernelIdeal.Terms.gateCol (F := Ideal) g (ix3 b c 0) = g (ix2 b c) := by
  unfold Cert.KernelIdeal.Terms.gateCol
  exact broadcastInDim_apply ![0, 1] Cert.KernelIdeal.Gen.bcast_S16x128_S16x128x1_0_1 g (ix3 b c 0) (ix2 b c)
    (fun a => match a with | ⟨0, _⟩ => rfl | ⟨1, _⟩ => rfl)

/-- The reference's gated array at an index: `x (b, c, u, s) · g (b, c)`. -/
theorem gated_apply (x : Vec Ideal Cert.KernelIdeal.S16x128x1x16384 .f32)
    (g : (⟨Cert.KernelIdeal.S16x128, .f32⟩ : BufTy).Contents (Elt Ideal))
    (b : Fin 16) (c : Fin 128) (u : Fin 1) (s : Fin 16384) :
    Cert.ReferenceIdeal.Terms.gated (F := Ideal) x g (ix4 b c u s) = x (ix4 b c u s) * g (ix2 b c) := by
  unfold Cert.ReferenceIdeal.Terms.gated
  rw [mulf_apply]
  rw [broadcastInDim_apply ![0, 1, 2, 3] Cert.ReferenceIdeal.Gen.bcast_S16x128x1x1_S16x128x1x16384_0_1_2_3 _ (ix4 b c u s)
    (ix4 b c (0 : Fin 1) (0 : Fin 1))
    (fun a => match a with | ⟨0, _⟩ => rfl | ⟨1, _⟩ => rfl | ⟨2, _⟩ => rfl | ⟨3, _⟩ => rfl)]
  rw [broadcastInDim_apply ![0, 1] Cert.ReferenceIdeal.Gen.bcast_S16x128_S16x128x1x1_0_1 g
    (ix4 b c (0 : Fin 1) (0 : Fin 1)) (ix2 b c)
    (fun a => match a with | ⟨0, _⟩ => rfl | ⟨1, _⟩ => rfl)]

/-- The kernel's scaled array is the reference's gated array. -/
theorem gated_eq (x : Vec Ideal Cert.KernelIdeal.S16x128x1x16384 .f32)
    (g : (⟨Cert.KernelIdeal.S16x128, .f32⟩ : BufTy).Contents (Elt Ideal)) :
    Cert.KernelIdeal.ScaleValue.scaled x (Cert.KernelIdeal.Terms.gateCol (F := Ideal) g)
      = Cert.ReferenceIdeal.Terms.gated (F := Ideal) x g := by
  funext j
  obtain ⟨b, c, u, s, rfl⟩ : ∃ (b : Fin 16) (c : Fin 128) (u : Fin 1) (s : Fin 16384), j = ix4 b c u s :=
    ⟨j 0, j 1, j 2, j 3, eq_ix4 j⟩
  rw [gated_apply]
  show x (ix4 b c u s) * Cert.KernelIdeal.Terms.gateCol (F := Ideal) g (ix3 b c 0) = _
  rw [gateCol_apply]

end Cert.FinalRead

end
-- ==== Proof.RefRead.lean ====
/-
  The reference's residual sums read at an index, on the extended reals.

  The term `Terms.encode x cw sm` is cut into stages — the relaid input, the squared norms, the inner products, the
  logits, the row maximum, the exponentials, the soft assignment, the residual sums — and each stage is read at a
  coordinate tuple: a broadcast reads its operand at the coordinates it keeps, a one-axis sum is the initial literal
  plus the `Fin`-indexed sum over the dropped coordinate, a one-axis maximum is the fold of `max` from the initial
  literal, and a product with one contracting axis is the sum over that axis of the operands' products (the second
  product batch by batch). Composed, the term at `(b, k, c)` is the specification's `eR` of the inputs' coordinates.
  No finiteness is used: every step is a reading of one operation.
-/
import proofs.«404385_j35433480192595_3_alg».proof.Proof.RefTerms
import proofs.«404385_j35433480192595_3_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section

namespace Cert.ReferenceIdeal.Read

open Cert.ReferenceIdeal Cert.ReferenceIdeal.Gen Idealize.ShloMosaic Idealize.ShloMosaic.ValueIdx

/-! ## The two products' operand indices, axis by axis -/

theorem dotA_lhs_0 (j : S16x16384x64.Idx) (q : dot_S16x16384x128_S64x128_S16x16384x64_2_1_01_0_n_n.contr.Idx) :
    (dot_S16x16384x128_S64x128_S16x16384x64_2_1_01_0_n_n.lhsIdx j q 0).val = (j 0).val := rfl
theorem dotA_lhs_1 (j : S16x16384x64.Idx) (q : dot_S16x16384x128_S64x128_S16x16384x64_2_1_01_0_n_n.contr.Idx) :
    (dot_S16x16384x128_S64x128_S16x16384x64_2_1_01_0_n_n.lhsIdx j q 1).val = (j 1).val := rfl
theorem dotA_lhs_2 (j : S16x16384x64.Idx) (q : dot_S16x16384x128_S64x128_S16x16384x64_2_1_01_0_n_n.contr.Idx) :
    (dot_S16x16384x128_S64x128_S16x16384x64_2_1_01_0_n_n.lhsIdx j q 2).val = (q ⟨0, by decide⟩).val := rfl
theorem dotA_rhs_0 (j : S16x16384x64.Idx) (q : dot_S16x16384x128_S64x128_S16x16384x64_2_1_01_0_n_n.contr.Idx) :
    (dot_S16x16384x128_S64x128_S16x16384x64_2_1_01_0_n_n.rhsIdx j q 0).val = (j 2).val := rfl
theorem dotA_rhs_1 (j : S16x16384x64.Idx) (q : dot_S16x16384x128_S64x128_S16x16384x64_2_1_01_0_n_n.contr.Idx) :
    (dot_S16x16384x128_S64x128_S16x16384x64_2_1_01_0_n_n.rhsIdx j q 1).val = (q ⟨0, by decide⟩).val := rfl

theorem dotB_lhs_0 (j : S16x64x128.Idx) (q : dot_S16x16384x64_S16x16384x128_S16x64x128_1_1_2_2_0_0.contr.Idx) :
    (dot_S16x16384x64_S16x16384x128_S16x64x128_1_1_2_2_0_0.lhsIdx j q 0).val = (j 0).val := rfl
theorem dotB_lhs_1 (j : S16x64x128.Idx) (q : dot_S16x16384x64_S16x16384x128_S16x64x128_1_1_2_2_0_0.contr.Idx) :
    (dot_S16x16384x64_S16x16384x128_S16x64x128_1_1_2_2_0_0.lhsIdx j q 1).val = (q ⟨0, by decide⟩).val := rfl
theorem dotB_lhs_2 (j : S16x64x128.Idx) (q : dot_S16x16384x64_S16x16384x128_S16x64x128_1_1_2_2_0_0.contr.Idx) :
    (dot_S16x16384x64_S16x16384x128_S16x64x128_1_1_2_2_0_0.lhsIdx j q 2).val = (j 1).val := rfl
theorem dotB_rhs_0 (j : S16x64x128.Idx) (q : dot_S16x16384x64_S16x16384x128_S16x64x128_1_1_2_2_0_0.contr.Idx) :
    (dot_S16x16384x64_S16x16384x128_S16x64x128_1_1_2_2_0_0.rhsIdx j q 0).val = (j 0).val := rfl
theorem dotB_rhs_1 (j : S16x64x128.Idx) (q : dot_S16x16384x64_S16x16384x128_S16x64x128_1_1_2_2_0_0.contr.Idx) :
    (dot_S16x16384x64_S16x16384x128_S16x64x128_1_1_2_2_0_0.rhsIdx j q 1).val = (q ⟨0, by decide⟩).val := rfl
theorem dotB_rhs_2 (j : S16x64x128.Idx) (q : dot_S16x16384x64_S16x16384x128_S16x64x128_1_1_2_2_0_0.contr.Idx) :
    (dot_S16x16384x64_S16x16384x128_S16x64x128_1_1_2_2_0_0.rhsIdx j q 2).val = (j 2).val := rfl

/-- The first product at `(b, s, k)`: the sum over the channels. -/
theorem dotA_apply (l : FVec Ideal S16x16384x128 .f32) (r : FVec Ideal S64x128 .f32) (b : Fin 16) (s : Fin 16384) (k : Fin 64) :
    Host.dotGeneral (F := Ideal) dot_S16x16384x128_S64x128_S16x16384x64_2_1_01_0_n_n none l r (ix3 b s k)
      = ∑ c : Fin 128, l (ix3 b s c) * r (ix2 k c) := by
  refine (Ideal.dotGeneral_apply _ none .single l r (ix3 b s k)).trans ?_
  rw [← Equiv.sum_comp (contrEquiv1 dot_S16x16384x128_S64x128_S16x16384x64_2_1_01_0_n_n 128 rfl rfl).symm]
  refine Finset.sum_congr rfl fun c _ => ?_
  have hl : dot_S16x16384x128_S64x128_S16x16384x64_2_1_01_0_n_n.lhsIdx (ix3 b s k)
      ((contrEquiv1 dot_S16x16384x128_S64x128_S16x16384x64_2_1_01_0_n_n 128 rfl rfl).symm c) = ix3 b s c :=
    funext fun a => Fin.ext <| match a with
      | ⟨0, _⟩ => dotA_lhs_0 _ _
      | ⟨1, _⟩ => dotA_lhs_1 _ _
      | ⟨2, _⟩ => (dotA_lhs_2 _ _).trans (contrEquiv1_symm_val _ 128 rfl rfl c)
  have hr : dot_S16x16384x128_S64x128_S16x16384x64_2_1_01_0_n_n.rhsIdx (ix3 b s k)
      ((contrEquiv1 dot_S16x16384x128_S64x128_S16x16384x64_2_1_01_0_n_n 128 rfl rfl).symm c) = ix2 k c :=
    funext fun a => Fin.ext <| match a with
      | ⟨0, _⟩ => dotA_rhs_0 _ _
      | ⟨1, _⟩ => (dotA_rhs_1 _ _).trans (contrEquiv1_symm_val _ 128 rfl rfl c)
  rw [hl, hr]

/-- The second product at `(b, k, c)`: the sum over the positions, batch by batch. -/
theorem dotB_apply (l : FVec Ideal S16x16384x64 .f32) (r : FVec Ideal S16x16384x128 .f32) (b : Fin 16) (k : Fin 64) (c : Fin 128) :
    Host.dotGeneral (F := Ideal) dot_S16x16384x64_S16x16384x128_S16x64x128_1_1_2_2_0_0 none l r (ix3 b k c)
      = ∑ s : Fin 16384, l (ix3 b s k) * r (ix3 b s c) := by
  refine (Ideal.dotGeneral_apply _ none .single l r (ix3 b k c)).trans ?_
  rw [← Equiv.sum_comp (contrEquiv1 dot_S16x16384x64_S16x16384x128_S16x64x128_1_1_2_2_0_0 16384 rfl rfl).symm]
  refine Finset.sum_congr rfl fun s _ => ?_
  have hl : dot_S16x16384x64_S16x16384x128_S16x64x128_1_1_2_2_0_0.lhsIdx (ix3 b k c)
      ((contrEquiv1 dot_S16x16384x64_S16x16384x128_S16x64x128_1_1_2_2_0_0 16384 rfl rfl).symm s) = ix3 b s k :=
    funext fun a => Fin.ext <| match a with
      | ⟨0, _⟩ => dotB_lhs_0 _ _
      | ⟨1, _⟩ => (dotB_lhs_1 _ _).trans (contrEquiv1_symm_val _ 16384 rfl rfl s)
      | ⟨2, _⟩ => dotB_lhs_2 _ _
  have hr : dot_S16x16384x64_S16x16384x128_S16x64x128_1_1_2_2_0_0.rhsIdx (ix3 b k c)
      ((contrEquiv1 dot_S16x16384x64_S16x16384x128_S16x64x128_1_1_2_2_0_0 16384 rfl rfl).symm s) = ix3 b s c :=
    funext fun a => Fin.ext <| match a with
      | ⟨0, _⟩ => dotB_rhs_0 _ _
      | ⟨1, _⟩ => (dotB_rhs_1 _ _).trans (contrEquiv1_symm_val _ 16384 rfl rfl s)
      | ⟨2, _⟩ => dotB_rhs_2 _ _
  rw [hl, hr]

/-! ## The layout of `x`: the unit axis dropped, channel and position exchanged -/

theorem xT_apply (x : S16x128x1x16384.Idx → EReal) (b : Fin 16) (s : Fin 16384) (c : Fin 128) :
    transpose S16x16384x128 [0, 2, 1]
        (shapeCast S16x128x16384 x shapeCasts_S16x128x1x16384_S16x128x16384) transposes_S16x128x16384_S16x16384x128_0_2_1 (ix3 b s c)
      = x (ix4 b c (0 : Fin 1) s) := by
  refine (transpose_ix3_021_apply _ transposes_S16x128x16384_S16x16384x128_0_2_1 b s c).trans ?_
  refine shapeCast_apply x _ (ix3 b c s) (ix4 b c (0 : Fin 1) s) ?_
  rw [Shape.rowMajor_val_four, Shape.rowMajor_val_three]
  show ((b.val * 128 + c.val) * 1 + 0) * 16384 + s.val = (b.val * 128 + c.val) * 16384 + s.val
  omega

/-! ## The broadcasts -/

theorem bc_scalar_3 (v : S_.Idx → EReal) (j : S16x16384x64.Idx) :
    broadcastInDim S16x16384x64 ![] bcast_S_S16x16384x64 v j = v ix0 :=
  broadcastInDim_scalar_apply _ v j

theorem bc_scalar_2 (v : S_.Idx → EReal) (j : S16x16384.Idx) :
    broadcastInDim S16x16384 ![] bcast_S_S16x16384 v j = v ix0 :=
  broadcastInDim_scalar_apply _ v j

theorem bc_bs_bs1 (v : S16x16384.Idx → EReal) (b : Fin 16) (s : Fin 16384) (u : Fin 1) :
    broadcastInDim S16x16384x1 ![0, 1] bcast_S16x16384_S16x16384x1_0_1 v (ix3 b s u) = v (ix2 b s) :=
  broadcastInDim_apply _ _ v _ _ fun a => match a with | ⟨0, _⟩ => rfl | ⟨1, _⟩ => rfl

theorem bc_bs1_bsk (v : S16x16384x1.Idx → EReal) (b : Fin 16) (s : Fin 16384) (k : Fin 64) :
    broadcastInDim S16x16384x64 ![0, 1, 2] bcast_S16x16384x1_S16x16384x64_0_1_2 v (ix3 b s k) = v (ix3 b s (0 : Fin 1)) :=
  broadcastInDim_apply _ _ v _ _ fun a => match a with | ⟨0, _⟩ => rfl | ⟨1, _⟩ => rfl | ⟨2, _⟩ => rfl

theorem bc_k_11k (v : S64.Idx → EReal) (u u' : Fin 1) (k : Fin 64) :
    broadcastInDim S1x1x64 ![2] bcast_S64_S1x1x64_2 v (ix3 u u' k) = v (ix1 k) :=
  broadcastInDim_apply _ _ v _ _ fun a => match a with | ⟨0, _⟩ => rfl

theorem bc_11k_bsk (v : S1x1x64.Idx → EReal) (b : Fin 16) (s : Fin 16384) (k : Fin 64) :
    broadcastInDim S16x16384x64 ![0, 1, 2] bcast_S1x1x64_S16x16384x64_0_1_2 v (ix3 b s k) = v (ix3 (0 : Fin 1) (0 : Fin 1) k) :=
  broadcastInDim_apply _ _ v _ _ fun a => match a with | ⟨0, _⟩ => rfl | ⟨1, _⟩ => rfl | ⟨2, _⟩ => rfl

theorem bc_bk_bk1 (v : S16x64.Idx → EReal) (b : Fin 16) (k : Fin 64) (u : Fin 1) :
    broadcastInDim S16x64x1 ![0, 1] bcast_S16x64_S16x64x1_0_1 v (ix3 b k u) = v (ix2 b k) :=
  broadcastInDim_apply _ _ v _ _ fun a => match a with | ⟨0, _⟩ => rfl | ⟨1, _⟩ => rfl

theorem bc_kc_1kc (v : S64x128.Idx → EReal) (u : Fin 1) (k : Fin 64) (c : Fin 128) :
    broadcastInDim S1x64x128 ![1, 2] bcast_S64x128_S1x64x128_1_2 v (ix3 u k c) = v (ix2 k c) :=
  broadcastInDim_apply _ _ v _ _ fun a => match a with | ⟨0, _⟩ => rfl | ⟨1, _⟩ => rfl

theorem bc_bk1_bkc (v : S16x64x1.Idx → EReal) (b : Fin 16) (k : Fin 64) (c : Fin 128) :
    broadcastInDim S16x64x128 ![0, 1, 2] bcast_S16x64x1_S16x64x128_0_1_2 v (ix3 b k c) = v (ix3 b k (0 : Fin 1)) :=
  broadcastInDim_apply _ _ v _ _ fun a => match a with | ⟨0, _⟩ => rfl | ⟨1, _⟩ => rfl | ⟨2, _⟩ => rfl

theorem bc_1kc_bkc (v : S1x64x128.Idx → EReal) (b : Fin 16) (k : Fin 64) (c : Fin 128) :
    broadcastInDim S16x64x128 ![0, 1, 2] bcast_S1x64x128_S16x64x128_0_1_2 v (ix3 b k c) = v (ix3 (0 : Fin 1) k c) :=
  broadcastInDim_apply _ _ v _ _ fun a => match a with | ⟨0, _⟩ => rfl | ⟨1, _⟩ => rfl | ⟨2, _⟩ => rfl

/-! ## The reductions -/

theorem reduces_bsc_2 : S16x16384x128.Reduces [2] S16x16384 := by decide
theorem reduces_kc_1 : S64x128.Reduces [1] S64 := by decide
theorem reduces_bsk_2 : S16x16384x64.Reduces [2] S16x16384 := by decide
theorem reduces_bsk_1 : S16x16384x64.Reduces [1] S16x64 := by decide

/-- The sum over the channels of a `[16, 16384, 128]` array, from the literal `w`. -/
theorem sum_bsc_2 (v : FVec Ideal S16x16384x128 .f32) (w : BitVec 32) (b : Fin 16) (s : Fin 16384) :
    Host.reduceAdd (F := Ideal) v (constant (F := Ideal) S_ .f32 w) reducesTo_S16x16384x128_S16x16384_d2 h_S_ (ix2 b s)
      = Ideal.ofBits .f32 w + ∑ c : Fin 128, v (ix3 b s c) := by
  refine (Ideal.hostReduceAdd_single reducesTo_S16x16384x128_S16x16384_d2 reduces_bsc_2 v _ (ix2 b s)).trans ?_
  refine congrArg (Ideal.ofBits .f32 w + ·) (Finset.sum_congr rfl fun c _ => congrArg v ?_)
  exact funext fun a => Fin.ext <| match a with | ⟨0, _⟩ => rfl | ⟨1, _⟩ => rfl | ⟨2, _⟩ => rfl

/-- The sum over the channels of a `[64, 128]` array, from the literal `w`. -/
theorem sum_kc_1 (v : FVec Ideal S64x128 .f32) (w : BitVec 32) (k : Fin 64) :
    Host.reduceAdd (F := Ideal) v (constant (F := Ideal) S_ .f32 w) reducesTo_S64x128_S64_d1 h_S_ (ix1 k)
      = Ideal.ofBits .f32 w + ∑ c : Fin 128, v (ix2 k c) := by
  refine (Ideal.hostReduceAdd_single reducesTo_S64x128_S64_d1 reduces_kc_1 v _ (ix1 k)).trans ?_
  refine congrArg (Ideal.ofBits .f32 w + ·) (Finset.sum_congr rfl fun c _ => congrArg v ?_)
  exact funext fun a => Fin.ext <| match a with | ⟨0, _⟩ => rfl | ⟨1, _⟩ => rfl

/-- The sum over the codewords of a `[16, 16384, 64]` array, from the literal `w`. -/
theorem sum_bsk_2 (v : FVec Ideal S16x16384x64 .f32) (w : BitVec 32) (b : Fin 16) (s : Fin 16384) :
    Host.reduceAdd (F := Ideal) v (constant (F := Ideal) S_ .f32 w) reducesTo_S16x16384x64_S16x16384_d2 h_S_ (ix2 b s)
      = Ideal.ofBits .f32 w + ∑ k : Fin 64, v (ix3 b s k) := by
  refine (Ideal.hostReduceAdd_single reducesTo_S16x16384x64_S16x16384_d2 reduces_bsk_2 v _ (ix2 b s)).trans ?_
  refine congrArg (Ideal.ofBits .f32 w + ·) (Finset.sum_congr rfl fun k _ => congrArg v ?_)
  exact funext fun a => Fin.ext <| match a with | ⟨0, _⟩ => rfl | ⟨1, _⟩ => rfl | ⟨2, _⟩ => rfl

/-- The sum over the positions of a `[16, 16384, 64]` array, from the literal `w`. -/
theorem sum_bsk_1 (v : FVec Ideal S16x16384x64 .f32) (w : BitVec 32) (b : Fin 16) (k : Fin 64) :
    Host.reduceAdd (F := Ideal) v (constant (F := Ideal) S_ .f32 w) reducesTo_S16x16384x64_S16x64_d1 h_S_ (ix2 b k)
      = Ideal.ofBits .f32 w + ∑ s : Fin 16384, v (ix3 b s k) := by
  refine (Ideal.hostReduceAdd_single reducesTo_S16x16384x64_S16x64_d1 reduces_bsk_1 v _ (ix2 b k)).trans ?_
  refine congrArg (Ideal.ofBits .f32 w + ·) (Finset.sum_congr rfl fun s _ => congrArg v ?_)
  exact funext fun a => Fin.ext <| match a with | ⟨0, _⟩ => rfl | ⟨1, _⟩ => rfl | ⟨2, _⟩ => rfl

/-- The maximum over the codewords of a `[16, 16384, 64]` array, folded from the literal `w`. -/
theorem max_bsk_2 (v : FVec Ideal S16x16384x64 .f32) (w : BitVec 32) (b : Fin 16) (s : Fin 16384) :
    Host.reduce FloatOps.maximumf v (constant (F := Ideal) S_ .f32 w) reducesTo_S16x16384x64_S16x16384_d2 h_S_ (ix2 b s)
      = (Finset.univ : Finset (Fin 64)).fold max (Ideal.ofBits .f32 w) (fun k => v (ix3 b s k)) := by
  refine (Host.reduce_eq_fold_single FloatOps.maximumf v _ reducesTo_S16x16384x64_S16x16384_d2 reduces_bsk_2 h_S_ (ix2 b s)).trans ?_
  have hf : (v ∘ reduces_bsk_2.lift (ix2 b s)) = fun k : Fin 64 => v (ix3 b s k) :=
    funext fun k => congrArg v (funext fun a => Fin.ext <| match a with | ⟨0, _⟩ => rfl | ⟨1, _⟩ => rfl | ⟨2, _⟩ => rfl)
  exact congrArg (fun f => Finset.fold max (Ideal.ofBits .f32 w) f (Finset.univ : Finset (Fin 64))) hf

/-! ## The stages of the reference's term -/

/-- `x` with the unit axis dropped and the channels last. -/
def xT (x : (⟨S16x128x1x16384, .f32⟩ : BufTy).Contents (Elt Ideal)) : FVec Ideal S16x16384x128 .f32 :=
  transpose S16x16384x128 [0, 2, 1]
    (shapeCast S16x128x16384 x shapeCasts_S16x128x1x16384_S16x128x16384) transposes_S16x128x16384_S16x16384x128_0_2_1

/-- The squared norms of the positions' channel vectors. -/
def sqNorm (xt : FVec Ideal S16x16384x128 .f32) : FVec Ideal S16x16384 .f32 :=
  Host.reduceAdd (F := Ideal) (mulf xt xt) (constant (F := Ideal) S_ .f32 0x00000000#32) reducesTo_S16x16384x128_S16x16384_d2 h_S_

/-- The squared norms of the codewords. -/
def cwNorm (cw : FVec Ideal S64x128 .f32) : FVec Ideal S64 .f32 :=
  Host.reduceAdd (F := Ideal) (mulf cw cw) (constant (F := Ideal) S_ .f32 0x00000000#32) reducesTo_S64x128_S64_d1 h_S_

/-- The inner products of positions and codewords. -/
def cross (xt : FVec Ideal S16x16384x128 .f32) (cw : FVec Ideal S64x128 .f32) : FVec Ideal S16x16384x64 .f32 :=
  Host.dotGeneral (F := Ideal) dot_S16x16384x128_S64x128_S16x16384x64_2_1_01_0_n_n none xt cw

/-- The logits. -/
def logit (xt : FVec Ideal S16x16384x128 .f32) (cw : FVec Ideal S64x128 .f32) (sm : FVec Ideal S64 .f32) : FVec Ideal S16x16384x64 .f32 :=
  mulf
    ((broadcastInDim S16x16384x64 ![0, 1, 2] bcast_S1x1x64_S16x16384x64_0_1_2) ((broadcastInDim S1x1x64 ![2] bcast_S64_S1x1x64_2) sm))
    (addf
      (subf
        ((broadcastInDim S16x16384x64 ![0, 1, 2] bcast_S16x16384x1_S16x16384x64_0_1_2)
          ((broadcastInDim S16x16384x1 ![0, 1] bcast_S16x16384_S16x16384x1_0_1) (sqNorm xt)))
        (mulf ((broadcastInDim S16x16384x64 ![] bcast_S_S16x16384x64) (constant (F := Ideal) S_ .f32 0x40000000#32)) (cross xt cw)))
      ((broadcastInDim S16x16384x64 ![0, 1, 2] bcast_S1x1x64_S16x16384x64_0_1_2) ((broadcastInDim S1x1x64 ![2] bcast_S64_S1x1x64_2) (cwNorm cw))))

/-- The maximum of a position's logits, taken once more against the starting literal. -/
def rowMax (z : FVec Ideal S16x16384x64 .f32) : FVec Ideal S16x16384 .f32 :=
  maximumf ((broadcastInDim S16x16384 ![] bcast_S_S16x16384) (constant (F := Ideal) S_ .f32 0xFF800000#32))
    (Host.reduce FloatOps.maximumf z (constant (F := Ideal) S_ .f32 0xFF800000#32) reducesTo_S16x16384x64_S16x16384_d2 h_S_)

/-- The exponentials of the logits less their position's maximum. -/
def expo (z : FVec Ideal S16x16384x64 .f32) : FVec Ideal S16x16384x64 .f32 :=
  Host.exp (subf z
    ((broadcastInDim S16x16384x64 ![0, 1, 2] bcast_S16x16384x1_S16x16384x64_0_1_2)
      ((broadcastInDim S16x16384x1 ![0, 1] bcast_S16x16384_S16x16384x1_0_1) (rowMax z))))

/-- The soft assignment. -/
def assign (z : FVec Ideal S16x16384x64 .f32) : FVec Ideal S16x16384x64 .f32 :=
  Host.divf (expo z)
    ((broadcastInDim S16x16384x64 ![0, 1, 2] bcast_S16x16384x1_S16x16384x64_0_1_2)
      ((broadcastInDim S16x16384x1 ![0, 1] bcast_S16x16384_S16x16384x1_0_1)
        (Host.reduceAdd (F := Ideal) (expo z) (constant (F := Ideal) S_ .f32 0x00000000#32) reducesTo_S16x16384x64_S16x16384_d2 h_S_)))

/-- The residual sums from an assignment. -/
def resid (a : FVec Ideal S16x16384x64 .f32) (xt : FVec Ideal S16x16384x128 .f32) (cw : FVec Ideal S64x128 .f32) : FVec Ideal S16x64x128 .f32 :=
  subf (Host.dotGeneral (F := Ideal) dot_S16x16384x64_S16x16384x128_S16x64x128_1_1_2_2_0_0 none a xt)
    (mulf
      ((broadcastInDim S16x64x128 ![0, 1, 2] bcast_S16x64x1_S16x64x128_0_1_2)
        ((broadcastInDim S16x64x1 ![0, 1] bcast_S16x64_S16x64x1_0_1)
          (Host.reduceAdd (F := Ideal) a (constant (F := Ideal) S_ .f32 0x00000000#32) reducesTo_S16x16384x64_S16x64_d1 h_S_)))
      ((broadcastInDim S16x64x128 ![0, 1, 2] bcast_S1x64x128_S16x64x128_0_1_2) ((broadcastInDim S1x64x128 ![1, 2] bcast_S64x128_S1x64x128_1_2) cw)))

/-- The reference's term is the stages composed. -/
theorem encode_eq (x : (⟨S16x128x1x16384, .f32⟩ : BufTy).Contents (Elt Ideal)) (cw : (⟨S64x128, .f32⟩ : BufTy).Contents (Elt Ideal))
    (sm : (⟨S64, .f32⟩ : BufTy).Contents (Elt Ideal)) :
    Terms.encode (F := Ideal) x cw sm = resid (assign (logit (xT x) cw sm)) (xT x) cw := rfl

/-! ## The stages at an index -/

theorem xT_ix (x : (⟨S16x128x1x16384, .f32⟩ : BufTy).Contents (Elt Ideal)) (b : Fin 16) (s : Fin 16384) (c : Fin 128) :
    xT x (ix3 b s c) = x (ix4 b c (0 : Fin 1) s) := xT_apply x b s c

theorem sqNorm_apply (xt : FVec Ideal S16x16384x128 .f32) (b : Fin 16) (s : Fin 16384) :
    sqNorm xt (ix2 b s) = 0 + ∑ c : Fin 128, xt (ix3 b s c) * xt (ix3 b s c) := by
  unfold sqNorm
  rw [sum_bsc_2, Ideal.ofBits_zero_f32]
  rfl

theorem cwNorm_apply (cw : FVec Ideal S64x128 .f32) (k : Fin 64) :
    cwNorm cw (ix1 k) = 0 + ∑ c : Fin 128, cw (ix2 k c) * cw (ix2 k c) := by
  unfold cwNorm
  rw [sum_kc_1, Ideal.ofBits_zero_f32]
  rfl

theorem cross_apply (xt : FVec Ideal S16x16384x128 .f32) (cw : FVec Ideal S64x128 .f32) (b : Fin 16) (s : Fin 16384) (k : Fin 64) :
    cross xt cw (ix3 b s k) = ∑ c : Fin 128, xt (ix3 b s c) * cw (ix2 k c) := by
  unfold cross
  exact dotA_apply xt cw b s k

theorem logit_apply (xt : FVec Ideal S16x16384x128 .f32) (cw : FVec Ideal S64x128 .f32) (sm : FVec Ideal S64 .f32)
    (b : Fin 16) (s : Fin 16384) (k : Fin 64) :
    logit xt cw sm (ix3 b s k)
      = sm (ix1 k) * ((sqNorm xt (ix2 b s) - Cert.Spec.two * cross xt cw (ix3 b s k)) + cwNorm cw (ix1 k)) := by
  unfold logit
  rw [mulf_apply, addf_apply, subf_apply, mulf_apply, bc_11k_bsk, bc_k_11k, bc_bs1_bsk, bc_bs_bs1, bc_scalar_3, constant_apply,
    bc_11k_bsk, bc_k_11k]
  rfl

theorem rowMax_apply (z : FVec Ideal S16x16384x64 .f32) (b : Fin 16) (s : Fin 16384) :
    rowMax z (ix2 b s) = max Cert.Spec.negInf (Cert.Spec.foldMax fun k => z (ix3 b s k)) := by
  unfold rowMax
  rw [maximumf_apply, bc_scalar_2, constant_apply, max_bsk_2]
  rfl

theorem expo_apply (z : FVec Ideal S16x16384x64 .f32) (b : Fin 16) (s : Fin 16384) (k : Fin 64) :
    expo z (ix3 b s k) = Ideal.exp (z (ix3 b s k) - rowMax z (ix2 b s)) := by
  unfold expo
  show Ideal.exp (subf z _ (ix3 b s k)) = _
  rw [subf_apply, bc_bs1_bsk, bc_bs_bs1]

theorem assign_apply (z : FVec Ideal S16x16384x64 .f32) (b : Fin 16) (s : Fin 16384) (k : Fin 64) :
    assign z (ix3 b s k) = Cert.Spec.assignR (fun b s k => z (ix3 b s k)) b s k := by
  unfold assign
  rw [hostDivf_apply, bc_bs1_bsk, bc_bs_bs1, sum_bsk_2, Ideal.ofBits_zero_f32]
  simp only [expo_apply, rowMax_apply]
  rfl

theorem resid_apply (a : FVec Ideal S16x16384x64 .f32) (xt : FVec Ideal S16x16384x128 .f32) (cw : FVec Ideal S64x128 .f32)
    (b : Fin 16) (k : Fin 64) (c : Fin 128) :
    resid a xt cw (ix3 b k c)
      = (∑ s : Fin 16384, a (ix3 b s k) * xt (ix3 b s c)) - (0 + ∑ s : Fin 16384, a (ix3 b s k)) * cw (ix2 k c) := by
  unfold resid
  rw [subf_apply, mulf_apply, dotB_apply, bc_bk1_bkc, bc_bk_bk1, sum_bsk_1, bc_1kc_bkc, bc_kc_1kc, Ideal.ofBits_zero_f32]

/-! ## The reference's term is the specification's `eR` -/

theorem logit_eq_logitR (x : (⟨S16x128x1x16384, .f32⟩ : BufTy).Contents (Elt Ideal)) (cw : (⟨S64x128, .f32⟩ : BufTy).Contents (Elt Ideal))
    (sm : (⟨S64, .f32⟩ : BufTy).Contents (Elt Ideal)) (b : Fin 16) (s : Fin 16384) (k : Fin 64) :
    logit (xT x) cw sm (ix3 b s k)
      = Cert.Spec.logitR (fun b c s => x (ix4 b c (0 : Fin 1) s)) (fun k c => cw (ix2 k c)) (fun k => sm (ix1 k)) b s k := by
  rw [logit_apply, sqNorm_apply, cross_apply, cwNorm_apply]
  simp only [xT_ix]
  rfl

theorem assign_eq_assignR (x : (⟨S16x128x1x16384, .f32⟩ : BufTy).Contents (Elt Ideal)) (cw : (⟨S64x128, .f32⟩ : BufTy).Contents (Elt Ideal))
    (sm : (⟨S64, .f32⟩ : BufTy).Contents (Elt Ideal)) (b : Fin 16) (s : Fin 16384) (k : Fin 64) :
    assign (logit (xT x) cw sm) (ix3 b s k)
      = Cert.Spec.assignR (Cert.Spec.logitR (fun b c s => x (ix4 b c (0 : Fin 1) s)) (fun k c => cw (ix2 k c)) (fun k => sm (ix1 k))) b s k := by
  rw [assign_apply]
  exact congrArg (fun z : Cert.Spec.Logits => Cert.Spec.assignR z b s k)
    (funext fun b => funext fun s => funext fun k => logit_eq_logitR x cw sm b s k)

theorem encode_apply (x : (⟨S16x128x1x16384, .f32⟩ : BufTy).Contents (Elt Ideal)) (cw : (⟨S64x128, .f32⟩ : BufTy).Contents (Elt Ideal))
    (sm : (⟨S64, .f32⟩ : BufTy).Contents (Elt Ideal)) (b : Fin 16) (k : Fin 64) (c : Fin 128) :
    Terms.encode (F := Ideal) x cw sm (ix3 b k c)
      = Cert.Spec.eR (fun b c s => x (ix4 b c 0 s)) (fun k c => cw (ix2 k c)) (fun k => sm (ix1 k)) b k c := by
  rw [encode_eq, resid_apply]
  simp only [assign_eq_assignR, xT_ix]
  rfl

end Cert.ReferenceIdeal.Read

end
-- ==== Proof.Algebra.lean ====
/-
  The two forms of the encoded residual sums agree on the extended reals.

  Three facts. (1) The three float literals denote `2`, `−2` and `−∞ = ⊥`. (2) With every input entry a real
  number, the two logits agree: both are coercions of real expressions, and
  `sm·‖x‖² + ∑ c, ((−2·sm)·cw)·x + sm·‖cw‖² = sm·((‖x‖² − 2·⟨x, cw⟩) + ‖cw‖²)` holds in `ℝ`. Finiteness is needed
  here and only here: multiplication does not distribute over addition at the infinities of `EReal`. (3) The rest
  is re-indexing in the additive commutative monoid `EReal`: `max ⊥ y = y`, `0 + y = y`, the accumulator after
  eight chunks is the sum of the eight chunk contributions, and `(j, q) ↦ j·2048 + q` is a bijection from
  `Fin 8 × Fin 2048` onto `Fin 16384`, so a sum over positions is the sum over chunks of the sums over lanes.
-/
import proofs.«404385_j35433480192595_3_alg».proof.Proof.Spec
import Mathlib.Data.EReal.Basic
import Mathlib.Data.EReal.Operations
import Mathlib.Algebra.BigOperators.Fin
import Mathlib.Algebra.BigOperators.Ring.Finset

noncomputable section

namespace Cert.Spec

open Idealize.ShloMosaic

/-! ## The literals -/

/-- `0xFF800000` is `−∞`. -/
theorem negInf_eq : negInf = ⊥ := by
  simp [negInf, Ideal.ofBits, Ideal.ieee]

/-- `0x40000000` is `2`. -/
theorem two_eq : two = ((2 : ℝ) : EReal) := by
  simp [two, Ideal.ofBits, Ideal.ieee, -EReal.coe_mul]; norm_num

/-- `0xC0000000` is `−2`. -/
theorem negTwo_eq : negTwo = ((-2 : ℝ) : EReal) := by
  simp [negTwo, Ideal.ofBits, Ideal.ieee, -EReal.coe_mul]; norm_num

/-! ## The softmax: `max ⊥ y = y` and `0 + y = y` -/

/-- Taking the maximum once more against `−∞` changes nothing. -/
theorem max_negInf (y : EReal) : max negInf y = y := by
  rw [negInf_eq]; exact max_eq_right bot_le

theorem assignR_eq_assignK (z : Logits) : assignR z = assignK z := by
  funext b s k
  simp only [assignR, assignK, max_negInf, zero_add]

/-! ## The logits, at real inputs -/

/-- The coercion `ℝ → EReal` commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity in `ℝ`: distributing the factor `sm` through `(‖x‖² − 2·⟨x, cw⟩) + ‖cw‖²`. -/
theorem logit_real (sm : ℝ) (x cw : Fin 128 → ℝ) :
    (sm * (∑ c, x c * x c) + ∑ c, ((-2) * sm) * cw c * x c) + sm * (∑ c, cw c * cw c)
      = sm * (((∑ c, x c * x c) - 2 * ∑ c, x c * cw c) + ∑ c, cw c * cw c) := by
  have h1 : (∑ c, ((-2) * sm) * cw c * x c) = (-2) * sm * ∑ c, x c * cw c := by
    rw [Finset.mul_sum]
    exact Finset.sum_congr rfl (fun c _ => by ring)
  rw [h1]; ring

theorem logitK_eq_logitR (x : XArr) (cw : CwArr) (sm : SmArr) (h : FiniteIn x cw sm) :
    logitK x cw sm = logitR x cw sm := by
  obtain ⟨hx, hcw, hsm⟩ := h
  choose xr hxr using hx
  choose cwr hcwr using hcw
  choose smr hsmr using hsm
  funext b s k
  have key := congrArg (fun r : ℝ => (r : EReal)) (logit_real (smr k) (fun c => xr b c s) (fun c => cwr k c))
  simp only [EReal.coe_add, EReal.coe_mul, EReal.coe_sub, coe_finset_sum] at key
  simp only [logitK, logitR, sqNormK, sqNormR, cwNormR, crossR, cwScaled, smCwNorm, two_eq, negTwo_eq,
    zero_add, hxr, hcwr, hsmr]
  exact key

/-! ## The accumulators -/

/-- The assignment-mass accumulator after eight chunks is the sum of the eight contributions. -/
theorem accA_eq_sum (a : Logits) (b : Fin 16) (k : Fin 64) :
    accA a b k 8 = ∑ j : Fin 8, partA a b j k := by
  have h : ∀ n, accA a b k n
      = ∑ j ∈ Finset.range n, (if h : j < 8 then partA a b ⟨j, h⟩ k else 0) := by
    intro n
    induction n with
    | zero => simp [accA]
    | succ n ih => rw [accA, ih, Finset.sum_range_succ]
  rw [h 8, ← Fin.sum_univ_eq_sum_range (fun j => if h : j < 8 then partA a b ⟨j, h⟩ k else 0) 8]
  exact Finset.sum_congr rfl (fun j _ => by simp [j.2])

/-- The weighted-sum accumulator after eight chunks is the sum of the eight contributions. -/
theorem accAX_eq_sum (a : Logits) (x : XArr) (b : Fin 16) (k : Fin 64) (c : Fin 128) :
    accAX a x b k c 8 = ∑ j : Fin 8, partAX a x b j k c := by
  have h : ∀ n, accAX a x b k c n
      = ∑ j ∈ Finset.range n, (if h : j < 8 then partAX a x b ⟨j, h⟩ k c else 0) := by
    intro n
    induction n with
    | zero => simp [accAX]
    | succ n ih => rw [accAX, ih, Finset.sum_range_succ]
  rw [h 8, ← Fin.sum_univ_eq_sum_range (fun j => if h : j < 8 then partAX a x b ⟨j, h⟩ k c else 0) 8]
  exact Finset.sum_congr rfl (fun j _ => by simp [j.2])

/-! ## Chunks and lanes -/

/-- `(j, q) ↦ j·2048 + q` is a bijection of `Fin 8 × Fin 2048` onto `Fin 16384`; the inverse is quotient and
    remainder by `2048`. -/
def posEquiv : Fin 8 × Fin 2048 ≃ Fin 16384 where
  toFun p := pos p.1 p.2
  invFun s := (⟨s.val / 2048, by omega⟩, ⟨s.val % 2048, by omega⟩)
  left_inv p := by
    obtain ⟨j, q⟩ := p
    ext
    · simp only [pos]; omega
    · simp only [pos]; omega
  right_inv s := by
    ext
    simp only [pos]; omega

/-- A sum over the positions is the sum over the chunks of the sums over the lanes. -/
theorem sum_pos {M : Type*} [AddCommMonoid M] (f : Fin 16384 → M) :
    ∑ s, f s = ∑ j : Fin 8, ∑ q : Fin 2048, f (pos j q) :=
  calc ∑ s, f s = ∑ p : Fin 8 × Fin 2048, f (posEquiv p) := (Equiv.sum_comp posEquiv f).symm
    _ = ∑ j : Fin 8, ∑ q : Fin 2048, f (pos j q) := Fintype.sum_prod_type _

/-- The kernel's encoding, from any assignment, is the reference's. -/
theorem encodeK_eq_encodeR (a : Logits) (x : XArr) (cw : CwArr) (b : Fin 16) (k : Fin 64) (c : Fin 128) :
    accAX a x b k c 8 - accA a b k 8 * cw k c = encodeR a x cw b k c := by
  rw [encodeR, accAX_eq_sum, accA_eq_sum, zero_add, sum_pos (fun s => a b s k * x b c s),
    sum_pos (fun s => a b s k)]
  rfl

/-! ## The result -/

theorem eK_eq_eR (x : XArr) (cw : CwArr) (sm : SmArr) (h : FiniteIn x cw sm) :
    eK x cw sm = eR x cw sm := by
  funext b k c
  rw [eR, ← logitK_eq_logitR x cw sm h, assignR_eq_assignK, ← encodeK_eq_encodeR]
  rfl

end Cert.Spec

end
-- ==== Proof.KernelValue.lean ====
/-
  The idealized kernel program's run, read as a value: its result array ends at `x` times the gate, the gate computed
  from the residual sums `e` the first kernel leaves, and that is the reference's own term of the same inputs.

  The first kernel's array is `e` in the kernel's form (chunked accumulation, the smoothing factor distributed over
  the squared distance); under finite inputs that is the reference's `e`. The host chain between the kernels is the
  reference's, but for a reciprocal square root in place of a division by the square root, equal because the variance
  plus epsilon is positive. The second kernel multiplies `x` by the gate column, as the reference's last line does.
-/
import proofs.«404385_j35433480192595_3_alg».proof.Proof.KernelRun
import proofs.«404385_j35433480192595_3_alg».proof.Proof.HostValue
import proofs.«404385_j35433480192595_3_alg».proof.Proof.ScaleValue
import proofs.«404385_j35433480192595_3_alg».proof.Proof.EncPieces
import proofs.«404385_j35433480192595_3_alg».proof.Proof.EncArray
import proofs.«404385_j35433480192595_3_alg».proof.Proof.EncRead
import proofs.«404385_j35433480192595_3_alg».proof.Proof.PrepRead
import proofs.«404385_j35433480192595_3_alg».proof.Proof.GateEq
import proofs.«404385_j35433480192595_3_alg».proof.Proof.FinalRead
import proofs.«404385_j35433480192595_3_alg».proof.Proof.RefRead
import proofs.«404385_j35433480192595_3_alg».proof.Proof.Algebra

set_option maxRecDepth 16384

noncomputable section

namespace Cert.KernelIdeal.Value

open Idealize.ShloMosaic Idealize.ShloMosaic.TcCoe Idealize.SL.Sem Idealize.ShloMosaic.ValueIdx
open Cert.KernelIdeal Cert.KernelIdeal.Gen Cert.KernelIdeal.HostValue Cert.KernelIdeal.EncValue

variable (m : (ℓ : Loc nD τ sig) → Buf (Elt Ideal) ℓ) (ρ : Dev nD → PrngReg)

/-- The launch contents of the three arrays the encoding reads, and their coordinate forms. -/
abbrev xA (c : Dev nD) : Vec Ideal S16x128x1x16384 .f32 := m ((c : Thread nD τ).loc main_arg0)
abbrev cwA (c : Dev nD) : Vec Ideal S64x128 .f32 := m ((c : Thread nD τ).loc main_arg1)
abbrev smA (c : Dev nD) : Vec Ideal S64 .f32 := m ((c : Thread nD τ).loc main_arg2)
abbrev CW (c : Dev nD) : Cert.Spec.CwArr := fun k ch => cwA m c (ix2 k ch)
abbrev SM (c : Dev nD) : Cert.Spec.SmArr := fun k => smA m c (ix1 k)

/-- After the first kernel its result array holds `e` in the kernel's form. -/
theorem e_array (c : Dev nD) :
    W2 m ρ c (Proc.devRef .tc main_call0_v9) = eArr (xA m c) (CW m c) (SM m c) := by
  refine (W2_arr m ρ c 5).trans ?_
  have h := e_value_of (V1 m ρ)
    (fun c i a1 h1 a2 h2 a3 h3 a4 h4 a5 h5 a6 h6 a7 h7 a8 h8 x0 x1 x2 x3 x4 =>
      out_eq c i a1 h1 a2 h2 a3 h3 a4 h4 a5 h5 a6 h6 a7 h7 a8 h8 x0 x1 x2 x3 x4)
    (fun x0 x1 x2 x3 x4 X CW SM b h0 h1 h2 h3 h4 k c => encBlock_apply x0 x1 x2 x3 x4 X CW SM b h0 h1 h2 h3 h4 k c) c (CW m c) (SM m c)
    (fun k ch => congrFun (V1_arg1 m ρ c) (ix2 k ch))
    (fun k ch => (congrFun (V1_cwScaled m ρ c) (ix2 k ch)).trans (Cert.KernelIdeal.PrepRead.cwScaled_apply (cwA m c) (smA m c) k ch))
    (fun k => (congrFun (V1_smCwNorm m ρ c) (ix2 k 0)).trans (Cert.KernelIdeal.PrepRead.smCwNorm_apply (cwA m c) (smA m c) k))
    (fun k => (congrFun (V1_smCol m ρ c) (ix2 k 0)).trans (Cert.KernelIdeal.PrepRead.smCol_apply (smA m c) k))
  rw [V1_arg0] at h
  exact h

/-- Under finite inputs the kernel's form of `e` is the reference's `e` of the same arrays. -/
theorem e_eq (c : Dev nD) (hfin : Cert.Spec.FiniteIn (xOf (xA m c)) (CW m c) (SM m c)) :
    eArr (xA m c) (CW m c) (SM m c) = Cert.ReferenceIdeal.Terms.encode (F := Ideal) (xA m c) (cwA m c) (smA m c) := by
  funext j
  obtain ⟨b, k, ch, rfl⟩ : ∃ (b : Fin 16) (k : Fin 64) (ch : Fin 128), j = ix3 b k ch := ⟨j 0, j 1, j 2, eq_ix3 j⟩
  exact (congrFun (congrFun (congrFun (Cert.Spec.eK_eq_eR _ _ _ hfin) b) k) ch).trans
    (Cert.ReferenceIdeal.Read.encode_apply (xA m c) (cwA m c) (smA m c) b k ch).symm

/-- The result array after the run is the reference's term of the launch contents. -/
theorem result_eq (c : Dev nD) (hfin : Cert.Spec.FiniteIn (xOf (xA m c)) (CW m c) (SM m c)) :
    W4 m ρ c (Proc.devRef .tc main_v0)
      = Cert.ReferenceIdeal.Terms.out (F := Ideal) (xA m c) (cwA m c) (smA m c) (m ((c : Thread nD τ).loc main_arg3))
          (m ((c : Thread nD τ).loc main_arg4)) (m ((c : Thread nD τ).loc main_arg5)) (m ((c : Thread nD τ).loc main_arg6)) := by
  refine ((W4_arr m ρ c 2).trans (Cert.KernelIdeal.ScaleValue.out_value (V3 m ρ) c)).trans ?_
  rw [V3_arg0, V3_gate, W2_arg3, W2_arg4, W2_arg5, W2_arg6, e_array m ρ c, e_eq m c hfin]
  unfold Cert.KernelIdeal.Terms.scaleCol Cert.ReferenceIdeal.Terms.out
  rw [Cert.GateEq.scale_eq, Cert.FinalRead.gated_eq]

/-- The run: the result at the reference's term, the arguments unchanged. -/
theorem run (hfin : ∀ c : Dev nD, Cert.Spec.FiniteIn (xOf (xA m c)) (CW m c) (SM m c)) :
    θ_run defs (onTc (τ := τ) (main (F := Ideal))) ⟨m, fun _ => 0, ρ⟩ (fun r => ∀ c : Dev nD,
      r.2.mem ((c.tc : Thread nD τ).loc main_v0)
        = Cert.ReferenceIdeal.Terms.out (F := Ideal) (xA m c) (cwA m c) (smA m c) (m ((c : Thread nD τ).loc main_arg3))
            (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_eq m ρ c (hfin c)), (h c).2⟩)
    (Cert.KernelIdeal.GenRun.run m ρ)

end Cert.KernelIdeal.Value

end
-- ==== Proof.RefRun.lean ====
/-
  The reference program's run, read back. Its host function is a straight line of 112 tensor operations once its three
  local functions (the variance with its guarded divisor, the select under it, the rectifier) are unfolded at their calls.
  The line is cut in three: the operations up to the residual sums `e`, those from `e` to the batch-normalised tensor, and
  those from the normalised tensor to the gated output. Each piece, read at its last buffer, is the corresponding
  function of `Terms` applied to what the piece reads; the inputs are written by no operation.
-/
import proofs.«404385_j35433480192595_3_alg».proof.Proof.RefTerms
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The operations from the inputs to the residual sums `e` (%0 … %36). -/
abbrev opsA : List (HloOp τ sig (Elt F)) :=
  [ reshape main_arg0 main_v0 rfl shapeCasts_S16x128x1x16384_S16x128x16384,
    unary main_v0 main_v1 ((transpose S16x16384x128 [0, 2, 1] · transposes_S16x128x16384_S16x16384x128_0_2_1) : (⟨S16x128x16384, .f32⟩ : BufTy).Contents (Elt F) → (⟨S16x16384x128, .f32⟩ : BufTy).Contents (Elt F)),
    binary main_v1 main_v1 main_v2 (mulf : (⟨S16x16384x128, .f32⟩ : BufTy).Contents (Elt F) → (⟨S16x16384x128, .f32⟩ : BufTy).Contents (Elt F) → (⟨S16x16384x128, .f32⟩ : BufTy).Contents (Elt F)),
    nullary main_cst (constant S_ .f32 0x00000000#32),
    binary main_v2 main_cst main_v3 ((fun x v => Host.reduceAdd x v reducesTo_S16x16384x128_S16x16384_d2 h_S_) : (⟨S16x16384x128, .f32⟩ : BufTy).Contents (Elt F) → (⟨S_, .f32⟩ : BufTy).Contents (Elt F) → (⟨S16x16384, .f32⟩ : BufTy).Contents (Elt F)),
    binary main_arg1 main_arg1 main_v4 (mulf : (⟨S64x128, .f32⟩ : BufTy).Contents (Elt F) → (⟨S64x128, .f32⟩ : BufTy).Contents (Elt F) → (⟨S64x128, .f32⟩ : BufTy).Contents (Elt F)),
    nullary main_cst_0 (constant S_ .f32 0x00000000#32),
    binary main_v4 main_cst_0 main_v5 ((fun x v => Host.reduceAdd x v reducesTo_S64x128_S64_d1 h_S_) : (⟨S64x128, .f32⟩ : BufTy).Contents (Elt F) → (⟨S_, .f32⟩ : BufTy).Contents (Elt F) → (⟨S64, .f32⟩ : BufTy).Contents (Elt F)),
    binary main_v1 main_arg1 main_v6 ((fun l r => Host.dotGeneral dot_S16x16384x128_S64x128_S16x16384x64_2_1_01_0_n_n none l r) : (⟨S16x16384x128, .f32⟩ : BufTy).Contents (Elt F) → (⟨S64x128, .f32⟩ : BufTy).Contents (Elt F) → (⟨S16x16384x64, .f32⟩ : BufTy).Contents (Elt F)),
    unary main_v3 main_v7 (broadcastInDim S16x16384x1 ![0, 1] bcast_S16x16384_S16x16384x1_0_1 : (⟨S16x16384, .f32⟩ : BufTy).Contents (Elt F) → (⟨S16x16384x1, .f32⟩ : BufTy).Contents (Elt F)),
    nullary main_cst_1 (constant S_ .f32 0x40000000#32),
    unary main_cst_1 main_v8 (broadcastInDim S16x16384x64 ![] bcast_S_S16x16384x64 : (⟨S_, .f32⟩ : BufTy).Contents (Elt F) → (⟨S16x16384x64, .f32⟩ : BufTy).Contents (Elt F)),
    binary main_v8 main_v6 main_v9 (mulf : (⟨S16x16384x64, .f32⟩ : BufTy).Contents (Elt F) → (⟨S16x16384x64, .f32⟩ : BufTy).Contents (Elt F) → (⟨S16x16384x64, .f32⟩ : BufTy).Contents (Elt F)),
    unary main_v7 main_v10 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v10 main_v9 main_v11 (subf : (⟨S16x16384x64, .f32⟩ : BufTy).Contents (Elt F) → (⟨S16x16384x64, .f32⟩ : BufTy).Contents (Elt F) → (⟨S16x16384x64, .f32⟩ : BufTy).Contents (Elt F)),
    unary main_v5 main_v12 (broadcastInDim S1x1x64 ![2] bcast_S64_S1x1x64_2 : (⟨S64, .f32⟩ : BufTy).Contents (Elt F) → (⟨S1x1x64, .f32⟩ : BufTy).Contents (Elt F)),
    unary main_v12 main_v13 (broadcastInDim S16x16384x64 ![0, 1, 2] bcast_S1x1x64_S16x16384x64_0_1_2 : (⟨S1x1x64, .f32⟩ : BufTy).Contents (Elt F) → (⟨S16x16384x64, .f32⟩ : BufTy).Contents (Elt F)),
    binary main_v11 main_v13 main_v14 (addf : (⟨S16x16384x64, .f32⟩ : BufTy).Contents (Elt F) → (⟨S16x16384x64, .f32⟩ : BufTy).Contents (Elt F) → (⟨S16x16384x64, .f32⟩ : BufTy).Contents (Elt F)),
    unary main_arg2 main_v15 (broadcastInDim S1x1x64 ![2] bcast_S64_S1x1x64_2 : (⟨S64, .f32⟩ : BufTy).Contents (Elt F) → (⟨S1x1x64, .f32⟩ : BufTy).Contents (Elt F)),
    unary main_v15 main_v16 (broadcastInDim S16x16384x64 ![0, 1, 2] bcast_S1x1x64_S16x16384x64_0_1_2 : (⟨S1x1x64, .f32⟩ : BufTy).Contents (Elt F) → (⟨S16x16384x64, .f32⟩ : BufTy).Contents (Elt F)),
    binary main_v16 main_v14 main_v17 (mulf : (⟨S16x16384x64, .f32⟩ : BufTy).Contents (Elt F) → (⟨S16x16384x64, .f32⟩ : BufTy).Contents (Elt F) → (⟨S16x16384x64, .f32⟩ : BufTy).Contents (Elt F)),
    nullary main_cst_2 (constant S_ .f32 0xFF800000#32),
    binary main_v17 main_cst_2 main_v18 ((fun x v => Host.reduce FloatOps.maximumf x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    nullary main_cst_3 (constant S_ .f32 0xFF800000#32),
    unary main_cst_3 main_v19 (broadcastInDim S16x16384 ![] bcast_S_S16x16384 : (⟨S_, .f32⟩ : BufTy).Contents (Elt F) → (⟨S16x16384, .f32⟩ : BufTy).Contents (Elt F)),
    binary main_v19 main_v18 main_v20 (maximumf : (⟨S16x16384, .f32⟩ : BufTy).Contents (Elt F) → (⟨S16x16384, .f32⟩ : BufTy).Contents (Elt F) → (⟨S16x16384, .f32⟩ : BufTy).Contents (Elt F)),
    unary main_v20 main_v21 (broadcastInDim S16x16384x1 ![0, 1] bcast_S16x16384_S16x16384x1_0_1 : (⟨S16x16384, .f32⟩ : BufTy).Contents (Elt F) → (⟨S16x16384x1, .f32⟩ : BufTy).Contents (Elt F)),
    unary main_v21 main_v22 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v17 main_v22 main_v23 (subf : (⟨S16x16384x64, .f32⟩ : BufTy).Contents (Elt F) → (⟨S16x16384x64, .f32⟩ : BufTy).Contents (Elt F) → (⟨S16x16384x64, .f32⟩ : BufTy).Contents (Elt F)),
    unary main_v23 main_v24 (Host.exp : (⟨S16x16384x64, .f32⟩ : BufTy).Contents (Elt F) → (⟨S16x16384x64, .f32⟩ : BufTy).Contents (Elt F)),
    nullary main_cst_4 (constant S_ .f32 0x00000000#32),
    binary main_v24 main_cst_4 main_v25 ((fun x v => Host.reduceAdd x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    unary main_v25 main_v26 (broadcastInDim S16x16384x1 ![0, 1] bcast_S16x16384_S16x16384x1_0_1 : (⟨S16x16384, .f32⟩ : BufTy).Contents (Elt F) → (⟨S16x16384x1, .f32⟩ : BufTy).Contents (Elt F)),
    unary main_v26 main_v27 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v24 main_v27 main_v28 (Host.divf : (⟨S16x16384x64, .f32⟩ : BufTy).Contents (Elt F) → (⟨S16x16384x64, .f32⟩ : BufTy).Contents (Elt F) → (⟨S16x16384x64, .f32⟩ : BufTy).Contents (Elt F)),
    binary main_v28 main_v1 main_v29 ((fun l r => Host.dotGeneral dot_S16x16384x64_S16x16384x128_S16x64x128_1_1_2_2_0_0 none l r) : (⟨S16x16384x64, .f32⟩ : BufTy).Contents (Elt F) → (⟨S16x16384x128, .f32⟩ : BufTy).Contents (Elt F) → (⟨S16x64x128, .f32⟩ : BufTy).Contents (Elt F)),
    nullary main_cst_5 (constant S_ .f32 0x00000000#32),
    binary main_v28 main_cst_5 main_v30 ((fun x v => Host.reduceAdd x v reducesTo_S16x16384x64_S16x64_d1 h_S_) : (⟨S16x16384x64, .f32⟩ : BufTy).Contents (Elt F) → (⟨S_, .f32⟩ : BufTy).Contents (Elt F) → (⟨S16x64, .f32⟩ : BufTy).Contents (Elt F)),
    unary main_v30 main_v31 (broadcastInDim S16x64x1 ![0, 1] bcast_S16x64_S16x64x1_0_1 : (⟨S16x64, .f32⟩ : BufTy).Contents (Elt F) → (⟨S16x64x1, .f32⟩ : BufTy).Contents (Elt F)),
    unary main_arg1 main_v32 (broadcastInDim S1x64x128 ![1, 2] bcast_S64x128_S1x64x128_1_2 : (⟨S64x128, .f32⟩ : BufTy).Contents (Elt F) → (⟨S1x64x128, .f32⟩ : BufTy).Contents (Elt F)),
    unary main_v31 main_v33 (broadcastInDim S16x64x128 ![0, 1, 2] bcast_S16x64x1_S16x64x128_0_1_2 : (⟨S16x64x1, .f32⟩ : BufTy).Contents (Elt F) → (⟨S16x64x128, .f32⟩ : BufTy).Contents (Elt F)),
    unary main_v32 main_v34 (broadcastInDim S16x64x128 ![0, 1, 2] bcast_S1x64x128_S16x64x128_0_1_2 : (⟨S1x64x128, .f32⟩ : BufTy).Contents (Elt F) → (⟨S16x64x128, .f32⟩ : BufTy).Contents (Elt F)),
    binary main_v33 main_v34 main_v35 (mulf : (⟨S16x64x128, .f32⟩ : BufTy).Contents (Elt F) → (⟨S16x64x128, .f32⟩ : BufTy).Contents (Elt F) → (⟨S16x64x128, .f32⟩ : BufTy).Contents (Elt F)),
    binary main_v29 main_v35 main_v36 (subf : (⟨S16x64x128, .f32⟩ : BufTy).Contents (Elt F) → (⟨S16x64x128, .f32⟩ : BufTy).Contents (Elt F) → (⟨S16x64x128, .f32⟩ : BufTy).Contents (Elt F)) ]

/-- The operations from `e` to the normalised tensor (%37 … %48), the variance function and the select under it unfolded
    at their calls over the calls' own buffers. -/
abbrev opsB : List (HloOp τ sig (Elt F)) :=
  [ nullary main_cst_6 (constant S_ .f32 0x00000000#32),
    binary main_v36 main_cst_6 main_v37 ((fun x v => Host.reduceAdd x v reducesTo_S16x64x128_S64_d0_2 h_S_) : (⟨S16x64x128, .f32⟩ : BufTy).Contents (Elt F) → (⟨S_, .f32⟩ : BufTy).Contents (Elt F) → (⟨S64, .f32⟩ : BufTy).Contents (Elt F)),
    unary main_v37 main_v38 (broadcastInDim S1x64x1 ![1] bcast_S64_S1x64x1_1 : (⟨S64, .f32⟩ : BufTy).Contents (Elt F) → (⟨S1x64x1, .f32⟩ : BufTy).Contents (Elt F)),
    nullary main_cst_7 (constant S_ .f32 0x45000000#32),
    unary main_cst_7 main_v39 (broadcastInDim S1x64x1 ![] bcast_S_S1x64x1 : (⟨S_, .f32⟩ : BufTy).Contents (Elt F) → (⟨S1x64x1, .f32⟩ : BufTy).Contents (Elt F)),
    binary main_v38 main_v39 main_v40 (Host.divf : (⟨S1x64x1, .f32⟩ : BufTy).Contents (Elt F) → (⟨S1x64x1, .f32⟩ : BufTy).Contents (Elt F) → (⟨S1x64x1, .f32⟩ : BufTy).Contents (Elt F)),
    nullary main_c (constantI S_ 32 0#32),
    TRef.nullary main_call0.cst (constant S_ .f32 0x00000000#32),
    TRef.binary (.of main_v36 : TRef sig ⟨S16x64x128, .f32⟩) main_call0.cst main_call0.v0 (fun x v => Host.reduceAdd x v reducesTo_S16x64x128_S64_d0_2 h_S_),
    TRef.unary main_call0.v0 main_call0.v1 (broadcastInDim S1x64x1 ![1] bcast_S64_S1x64x1_1),
    TRef.nullary main_call0.cst_0 (constant S_ .f32 0x45000000#32),
    TRef.unary main_call0.cst_0 main_call0.v2 (broadcastInDim S1x64x1 ![] bcast_S_S1x64x1),
    TRef.binary main_call0.v1 main_call0.v2 main_call0.v3 Host.divf,
    TRef.unary main_call0.v3 main_call0.v4 (broadcastInDim S16x64x128 ![0, 1, 2] bcast_S1x64x1_S16x64x128_0_1_2),
    TRef.binary (.of main_v36 : TRef sig ⟨S16x64x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x45000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16x64x128_S64_d0_2 h_S_),
    TRef.unary main_call0.v9 main_call0.v10 (broadcastInDim S1x64x1 ![1] bcast_S64_S1x64x1_1),
    TRef.unary main_call0.v8 main_call0.v11 (broadcastInDim S1x64x1 ![] bcast_S_S1x64x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x64x1 ![] bcast_S_S1x64x1),
    TRef.ternary main_call0.v13 main_call0.v12 main_call0.call0.v1 main_call0.call0.v2 (fun p a b => select (broadcastInDim S1x64x1 ![] bcast_S_S1x64x1 p) a b),
    unary main_v40 main_v42 (broadcastInDim S16x64x128 ![0, 1, 2] bcast_S1x64x1_S16x64x128_0_1_2 : (⟨S1x64x1, .f32⟩ : BufTy).Contents (Elt F) → (⟨S16x64x128, .f32⟩ : BufTy).Contents (Elt F)),
    binary main_v36 main_v42 main_v43 (subf : (⟨S16x64x128, .f32⟩ : BufTy).Contents (Elt F) → (⟨S16x64x128, .f32⟩ : BufTy).Contents (Elt F) → (⟨S16x64x128, .f32⟩ : BufTy).Contents (Elt F)),
    nullary main_cst_8 (constant S_ .f32 0x3727C5AC#32),
    unary main_cst_8 main_v44 (broadcastInDim S1x64x1 ![] bcast_S_S1x64x1 : (⟨S_, .f32⟩ : BufTy).Contents (Elt F) → (⟨S1x64x1, .f32⟩ : BufTy).Contents (Elt F)),
    binary main_v41 main_v44 main_v45 (addf : (⟨S1x64x1, .f32⟩ : BufTy).Contents (Elt F) → (⟨S1x64x1, .f32⟩ : BufTy).Contents (Elt F) → (⟨S1x64x1, .f32⟩ : BufTy).Contents (Elt F)),
    unary main_v45 main_v46 (Host.sqrt : (⟨S1x64x1, .f32⟩ : BufTy).Contents (Elt F) → (⟨S1x64x1, .f32⟩ : BufTy).Contents (Elt F)),
    unary main_v46 main_v47 (broadcastInDim S16x64x128 ![0, 1, 2] bcast_S1x64x1_S16x64x128_0_1_2 : (⟨S1x64x1, .f32⟩ : BufTy).Contents (Elt F) → (⟨S16x64x128, .f32⟩ : BufTy).Contents (Elt F)),
    binary main_v43 main_v47 main_v48 (Host.divf : (⟨S16x64x128, .f32⟩ : BufTy).Contents (Elt F) → (⟨S16x64x128, .f32⟩ : BufTy).Contents (Elt F) → (⟨S16x64x128, .f32⟩ : BufTy).Contents (Elt F)) ]

/-- The operations from the normalised tensor to the output (%49 … %72), the rectifier unfolded at its call. -/
abbrev opsC : List (HloOp τ sig (Elt F)) :=
  [ unary main_arg3 main_v49 (broadcastInDim S1x64x1 ![1] bcast_S64_S1x64x1_1 : (⟨S64, .f32⟩ : BufTy).Contents (Elt F) → (⟨S1x64x1, .f32⟩ : BufTy).Contents (Elt F)),
    unary main_v49 main_v50 (broadcastInDim S16x64x128 ![0, 1, 2] bcast_S1x64x1_S16x64x128_0_1_2 : (⟨S1x64x1, .f32⟩ : BufTy).Contents (Elt F) → (⟨S16x64x128, .f32⟩ : BufTy).Contents (Elt F)),
    binary main_v48 main_v50 main_v51 (mulf : (⟨S16x64x128, .f32⟩ : BufTy).Contents (Elt F) → (⟨S16x64x128, .f32⟩ : BufTy).Contents (Elt F) → (⟨S16x64x128, .f32⟩ : BufTy).Contents (Elt F)),
    unary main_arg4 main_v52 (broadcastInDim S1x64x1 ![1] bcast_S64_S1x64x1_1 : (⟨S64, .f32⟩ : BufTy).Contents (Elt F) → (⟨S1x64x1, .f32⟩ : BufTy).Contents (Elt F)),
    unary main_v52 main_v53 (broadcastInDim S16x64x128 ![0, 1, 2] bcast_S1x64x1_S16x64x128_0_1_2 : (⟨S1x64x1, .f32⟩ : BufTy).Contents (Elt F) → (⟨S16x64x128, .f32⟩ : BufTy).Contents (Elt F)),
    binary main_v51 main_v53 main_v54 (addf : (⟨S16x64x128, .f32⟩ : BufTy).Contents (Elt F) → (⟨S16x64x128, .f32⟩ : BufTy).Contents (Elt F) → (⟨S16x64x128, .f32⟩ : BufTy).Contents (Elt F)),
    TRef.nullary main_call1.cst (constant S_ .f32 0x00000000#32),
    TRef.unary main_call1.cst main_call1.v0 (broadcastInDim S16x64x128 ![] bcast_S_S16x64x128),
    TRef.binary (.of main_v54 : TRef sig ⟨S16x64x128, .f32⟩) main_call1.v0 main_call1.v1 maximumf,
    nullary main_cst_9 (constant S_ .f32 0x00000000#32),
    binary main_v55 main_cst_9 main_v56 ((fun x v => Host.reduceAdd x v reducesTo_S16x64x128_S16x128_d1 h_S_) : (⟨S16x64x128, .f32⟩ : BufTy).Contents (Elt F) → (⟨S_, .f32⟩ : BufTy).Contents (Elt F) → (⟨S16x128, .f32⟩ : BufTy).Contents (Elt F)),
    nullary main_cst_10 (constant S_ .f32 0x42800000#32),
    unary main_cst_10 main_v57 (broadcastInDim S16x128 ![] bcast_S_S16x128 : (⟨S_, .f32⟩ : BufTy).Contents (Elt F) → (⟨S16x128, .f32⟩ : BufTy).Contents (Elt F)),
    binary main_v56 main_v57 main_v58 (Host.divf : (⟨S16x128, .f32⟩ : BufTy).Contents (Elt F) → (⟨S16x128, .f32⟩ : BufTy).Contents (Elt F) → (⟨S16x128, .f32⟩ : BufTy).Contents (Elt F)),
    unary main_arg5 main_v59 ((transpose S128x128 [1, 0] · transposes_S128x128_S128x128_1_0) : (⟨S128x128, .f32⟩ : BufTy).Contents (Elt F) → (⟨S128x128, .f32⟩ : BufTy).Contents (Elt F)),
    binary main_v58 main_v59 main_v60 ((fun l r => Host.dotGeneral dot_S16x128_S128x128_S16x128_1_0_0_1_n_n none l r) : (⟨S16x128, .f32⟩ : BufTy).Contents (Elt F) → (⟨S128x128, .f32⟩ : BufTy).Contents (Elt F) → (⟨S16x128, .f32⟩ : BufTy).Contents (Elt F)),
    unary main_arg6 main_v61 (broadcastInDim S1x128 ![1] bcast_S128_S1x128_1 : (⟨S128, .f32⟩ : BufTy).Contents (Elt F) → (⟨S1x128, .f32⟩ : BufTy).Contents (Elt F)),
    unary main_v61 main_v62 (broadcastInDim S16x128 ![0, 1] bcast_S1x128_S16x128_0_1 : (⟨S1x128, .f32⟩ : BufTy).Contents (Elt F) → (⟨S16x128, .f32⟩ : BufTy).Contents (Elt F)),
    binary main_v60 main_v62 main_v63 (addf : (⟨S16x128, .f32⟩ : BufTy).Contents (Elt F) → (⟨S16x128, .f32⟩ : BufTy).Contents (Elt F) → (⟨S16x128, .f32⟩ : BufTy).Contents (Elt F)),
    unary main_v63 main_v64 (Host.negf : (⟨S16x128, .f32⟩ : BufTy).Contents (Elt F) → (⟨S16x128, .f32⟩ : BufTy).Contents (Elt F)),
    unary main_v64 main_v65 (Host.exp : (⟨S16x128, .f32⟩ : BufTy).Contents (Elt F) → (⟨S16x128, .f32⟩ : BufTy).Contents (Elt F)),
    nullary main_cst_11 (constant S_ .f32 0x3F800000#32),
    unary main_cst_11 main_v66 (broadcastInDim S16x128 ![] bcast_S_S16x128 : (⟨S_, .f32⟩ : BufTy).Contents (Elt F) → (⟨S16x128, .f32⟩ : BufTy).Contents (Elt F)),
    binary main_v66 main_v65 main_v67 (addf : (⟨S16x128, .f32⟩ : BufTy).Contents (Elt F) → (⟨S16x128, .f32⟩ : BufTy).Contents (Elt F) → (⟨S16x128, .f32⟩ : BufTy).Contents (Elt F)),
    nullary main_cst_12 (constant S_ .f32 0x3F800000#32),
    unary main_cst_12 main_v68 (broadcastInDim S16x128 ![] bcast_S_S16x128 : (⟨S_, .f32⟩ : BufTy).Contents (Elt F) → (⟨S16x128, .f32⟩ : BufTy).Contents (Elt F)),
    binary main_v68 main_v67 main_v69 (Host.divf : (⟨S16x128, .f32⟩ : BufTy).Contents (Elt F) → (⟨S16x128, .f32⟩ : BufTy).Contents (Elt F) → (⟨S16x128, .f32⟩ : BufTy).Contents (Elt F)),
    unary main_v69 main_v70 (broadcastInDim S16x128x1x1 ![0, 1] bcast_S16x128_S16x128x1x1_0_1 : (⟨S16x128, .f32⟩ : BufTy).Contents (Elt F) → (⟨S16x128x1x1, .f32⟩ : BufTy).Contents (Elt F)),
    unary main_v70 main_v71 (broadcastInDim S16x128x1x16384 ![0, 1, 2, 3] bcast_S16x128x1x1_S16x128x1x16384_0_1_2_3 : (⟨S16x128x1x1, .f32⟩ : BufTy).Contents (Elt F) → (⟨S16x128x1x16384, .f32⟩ : BufTy).Contents (Elt F)),
    binary main_arg0 main_v71 main_v72 (mulf : (⟨S16x128x1x16384, .f32⟩ : BufTy).Contents (Elt F) → (⟨S16x128x1x16384, .f32⟩ : BufTy).Contents (Elt F) → (⟨S16x128x1x16384, .f32⟩ : BufTy).Contents (Elt F)) ]

/-- The whole line. -/
abbrev ops : List (HloOp τ sig (Elt F)) := (opsA ++ opsB) ++ opsC

set_option maxRecDepth 8192 in
set_option maxHeartbeats 4000000 in
theorem main_part0_eq (c : Dev nD) : main_part0 (F := F) c = seq (opsA ++ opsB) := by
  simp only [main_part0, fn_var.body, fn_where.body, opsA, opsB, List.cons_append, List.nil_append, seq, bind_assoc, pure_bind]
  rfl

set_option maxRecDepth 8192 in
set_option maxHeartbeats 4000000 in
theorem main_part1_eq (c : Dev nD) : main_part1 (F := F) c = seq opsC := by
  simp only [main_part1, fn_relu.body, opsC, seq, bind_assoc, pure_bind]

set_option maxRecDepth 8192 in
theorem main_eq (c : Dev nD) : main (F := F) c = seq ops := by
  simp only [ops, seq_append (opsA ++ opsB) opsC, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨reshape_bufs_sub .., unary_bufs_sub .., binary_bufs_sub .., nullary_bufs_sub .., binary_bufs_sub .., binary_bufs_sub .., nullary_bufs_sub .., binary_bufs_sub ..,
    binary_bufs_sub .., unary_bufs_sub .., nullary_bufs_sub .., unary_bufs_sub .., binary_bufs_sub .., unary_bufs_sub .., binary_bufs_sub .., unary_bufs_sub ..,
    unary_bufs_sub .., binary_bufs_sub .., unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub .., nullary_bufs_sub .., binary_bufs_sub ..,
    unary_bufs_sub .., unary_bufs_sub .., binary_bufs_sub .., binary_bufs_sub .., nullary_bufs_sub .., binary_bufs_sub .., unary_bufs_sub .., unary_bufs_sub ..,
    unary_bufs_sub .., unary_bufs_sub .., binary_bufs_sub .., binary_bufs_sub ..⟩
set_option maxRecDepth 8192 in
theorem opsB_sub : (opsB : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..⟩
set_option maxRecDepth 8192 in
theorem opsC_sub : (opsC : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub ..,
    binary_bufs_sub .., nullary_bufs_sub .., binary_bufs_sub .., nullary_bufs_sub .., unary_bufs_sub .., binary_bufs_sub .., unary_bufs_sub .., binary_bufs_sub ..,
    unary_bufs_sub .., unary_bufs_sub .., binary_bufs_sub .., unary_bufs_sub .., unary_bufs_sub .., nullary_bufs_sub .., unary_bufs_sub .., binary_bufs_sub ..,
    nullary_bufs_sub .., unary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with (h | h) | h
    exacts [List.forall_iff_forall_mem.mp opsA_sub op h, List.forall_iff_forall_mem.mp opsB_sub op h,
      List.forall_iff_forall_mem.mp opsC_sub op h]

/-- Two lines run one after the other from `V`: the second from what the first leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## Each piece at the buffers the next one reads -/

set_option maxRecDepth 8192 in
set_option maxHeartbeats 4000000 in
theorem A_v36 (V : Valuation τ sig (Elt F)) :
    after opsA V (Proc.devRef .tc main_v36 : DevRef τ sig)
      = Terms.encode (V (Proc.devRef .tc main_arg0 : DevRef τ sig)) (V (Proc.devRef .tc main_arg1 : DevRef τ sig)) (V (Proc.devRef .tc main_arg2 : DevRef τ sig)) := by
  simp only [opsA]
  after_results_simp
  rfl
set_option maxRecDepth 8192 in
set_option maxHeartbeats 2000000 in
theorem A_arg0 (V : Valuation τ sig (Elt F)) : after opsA V (Proc.devRef .tc main_arg0 : DevRef τ sig) = V (Proc.devRef .tc main_arg0 : DevRef τ sig) := by
  simp only [opsA]
  after_results_simp
set_option maxRecDepth 8192 in
set_option maxHeartbeats 2000000 in
theorem A_arg1 (V : Valuation τ sig (Elt F)) : after opsA V (Proc.devRef .tc main_arg1 : DevRef τ sig) = V (Proc.devRef .tc main_arg1 : DevRef τ sig) := by
  simp only [opsA]
  after_results_simp
set_option maxRecDepth 8192 in
set_option maxHeartbeats 2000000 in
theorem A_arg2 (V : Valuation τ sig (Elt F)) : after opsA V (Proc.devRef .tc main_arg2 : DevRef τ sig) = V (Proc.devRef .tc main_arg2 : DevRef τ sig) := by
  simp only [opsA]
  after_results_simp
set_option maxRecDepth 8192 in
set_option maxHeartbeats 2000000 in
theorem A_arg3 (V : Valuation τ sig (Elt F)) : after opsA V (Proc.devRef .tc main_arg3 : DevRef τ sig) = V (Proc.devRef .tc main_arg3 : DevRef τ sig) := by
  simp only [opsA]
  after_results_simp
set_option maxRecDepth 8192 in
set_option maxHeartbeats 2000000 in
theorem A_arg4 (V : Valuation τ sig (Elt F)) : after opsA V (Proc.devRef .tc main_arg4 : DevRef τ sig) = V (Proc.devRef .tc main_arg4 : DevRef τ sig) := by
  simp only [opsA]
  after_results_simp
set_option maxRecDepth 8192 in
set_option maxHeartbeats 2000000 in
theorem A_arg5 (V : Valuation τ sig (Elt F)) : after opsA V (Proc.devRef .tc main_arg5 : DevRef τ sig) = V (Proc.devRef .tc main_arg5 : DevRef τ sig) := by
  simp only [opsA]
  after_results_simp
set_option maxRecDepth 8192 in
set_option maxHeartbeats 2000000 in
theorem A_arg6 (V : Valuation τ sig (Elt F)) : after opsA V (Proc.devRef .tc main_arg6 : DevRef τ sig) = V (Proc.devRef .tc main_arg6 : DevRef τ sig) := by
  simp only [opsA]
  after_results_simp

set_option maxRecDepth 8192 in
set_option maxHeartbeats 4000000 in
theorem B_v48 (V : Valuation τ sig (Elt F)) :
    after opsB V (Proc.devRef .tc main_v48 : DevRef τ sig)
      = Terms.normalized (Terms.centered (V (Proc.devRef .tc main_v36 : DevRef τ sig))) (Terms.varEps (V (Proc.devRef .tc main_v36 : DevRef τ sig))) := by
  simp only [opsB]
  after_results_simp
  rfl
set_option maxRecDepth 8192 in
set_option maxHeartbeats 2000000 in
theorem B_arg0 (V : Valuation τ sig (Elt F)) : after opsB V (Proc.devRef .tc main_arg0 : DevRef τ sig) = V (Proc.devRef .tc main_arg0 : DevRef τ sig) := by
  simp only [opsB]
  after_results_simp
set_option maxRecDepth 8192 in
set_option maxHeartbeats 2000000 in
theorem B_arg1 (V : Valuation τ sig (Elt F)) : after opsB V (Proc.devRef .tc main_arg1 : DevRef τ sig) = V (Proc.devRef .tc main_arg1 : DevRef τ sig) := by
  simp only [opsB]
  after_results_simp
set_option maxRecDepth 8192 in
set_option maxHeartbeats 2000000 in
theorem B_arg2 (V : Valuation τ sig (Elt F)) : after opsB V (Proc.devRef .tc main_arg2 : DevRef τ sig) = V (Proc.devRef .tc main_arg2 : DevRef τ sig) := by
  simp only [opsB]
  after_results_simp
set_option maxRecDepth 8192 in
set_option maxHeartbeats 2000000 in
theorem B_arg3 (V : Valuation τ sig (Elt F)) : after opsB V (Proc.devRef .tc main_arg3 : DevRef τ sig) = V (Proc.devRef .tc main_arg3 : DevRef τ sig) := by
  simp only [opsB]
  after_results_simp
set_option maxRecDepth 8192 in
set_option maxHeartbeats 2000000 in
theorem B_arg4 (V : Valuation τ sig (Elt F)) : after opsB V (Proc.devRef .tc main_arg4 : DevRef τ sig) = V (Proc.devRef .tc main_arg4 : DevRef τ sig) := by
  simp only [opsB]
  after_results_simp
set_option maxRecDepth 8192 in
set_option maxHeartbeats 2000000 in
theorem B_arg5 (V : Valuation τ sig (Elt F)) : after opsB V (Proc.devRef .tc main_arg5 : DevRef τ sig) = V (Proc.devRef .tc main_arg5 : DevRef τ sig) := by
  simp only [opsB]
  after_results_simp
set_option maxRecDepth 8192 in
set_option maxHeartbeats 2000000 in
theorem B_arg6 (V : Valuation τ sig (Elt F)) : after opsB V (Proc.devRef .tc main_arg6 : DevRef τ sig) = V (Proc.devRef .tc main_arg6 : DevRef τ sig) := by
  simp only [opsB]
  after_results_simp

set_option maxRecDepth 8192 in
set_option maxHeartbeats 4000000 in
theorem C_v72 (V : Valuation τ sig (Elt F)) :
    after opsC V (Proc.devRef .tc main_v72 : DevRef τ sig)
      = Terms.gated (V (Proc.devRef .tc main_arg0 : DevRef τ sig)) (Terms.gate (V (Proc.devRef .tc main_v48 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig))) := by
  simp only [opsC]
  after_results_simp
  rfl
set_option maxRecDepth 8192 in
set_option maxHeartbeats 2000000 in
theorem C_arg0 (V : Valuation τ sig (Elt F)) : after opsC V (Proc.devRef .tc main_arg0 : DevRef τ sig) = V (Proc.devRef .tc main_arg0 : DevRef τ sig) := by
  simp only [opsC]
  after_results_simp
set_option maxRecDepth 8192 in
set_option maxHeartbeats 2000000 in
theorem C_arg1 (V : Valuation τ sig (Elt F)) : after opsC V (Proc.devRef .tc main_arg1 : DevRef τ sig) = V (Proc.devRef .tc main_arg1 : DevRef τ sig) := by
  simp only [opsC]
  after_results_simp
set_option maxRecDepth 8192 in
set_option maxHeartbeats 2000000 in
theorem C_arg2 (V : Valuation τ sig (Elt F)) : after opsC V (Proc.devRef .tc main_arg2 : DevRef τ sig) = V (Proc.devRef .tc main_arg2 : DevRef τ sig) := by
  simp only [opsC]
  after_results_simp
set_option maxRecDepth 8192 in
set_option maxHeartbeats 2000000 in
theorem C_arg3 (V : Valuation τ sig (Elt F)) : after opsC V (Proc.devRef .tc main_arg3 : DevRef τ sig) = V (Proc.devRef .tc main_arg3 : DevRef τ sig) := by
  simp only [opsC]
  after_results_simp
set_option maxRecDepth 8192 in
set_option maxHeartbeats 2000000 in
theorem C_arg4 (V : Valuation τ sig (Elt F)) : after opsC V (Proc.devRef .tc main_arg4 : DevRef τ sig) = V (Proc.devRef .tc main_arg4 : DevRef τ sig) := by
  simp only [opsC]
  after_results_simp
set_option maxRecDepth 8192 in
set_option maxHeartbeats 2000000 in
theorem C_arg5 (V : Valuation τ sig (Elt F)) : after opsC V (Proc.devRef .tc main_arg5 : DevRef τ sig) = V (Proc.devRef .tc main_arg5 : DevRef τ sig) := by
  simp only [opsC]
  after_results_simp
set_option maxRecDepth 8192 in
set_option maxHeartbeats 2000000 in
theorem C_arg6 (V : Valuation τ sig (Elt F)) : after opsC V (Proc.devRef .tc main_arg6 : DevRef τ sig) = V (Proc.devRef .tc main_arg6 : DevRef τ sig) := by
  simp only [opsC]
  after_results_simp

/-! ## The whole line -/

theorem ops_v72 (V : Valuation τ sig (Elt F)) :
    after ops V (Proc.devRef .tc main_v72 : DevRef τ sig)
      = Terms.out (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) := by
  unfold Terms.out
  rw [after_app, after_app, C_v72, B_v48, A_v36, B_arg0, A_arg0, B_arg3, A_arg3, B_arg4, A_arg4, B_arg5, A_arg5, B_arg6, A_arg6]
theorem ops_arg0 (V : Valuation τ sig (Elt F)) : after ops V (Proc.devRef .tc main_arg0 : DevRef τ sig) = V (Proc.devRef .tc main_arg0 : DevRef τ sig) := by
  rw [after_app, after_app, C_arg0, B_arg0, A_arg0]
theorem ops_arg1 (V : Valuation τ sig (Elt F)) : after ops V (Proc.devRef .tc main_arg1 : DevRef τ sig) = V (Proc.devRef .tc main_arg1 : DevRef τ sig) := by
  rw [after_app, after_app, C_arg1, B_arg1, A_arg1]
theorem ops_arg2 (V : Valuation τ sig (Elt F)) : after ops V (Proc.devRef .tc main_arg2 : DevRef τ sig) = V (Proc.devRef .tc main_arg2 : DevRef τ sig) := by
  rw [after_app, after_app, C_arg2, B_arg2, A_arg2]
theorem ops_arg3 (V : Valuation τ sig (Elt F)) : after ops V (Proc.devRef .tc main_arg3 : DevRef τ sig) = V (Proc.devRef .tc main_arg3 : DevRef τ sig) := by
  rw [after_app, after_app, C_arg3, B_arg3, A_arg3]
theorem ops_arg4 (V : Valuation τ sig (Elt F)) : after ops V (Proc.devRef .tc main_arg4 : DevRef τ sig) = V (Proc.devRef .tc main_arg4 : DevRef τ sig) := by
  rw [after_app, after_app, C_arg4, B_arg4, A_arg4]
theorem ops_arg5 (V : Valuation τ sig (Elt F)) : after ops V (Proc.devRef .tc main_arg5 : DevRef τ sig) = V (Proc.devRef .tc main_arg5 : DevRef τ sig) := by
  rw [after_app, after_app, C_arg5, B_arg5, A_arg5]
theorem ops_arg6 (V : Valuation τ sig (Elt F)) : after ops V (Proc.devRef .tc main_arg6 : DevRef τ sig) = V (Proc.devRef .tc main_arg6 : DevRef τ sig) := by
  rw [after_app, after_app, C_arg6, B_arg6, A_arg6]

/-- On the one device, for any float values, from any memory with zero counters: every weakly fair execution of the
    reference terminates with its result buffer at `Terms.out` of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72)
          = Terms.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v72).trans (ops_v72 (launchContents m c)),
      (h c main_arg0).trans (ops_arg0 (launchContents m c)),
      (h c main_arg1).trans (ops_arg1 (launchContents m c)),
      (h c main_arg2).trans (ops_arg2 (launchContents m c)),
      (h c main_arg3).trans (ops_arg3 (launchContents m c)),
      (h c main_arg4).trans (ops_arg4 (launchContents m c)),
      (h c main_arg5).trans (ops_arg5 (launchContents m c)),
      (h c main_arg6).trans (ops_arg6 (launchContents m c))⟩)
    (run_seq scopedRefs_eq scopedSems_eq defs main (fun _ => ops) main_eq (fun _ => ops_sub) m ρ)

end Cert.ReferenceIdeal.Run

end
-- ==== Proof.Finite.lean ====
/-
  From the precondition — each of the seven float inputs satisfies `|a| < +∞` at every entry, the seven verdicts
  and-ed into one bit that is 1 — to: every entry of the first three inputs is a real number.
-/
import proofs.«404385_j35433480192595_3_alg».proof.Proof.Gen.Pre_finite_inputs
import proofs.«404385_j35433480192595_3_alg».proof.Proof.Spec
import Idealize.ShloMosaic.Lib.ReduceAll
import Idealize.ShloMosaic.Lib.IdealHost

noncomputable section

namespace Cert.Finite

open Idealize.ShloMosaic Idealize.ShloMosaic.ValueIdx

/-- The pattern `0x7F800000` is `+∞`. -/
theorem ofBits_inf : Ideal.ofBits .f32 0x7F800000#32 = (⊤ : EReal) := by simp [Ideal.ofBits, Ideal.ieee]

/-- An extended real whose absolute value `max x (−x)` compares below `+∞` is a real number. -/
theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  induction x using EReal.rec with
  | bot => simp at h
  | top => simp at h
  | coe r => exact ⟨r, rfl⟩

/-- The rank-0 shape has one index. -/
instance subsingleton_idx0 : Subsingleton (⟨0, ![]⟩ : Shape).Idx := ⟨fun a b => funext fun d => d.elim0⟩

/-- One input's verdict: if the and-reduction of `|x| < +∞` over every axis is 1, every entry of `x` is a real number. -/
theorem real_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (init : IVec ⟨0, ![]⟩ 1)
    (h : Host.reduce IntOp.andi
        (cmpf .olt (Host.absf x) (broadcastInDim s ![] hb (constant ⟨0, ![]⟩ .f32 0x7F800000#32))) init hr hu ix0 = 1#1)
    (i : s.Idx) : ∃ r : ℝ, x i = (r : EReal) := by
  have hi := Host.reduce_andi_all _ init hr hu ix0 h i
  rw [cmpf_apply, broadcastInDim_scalar_apply, constant_apply] at hi
  exact real_of_abs_lt_inf (x i) hi

/-- The precondition gives: every entry of the first three inputs is a real number. -/
theorem finiteIn_of_pre [hP : Cert.Pre_finite_inputs.Facts]
    (a0 : FVec Ideal Cert.Pre_finite_inputs.S16x128x1x16384 .f32) (a1 : FVec Ideal Cert.Pre_finite_inputs.S64x128 .f32)
    (a2 a3 a4 : FVec Ideal Cert.Pre_finite_inputs.S64 .f32) (a5 : FVec Ideal Cert.Pre_finite_inputs.S128x128 .f32)
    (a6 : FVec Ideal Cert.Pre_finite_inputs.S128 .f32)
    (h : Cert.Pre_finite_inputs.fn (F := Ideal) a0 a1 a2 a3 a4 a5 a6 = fun _ => 1#1) :
    Cert.Spec.FiniteIn (fun b c s => a0 (ix4 b c 0 s)) (fun k c => a1 (ix2 k c)) (fun k => a2 (ix1 k)) := by
  have h33 := congrFun h ix0
  dsimp only [Cert.Pre_finite_inputs.fn, Cert.Pre_finite_inputs.fn_part1] at h33
  have h28 := (IntOp.andi_eq_one.1 h33).1
  have h23 := (IntOp.andi_eq_one.1 h28).1
  have h18 := (IntOp.andi_eq_one.1 h23).1
  have h13 := (IntOp.andi_eq_one.1 h18).1
  obtain ⟨h8, h12⟩ := IntOp.andi_eq_one.1 h13
  obtain ⟨h3, h7⟩ := IntOp.andi_eq_one.1 h8
  exact ⟨fun b c s => real_of_all a0 _ _ _ _ h3 (ix4 b c 0 s),
    fun k c => real_of_all a1 _ _ _ _ h7 (ix2 k c),
    fun k => real_of_all a2 _ _ _ _ h12 (ix1 k)⟩

end Cert.Finite

end
-- ==== Proof.lean ====
/-
  The certificate: an encoding layer with a learned codebook (soft assignment of 16384 positions to 64 codewords,
  residual aggregation, batch normalisation over the codewords, a rectifier, a mean, a linear layer and a logistic gate
  that rescales the input) as two Pallas kernels with host operations between them, against the plain jnp reference.

  frame_Kernel, frame_KernelIdeal: the generated frames of the two-region program.
  frame_ReferenceIdeal: the reference's run, read back by hand (it calls an outlined variance function), its value dropped.
  preserves_Kernel_KernelIdeal: the ideal pass rewrote nothing.
  algebraic_KernelIdeal_ReferenceIdeal: both runs end with the result array at ONE term of the inputs, the reference's.
    On the kernel's side: the first kernel's result array is the residual sums in the kernel's arrangement — the smoothing
    factor distributed over the expanded squared distance, the positions walked in eight chunks whose partial sums are
    added into accumulators —, which for finite inputs is the reference's arrangement (distributivity holds on the reals,
    and finite sums on the extended reals may be regrouped freely); the host chain between the kernels differs from the
    reference's in one place, `(e − mean) · rsqrt(var + ε)` against `(e − mean) / sqrt(var + ε)`, equal because a
    variance is nonnegative and ε positive; the second kernel multiplies `x` by the gate column block by block, which is
    the reference's broadcast product.
-/
import proofs.«404385_j35433480192595_3_alg».proof.Defs
import proofs.«404385_j35433480192595_3_alg».proof.Proof.Gen.Kernel
import proofs.«404385_j35433480192595_3_alg».proof.Proof.Gen.Kernel.Skeleton
import proofs.«404385_j35433480192595_3_alg».proof.Proof.Gen.Kernel.Loops
import proofs.«404385_j35433480192595_3_alg».proof.Proof.Gen.Kernel.Launch
import proofs.«404385_j35433480192595_3_alg».proof.Proof.Gen.Kernel.Points
import proofs.«404385_j35433480192595_3_alg».proof.Proof.Gen.Kernel.Frame
import proofs.«404385_j35433480192595_3_alg».proof.Proof.Gen.KernelIdeal
import proofs.«404385_j35433480192595_3_alg».proof.Proof.Gen.KernelIdeal.Skeleton
import proofs.«404385_j35433480192595_3_alg».proof.Proof.Gen.KernelIdeal.Loops
import proofs.«404385_j35433480192595_3_alg».proof.Proof.Gen.KernelIdeal.Launch
import proofs.«404385_j35433480192595_3_alg».proof.Proof.Gen.KernelIdeal.Points
import proofs.«404385_j35433480192595_3_alg».proof.Proof.Gen.KernelIdeal.Frame
import proofs.«404385_j35433480192595_3_alg».proof.Proof.Gen.ReferenceIdeal
import proofs.«404385_j35433480192595_3_alg».proof.Proof.Gen.Pre_finite_inputs
import proofs.«404385_j35433480192595_3_alg».proof.Proof.KernelValue
import proofs.«404385_j35433480192595_3_alg».proof.Proof.RefRun
import proofs.«404385_j35433480192595_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Run.run (F := Ideal) m ρ)

/-- From memories agreeing on the arguments both runs end with the result at the reference's term of the kernel's
    launch contents: the kernel's by its run read as a value (the inputs finite, by the precondition), the reference's by
    its own run and the agreement. -/
theorem algebraic : Cert.algebraic_KernelIdeal_ReferenceIdeal := by
  intro m ρ m' ρ' hpre hagree
  refine ⟨_, Cert.KernelIdeal.Value.run m ρ (fun c => Cert.Finite.finiteIn_of_pre _ _ _ _ _ _ _ (hpre c)), ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
